-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000x64 : Shape := ⟨2, ![1600000, 64]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S2x1600000 32 := broadcastInDim S2x1600000 ![] bcast_S_S2x1600000 main_c_22
  let main_v60 : IVec S2x1600000 1 := cmpi .sge main_arg1 main_v59
  let main_c_23 : IVec S_ 1 := constantI S_ 1 1#1
  let main_v61 : IVec S_ 1 := (fun x v => Host.reduce IntOp.andi x v reducesTo_S2x1600000_S_d0_1 h_S_) main_v60 main_c_23
  let main_v62 : IVec S_ 1 := andi main_v58 main_v61
  let main_c_24 : IVec S_ 32 := constantI S_ 32 50000#32
  let main_v63 : IVec S2x1600000 32 := broadcastInDim S2x1600000 ![] bcast_S_S2x1600000 main_c_24
  let main_v64 : IVec S2x1600000 1 := cmpi .slt main_arg1 main_v63
  let main_c_25 : IVec S_ 1 := constantI S_ 1 1#1
  let main_v65 : IVec S_ 1 := (fun x v => Host.reduce IntOp.andi x v reducesTo_S2x1600000_S_d0_1 h_S_) main_v64 main_c_25
  let main_v66 : IVec S_ 1 := andi main_v62 main_v65
  main_v66

def fn_part2 {F : FTy → Type} [FloatOps F] (main_arg1 : IVec S2x1600000 32) (main_arg8 : FVec F S64 .f32) (main_arg9 : FVec F S64 .f32) (main_arg10 : FVec F S64 .f32) (main_arg11 : FVec F S64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_v48 main_v49 main_v50

def fn_part1 {F : FTy → Type} [FloatOps F] (main_arg1 : IVec S2x1600000 32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x64 .f32) (main_arg1 : IVec S2x1600000 32) (main_arg2 : FVec F S1600000x64 .f32) (main_arg3 : FVec F S192x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S192x64 .f32 := Host.absf main_arg3
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_v13 main_v16
-- ==== Kernel.lean ====
abbrev S50000x64 : Shape := ⟨2, ![50000, 64]⟩
abbrev S2x1600000 : Shape := ⟨2, ![2, 1600000]⟩
abbrev S1600000x64 : Shape := ⟨2, ![1600000, 64]⟩
abbrev S192x64 : Shape := ⟨2, ![192, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1x64 : Shape := ⟨2, ![1, 64]⟩
abbrev S10000x64 : Shape := ⟨2, ![10000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S320x8x64 : Shape := ⟨3, ![320, 8, 64]⟩
abbrev S5000x64 : Shape := ⟨2, ![5000, 64]⟩
abbrev S1x8x64 : Shape := ⟨3, ![1, 8, 64]⟩
abbrev S1x1x64 : Shape := ⟨3, ![1, 1, 64]⟩
abbrev S800000x128 : Shape := ⟨2, ![800000, 128]⟩
abbrev S1x1x1x64 : Shape := ⟨4, ![1, 1, 1, 64]⟩
abbrev S1x1x2x64 : Shape := ⟨4, ![1, 1, 2, 64]⟩
abbrev S1x128 : Shape := ⟨2, ![1, 128]⟩
abbrev S4000x128 : Shape := ⟨2, ![4000, 128]⟩
abbrev S10x8x64 : Shape := ⟨3, ![10, 8, 64]⟩
abbrev S25000x128 : Shape := ⟨2, ![25000, 128]⟩
abbrev S5000x128 : Shape := ⟨2, ![5000, 128]⟩

abbrev nBuf : Space → Nat
  | .hbm => 163
  | .vmem => 52
  | .smem => 0
  | _ => 0

abbrev hbmTy0_0 (i : Nat) : BufTy := match i % 128 with
  | 0 => ⟨S50000x64, .f32⟩
  | 1 => ⟨S2x1600000, .i32⟩
  | 2 => ⟨S1600000x64, .f32⟩
  | 3 => ⟨S192x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S1x64, .f32⟩
  | 18 => ⟨S1x64, .f32⟩
  | 19 => ⟨S1x64, .f32⟩
  | 20 => ⟨S1x64, .f32⟩
  | 21 => ⟨S1x64, .f32⟩
  | 22 => ⟨S1x64, .f32⟩
  | 23 => ⟨S1x64, .f32⟩
  | 24 => ⟨S50000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1, .i32⟩
  | 34 => ⟨S_, .i32⟩
  | 35 => ⟨S1600000x1, .i32⟩
  | 36 => ⟨S1600000x1, .i1⟩
  | 37 => ⟨S1x1, .i32⟩
  | 38 => ⟨S1600000x1, .i32⟩
  | 39 => ⟨S1600000x1, .i1⟩
  | 40 => ⟨S1600000x1, .i1⟩
  | 41 => ⟨S_, .i1⟩
  | 42 => ⟨S1600000, .i1⟩
  | 43 => ⟨S1600000x64, .f32⟩
  | 44 => ⟨S1600000x64, .i1⟩
  | 45 => ⟨S_, .f32⟩
  | 46 => ⟨S1600000x64, .f32⟩
  | 47 => ⟨S1600000x64, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1, .i32⟩
  | 57 => ⟨S_, .i32⟩
  | 58 => ⟨S1600000x1, .i32⟩
  | 59 => ⟨S1600000x1, .i1⟩
  | 60 => ⟨S1x1, .i32⟩
  | 61 => ⟨S1600000x1, .i32⟩
  | 62 => ⟨S1600000x1, .i1⟩
  | 63 => ⟨S1600000x1, .i1⟩
  | 64 => ⟨S_, .i1⟩
  | 65 => ⟨S1600000, .i1⟩
  | 66 => ⟨S1600000x64, .f32⟩
  | 67 => ⟨S1600000x64, .i1⟩
  | 68 => ⟨S_, .f32⟩
  | 69 => ⟨S1600000x64, .f32⟩
  | 70 => ⟨S1600000x64, .f32⟩
  | 71 => ⟨S64x64, .f32⟩
  | 72 => ⟨S64x64, .f32⟩
  | 73 => ⟨S64x64, .f32⟩
  | 74 => ⟨S1600000x64, .f32⟩
  | 75 => ⟨S1600000x64, .f32⟩
  | 76 => ⟨S320x8x64, .f32⟩
  | 77 => ⟨S320x8x64, .f32⟩
  | 78 => ⟨S_, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S1x64, .f32⟩
  | 92 => ⟨S_, .f32⟩
  | 93 => ⟨S64, .f32⟩
  | 94 => ⟨S64, .f32⟩
  | 95 => ⟨S1x64, .f32⟩
  | 96 => ⟨S1x64, .f32⟩
  | 97 => ⟨S1x64, .f32⟩
  | 98 => ⟨S_, .f32⟩
  | 99 => ⟨S1x64, .f32⟩
  | 100 => ⟨S1x64, .f32⟩
  | 101 => ⟨S1x64, .f32⟩
  | 102 => ⟨S800000x128, .f32⟩
  | 103 => ⟨S1x1x1x64, .f32⟩
  | 104 => ⟨S1x1x2x64, .f32⟩
  | 105 => ⟨S1x128, .f32⟩
  | 106 => ⟨S1x1x1x64, .f32⟩
  | 107 => ⟨S1x1x2x64, .f32⟩
  | 108 => ⟨S1x128, .f32⟩
  | 109 => ⟨S1x1x1x64, .f32⟩
  | 110 => ⟨S1x1x2x64, .f32⟩
  | 111 => ⟨S1x128, .f32⟩
  | 112 => ⟨S1x1x1x64, .f32⟩
  | 113 => ⟨S1x1x2x64, .f32⟩
  | 114 => ⟨S1x128, .f32⟩
  | 115 => ⟨S800000x128, .f32⟩
  | 116 => ⟨S1600000x64, .f32⟩
  | 117 => ⟨S_, .f32⟩
  | 118 => ⟨S50000x64, .f32⟩
  | 119 => ⟨S1600000x1, .i32⟩
  | 120 => ⟨S50000x64, .f32⟩
  | 121 => ⟨S50000x64, .f32⟩
  | 122 => ⟨S10x8x64, .f32⟩
  | 123 => ⟨S10x8x64, .f32⟩
  | 124 => ⟨S_, .f32⟩
  | 125 => ⟨S64, .f32⟩
  | 126 => ⟨S_, .f32⟩
  | 127 => ⟨S64, .f32⟩
  | _ => ⟨S50000x64, .f32⟩

abbrev hbmTy0_1 (i : Nat) : BufTy := match i % 128 with
  | 0 => ⟨S64, .f32⟩
  | 1 => ⟨S_, .f32⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S1x64, .f32⟩
  | 10 => ⟨S_, .f32⟩
  | 11 => ⟨S64, .f32⟩
  | 12 => ⟨S64, .f32⟩
  | 13 => ⟨S1x64, .f32⟩
  | 14 => ⟨S1x64, .f32⟩
  | 15 => ⟨S1x64, .f32⟩
  | 16 => ⟨S_, .f32⟩
  | 17 => ⟨S1x64, .f32⟩
  | 18 => ⟨S1x64, .f32⟩
  | 19 => ⟨S1x64, .f32⟩
  | 20 => ⟨S25000x128, .f32⟩
  | 21 => ⟨S1x1x1x64, .f32⟩
  | 22 => ⟨S1x1x2x64, .f32⟩
  | 23 => ⟨S1x128, .f32⟩
  | 24 => ⟨S1x1x1x64, .f32⟩
  | 25 => ⟨S1x1x2x64, .f32⟩
  | 26 => ⟨S1x128, .f32⟩
  | 27 => ⟨S1x1x1x64, .f32⟩
  | 28 => ⟨S1x1x2x64, .f32⟩
  | 29 => ⟨S1x128, .f32⟩
  | 30 => ⟨S1x1x1x64, .f32⟩
  | 31 => ⟨S1x1x2x64, .f32⟩
  | 32 => ⟨S1x128, .f32⟩
  | 33 => ⟨S25000x128, .f32⟩
  | 34 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x8x64, .f32⟩
  | .local _ .vmem, ⟨23, _⟩ => ⟨S1x8x64, .f32⟩
  | .local _ .vmem, ⟨24, _⟩ => ⟨S1x8x64, .f32⟩
  | .local _ .vmem, ⟨25, _⟩ => ⟨S1x8x64, .f32⟩
  | .local _ .vmem, ⟨26, _⟩ => ⟨S4000x128, .f32⟩
  | .local _ .vmem, ⟨27, _⟩ => ⟨S4000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S4000x128, .f32⟩
  | .local _ .vmem, ⟨33, _⟩ => ⟨S4000x128, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S1x8x64, .f32⟩
  | .local _ .vmem, ⟨41, _⟩ => ⟨S1x8x64, .f32⟩
  | .local _ .vmem, ⟨42, _⟩ => ⟨S1x8x64, .f32⟩
  | .local _ .vmem, ⟨43, _⟩ => ⟨S1x8x64, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v12 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17_0 : Ref sig .tc := ⟨.hbm, 74, rfl⟩
abbrev main_v17_1 : Ref sig .tc := ⟨.hbm, 75, rfl⟩
abbrev main_v17_2 : Ref sig .tc := ⟨.hbm, 76, rfl⟩
abbrev main_v17_3 : Ref sig .tc := ⟨.hbm, 77, rfl⟩
abbrev main_cst : Ref sig .tc := ⟨.hbm, 78, rfl⟩
abbrev main_v18 : Ref sig .tc := ⟨.hbm, 79, rfl⟩
abbrev main_cst_0 : Ref sig .tc := ⟨.hbm, 80, rfl⟩
abbrev main_v19 : Ref sig .tc := ⟨.hbm, 81, rfl⟩
abbrev main_v20 : Ref sig .tc := ⟨.hbm, 82, rfl⟩
abbrev main_cst_1 : Ref sig .tc := ⟨.hbm, 83, rfl⟩
abbrev main_v21 : Ref sig .tc := ⟨.hbm, 84, rfl⟩
abbrev main_cst_2 : Ref sig .tc := ⟨.hbm, 85, rfl⟩
abbrev main_v22 : Ref sig .tc := ⟨.hbm, 86, rfl⟩
abbrev main_v23 : Ref sig .tc := ⟨.hbm, 87, rfl⟩
abbrev main_cst_3 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_4 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_cst_5 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_cst_6 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53_0 : Ref sig .tc := ⟨.hbm, 121, rfl⟩
abbrev main_v53_1 : Ref sig .tc := ⟨.hbm, 122, rfl⟩
abbrev main_v53_2 : Ref sig .tc := ⟨.hbm, 123, rfl⟩
abbrev main_cst_7 : Ref sig .tc := ⟨.hbm, 124, rfl⟩
abbrev main_v54 : Ref sig .tc := ⟨.hbm, 125, rfl⟩
abbrev main_cst_8 : Ref sig .tc := ⟨.hbm, 126, rfl⟩
abbrev main_v55 : Ref sig .tc := ⟨.hbm, 127, rfl⟩
abbrev main_v56 : Ref sig .tc := ⟨.hbm, 128, rfl⟩
abbrev main_cst_9 : Ref sig .tc := ⟨.hbm, 129, rfl⟩
abbrev main_v57 : Ref sig .tc := ⟨.hbm, 130, rfl⟩
abbrev main_cst_10 : Ref sig .tc := ⟨.hbm, 131, rfl⟩
abbrev main_v58 : Ref sig .tc := ⟨.hbm, 132, rfl⟩
abbrev main_v59 : Ref sig .tc := ⟨.hbm, 133, rfl⟩
abbrev main_cst_11 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_cst_12 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_cst_13 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x8x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x8x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x8x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x8x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S192x64_S64x64_0_0 : S192x64.Slices ![0, 0] S64x64
  slices_S192x64_S64x64_64_0 : S192x64.Slices ![64, 0] S64x64
  slices_S192x64_S64x64_128_0 : S192x64.Slices ![128, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x64_S64x64 : S64x64.ShapeCasts S64x64
  broadcasts_S1x64_S5000x64 : S1x64.Broadcasts S5000x64
  reduces_S5000x64_S64 : S5000x64.Reduces [0] S64
  shapeCasts_S1x64_S1x1x64 : S1x64.ShapeCasts S1x1x64
  shapeCasts_S1x1x64_S1x1x64 : S1x1x64.ShapeCasts S1x1x64
  broadcasts_S1x1x64_S1x8x64 : S1x1x64.Broadcasts S1x8x64
  inb_S1x8x64_S1x8x64_0_0_0 : ∀ a, (![0, 0, 0] : Fin 3 → Nat) a + S1x8x64.size a ≤ S1x8x64.size a
  h_S1x8x64 : 0 < S1x8x64.numel
  reducesTo_S320x8x64_S64_d0_1 : S320x8x64.ReducesTo [0, 1] S64
  bcast_S_S64 : S_.BroadcastsInDim S64 (![] : Fin 0 → Fin S64.rank)
  bcast_S_S1x64 : S_.BroadcastsInDim S1x64 (![] : Fin 0 → Fin S1x64.rank)
  shapeCasts_S1600000x64_S800000x128 : S1600000x64.ShapeCasts S800000x128
  shapeCasts_S1x64_S1x1x1x64 : S1x64.ShapeCasts S1x1x1x64
  bcast_S1x1x1x64_S1x1x2x64_0_1_2_3 : S1x1x1x64.BroadcastsInDim S1x1x2x64 (![0, 1, 2, 3] : Fin 4 → Fin S1x1x2x64.rank)
  shapeCasts_S1x1x2x64_S1x128 : S1x1x2x64.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S800000x128_S1600000x64 : S800000x128.ShapeCasts S1600000x64
  bcast_S_S50000x64 : S_.BroadcastsInDim S50000x64 (![] : Fin 0 → Fin S50000x64.rank)
  reducesTo_S10x8x64_S64_d0_1 : S10x8x64.ReducesTo [0, 1] S64
  shapeCasts_S50000x64_S25000x128 : S50000x64.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  shapeCasts_S25000x128_S50000x64 : S25000x128.ShapeCasts S50000x64
  dot_S10000x64_S64x64_S10000x64_1_0_0_1_n_n_wf : DotDims.WF S10000x64 S64x64 S10000x64 [1] [0] [0] [1] [] []
  gather_S50000x64_S1600000x1_S1600000x64_1_0_n_n_0_1_164_wf : GatherDims.WF S50000x64 S1600000x1 S1600000x64 [1] [0] [] [0] [] 1 ![1, 64]
  dot_S5000x64_S64x64_S5000x64_1_0_0_1_n_n_wf : DotDims.WF S5000x64 S64x64 S5000x64 [1] [0] [0] [1] [] []
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1600000x64.size a
  hwx1_0 : ∀ i : grid1.Coords, EltTy.bits .f32 = 32 ∨ (Rect.block (s := S1600000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1600000x64.size a
  hwx1_1 : ∀ i : grid1.Coords, EltTy.bits .f32 = 32 ∨ (Rect.block (s := S1600000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1600000x64.size a
  hwx1_2 : ∀ i : grid1.Coords, EltTy.bits .f32 = 32 ∨ (Rect.block (s := S1600000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S1600000x64.size a
  hwx1_9 : ∀ i : grid1.Coords, EltTy.bits .f32 = 32 ∨ (Rect.block (s := S1600000x64) S5000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S1600000x64.size a
  hwx1_10 : ∀ i : grid1.Coords, EltTy.bits .f32 = 32 ∨ (Rect.block (s := S1600000x64) S5000x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x8x64.size a ≤ S320x8x64.size a
  hwx1_11 : ∀ i : grid1.Coords, EltTy.bits .f32 = 32 ∨ (Rect.block (s := S320x8x64) S1x8x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x8x64.size a ≤ S320x8x64.size a
  hwx1_12 : ∀ i : grid1.Coords, EltTy.bits .f32 = 32 ∨ (Rect.block (s := S320x8x64) S1x8x64.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S800000x128.size a
  hwx2_5 : ∀ i : grid2.Coords, EltTy.bits .f32 = 32 ∨ (Rect.block (s := S800000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x8x64.size a ≤ S10x8x64.size a
  hwx3_3 : ∀ i : grid3.Coords, EltTy.bits .f32 = 32 ∨ (Rect.block (s := S10x8x64) S1x8x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x8x64.size a ≤ S10x8x64.size a
  hwx3_4 : ∀ i : grid3.Coords, EltTy.bits .f32 = 32 ∨ (Rect.block (s := S10x8x64) S1x8x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S25000x128.size a
  hwx4_0 : ∀ i : grid4.Coords, EltTy.bits .f32 = 32 ∨ (Rect.block (s := S25000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S25000x128.size a
  hwx4_5 : ∀ i : grid4.Coords, EltTy.bits .f32 = 32 ∨ (Rect.block (s := S25000x128) S5000x128.size (cc4_transform_5 i) (hinb4_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17_0) S5000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v17_1) S5000x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v17_2) S1x8x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v17_3) S1x8x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v35) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v11) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53_1) S1x8x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v53_2) S1x8x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000x64 : Shape := ⟨2, ![1600000, 64]⟩
abbrev S192x64 : Shape := ⟨2, ![192, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩

abbrev nBuf : Space → Nat
  | .hbm => 147
  | .vmem => 0
  | .smem => 0
  | _ => 0

abbrev hbmTy0_0 (i : Nat) : BufTy := match i % 128 with
  | 0 => ⟨S50000x64, .f32⟩
  | 1 => ⟨S2x1600000, .i32⟩
  | 2 => ⟨S1600000x64, .f32⟩
  | 3 => ⟨S192x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S64x64, .f32⟩
  | 27 => ⟨S1600000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S64x64, .f32⟩
  | 38 => ⟨S1600000x64, .f32⟩
  | 39 => ⟨S1600000x64, .f32⟩
  | 40 => ⟨S64x64, .f32⟩
  | 41 => ⟨S1600000x64, .f32⟩
  | 42 => ⟨S1600000x64, .f32⟩
  | 43 => ⟨S1x64, .f32⟩
  | 44 => ⟨S1600000x64, .f32⟩
  | 45 => ⟨S1600000x64, .f32⟩
  | 46 => ⟨S_, .f32⟩
  | 47 => ⟨S_, .f32⟩
  | 48 => ⟨S1600000x64, .f32⟩
  | 49 => ⟨S1600000x64, .f32⟩
  | 50 => ⟨S1600000x64, .f32⟩
  | 51 => ⟨S1600000x64, .f32⟩
  | 52 => ⟨S_, .f32⟩
  | 53 => ⟨S1600000x64, .f32⟩
  | 54 => ⟨S1600000x64, .f32⟩
  | 55 => ⟨S_, .f32⟩
  | 56 => ⟨S1600000x64, .f32⟩
  | 57 => ⟨S1600000x64, .f32⟩
  | 58 => ⟨S50000x64, .f32⟩
  | 59 => ⟨S1x64, .f32⟩
  | 60 => ⟨S50000x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S1600000x64, .f32⟩
  | 76 => ⟨S_, .f32⟩
  | 77 => ⟨S50000x64, .f32⟩
  | 78 => ⟨S1600000x1, .i32⟩
  | 79 => ⟨S50000x64, .f32⟩
  | 80 => ⟨S50000x64, .f32⟩
  | 81 => ⟨S_, .f32⟩
  | 82 => ⟨S64, .f32⟩
  | 83 => ⟨S_, .f32⟩
  | 84 => ⟨S64, .f32⟩
  | 85 => ⟨S64, .f32⟩
  | 86 => ⟨S1x64, .f32⟩
  | 87 => ⟨S50000x64, .f32⟩
  | 88 => ⟨S50000x64, .f32⟩
  | 89 => ⟨S50000x64, .f32⟩
  | 90 => ⟨S_, .f32⟩
  | 91 => ⟨S64, .f32⟩
  | 92 => ⟨S_, .f32⟩
  | 93 => ⟨S64, .f32⟩
  | 94 => ⟨S64, .f32⟩
  | 95 => ⟨S1x64, .f32⟩
  | 96 => ⟨S50000x64, .f32⟩
  | 97 => ⟨S50000x64, .f32⟩
  | 98 => ⟨S_, .f32⟩
  | 99 => ⟨S64, .f32⟩
  | 100 => ⟨S64, .f32⟩
  | 101 => ⟨S64, .f32⟩
  | 102 => ⟨S1x64, .f32⟩
  | 103 => ⟨S50000x64, .f32⟩
  | 104 => ⟨S50000x64, .f32⟩
  | 105 => ⟨S1x64, .f32⟩
  | 106 => ⟨S50000x64, .f32⟩
  | 107 => ⟨S50000x64, .f32⟩
  | 108 => ⟨S1x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S_, .f32⟩
  | 115 => ⟨S64, .f32⟩
  | 116 => ⟨S_, .f32⟩
  | 117 => ⟨S64, .f32⟩
  | 118 => ⟨S64, .f32⟩
  | 119 => ⟨S1x64, .f32⟩
  | 120 => ⟨S1600000x64, .f32⟩
  | 121 => ⟨S1600000x64, .f32⟩
  | 122 => ⟨S1600000x64, .f32⟩
  | 123 => ⟨S_, .f32⟩
  | 124 => ⟨S64, .f32⟩
  | 125 => ⟨S_, .f32⟩
  | 126 => ⟨S64, .f32⟩
  | 127 => ⟨S64, .f32⟩
  | _ => ⟨S50000x64, .f32⟩

abbrev hbmTy0_1 (i : Nat) : BufTy := match i % 128 with
  | 0 => ⟨S1x64, .f32⟩
  | 1 => ⟨S1600000x64, .f32⟩
  | 2 => ⟨S1600000x64, .f32⟩
  | 3 => ⟨S_, .f32⟩
  | 4 => ⟨S64, .f32⟩
  | 5 => ⟨S64, .f32⟩
  | 6 => ⟨S64, .f32⟩
  | 7 => ⟨S1x64, .f32⟩
  | 8 => ⟨S1600000x64, .f32⟩
  | 9 => ⟨S1600000x64, .f32⟩
  | 10 => ⟨S1x64, .f32⟩
  | 11 => ⟨S1600000x64, .f32⟩
  | 12 => ⟨S1600000x64, .f32⟩
  | 13 => ⟨S1x64, .f32⟩
  | 14 => ⟨S1600000x64, .f32⟩
  | 15 => ⟨S1600000x64, .f32⟩
  | 16 => ⟨S_, .f32⟩
  | 17 => ⟨S1600000x64, .f32⟩
  | 18 => ⟨S1600000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_5 : Ref sig .tc := ⟨.hbm, 66, rfl⟩
abbrev main_v46 : Ref sig .tc := ⟨.hbm, 67, rfl⟩
abbrev main_v47 : Ref sig .tc := ⟨.hbm, 68, rfl⟩
abbrev main_c_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call0_cst : Ref sig .tc := ⟨.hbm, 111, rfl⟩
abbrev main_call0_v0 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_15 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_17 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_call1_cst : Ref sig .tc := ⟨.hbm, 144, rfl⟩
abbrev main_call1_v0 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  reducesTo_S1600000x64_S64_d0 : S1600000x64.ReducesTo [0] S64
  gather_S50000x64_S1600000x1_S1600000x64_1_0_n_n_0_1_164_wf : GatherDims.WF S50000x64 S1600000x1 S1600000x64 [1] [0] [] [0] [] 1 ![1, 64]
  dot_S1600000x64_S64x64_S1600000x64_1_0_0_1_n_n_wf : DotDims.WF S1600000x64 S64x64 S1600000x64 [1] [0] [0] [1] [] []
  dot_S50000x64_S64x64_S50000x64_1_0_0_1_n_n_wf : DotDims.WF S50000x64 S64x64 S50000x64 [1] [0] [0] [1] [] []
  scatter_S50000x64_S1600000x1_S1600000x64_1_0_0_1_wf : ScatterDims.WF S50000x64 S1600000x1 S1600000x64 [1] [0] [0] 1

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.Spec.lean ====
/-
  The mathematics both programs compute, index by index over the extended reals.

  A graph layer with N = 50000 nodes and E = 1600000 edges, feature width 64.  Each edge e has a source
  row and a destination row of the node features x, read off the integer array ei (two rows of E words):
  a word is first normalised (a negative word has N added, as Python indexing does) and then clamped into
  [0, N-1], which is how a row gather reads its start index.

    M e j    = sum_k x(src e) k * Wg k j + sum_k x(dst e) k * Wg (64+k) j + sum_k ea e k * Wg (128+k) j + bg j
    T e j    = sigma (M e j) * (sum_k x(dst e) k * Wd k j + bd j)
    H i j    = (sum_k x i k * Ws k j + bs j) + (sum of T e j over the edges e whose raw source word is i)
    out A    = max (((A - mean A) * rsqrt (var A + eps)) * gamma + beta) 0      per column, over the rows of A

  The two programs differ in how sigma, the mean and the variance are spelt; the lemmas that join the two
  spellings are stated in Proof/SpecMath.lean.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The float constants the programs spell, as words -/

abbrev z : EReal := Ideal.ofBits .f32 0x00000000#32
abbrev one : EReal := Ideal.ofBits .f32 0x3F800000#32
abbrev c8 : EReal := Ideal.ofBits .f32 0x41000000#32
abbrev c64 : EReal := Ideal.ofBits .f32 0x42800000#32
abbrev c0125 : EReal := Ideal.ofBits .f32 0x3E000000#32
abbrev cE : EReal := Ideal.ofBits .f32 0x49C35000#32
abbrev cN : EReal := Ideal.ofBits .f32 0x47435000#32
abbrev eps : EReal := Ideal.ofBits .f32 0x3727C5AC#32

/-- An extended real that is a real number. -/
def IsReal (x : EReal) : Prop := ∃ r : ℝ, x = (r : EReal)

/-! ## Shapes of the whole arrays -/

abbrev SN64 : Shape := ⟨2, ![50000, 64]⟩
abbrev SE64 : Shape := ⟨2, ![1600000, 64]⟩
abbrev SE1 : Shape := ⟨2, ![1600000, 1]⟩

/-! ## Rows read by an index word -/

/-- A negative index word counts from the end: N is added to it. -/
def nrm (w : BitVec 32) : BitVec 32 := Scalar.select (IntOp.cmpi .slt w 0#32) (IntOp.addi w 50000#32) w

/-- The row of a [50000, 64] array a gather reads at start word w: the normalised word, signed, clamped into range. -/
def row (w : BitVec 32) : Fin 50000 := ⟨min (nrm w).toInt.toNat 49999, by omega⟩

section Layer

variable (x : Fin 50000 → Fin 64 → EReal) (ei : Fin 2 → Fin 1600000 → BitVec 32)
  (ea : Fin 1600000 → Fin 64 → EReal) (wg : Fin 192 → Fin 64 → EReal) (bg : Fin 64 → EReal)
  (ws : Fin 64 → Fin 64 → EReal) (bs : Fin 64 → EReal) (wd : Fin 64 → Fin 64 → EReal) (bd : Fin 64 → EReal)

/-- The node features gathered at each edge's source row. -/
def gs (e : Fin 1600000) (k : Fin 64) : EReal := x (row (ei 0 e)) k
/-- The node features gathered at each edge's destination row. -/
def gd (e : Fin 1600000) (k : Fin 64) : EReal := x (row (ei 1 e)) k

/-- A row-wise affine map: A W + b. -/
def lin {R : Nat} (A : Fin R → Fin 64 → EReal) (W : Fin 64 → Fin 64 → EReal) (b : Fin 64 → EReal)
    (i : Fin R) (j : Fin 64) : EReal := (∑ k : Fin 64, A i k * W k j) + b j

/-- The gate's pre-activation from three row blocks and three weight blocks, summed left to right, plus the bias. -/
def gateMg {R : Nat} (GS GD EA : Fin R → Fin 64 → EReal) (W1 W2 W3 : Fin 64 → Fin 64 → EReal) (b : Fin 64 → EReal)
    (e : Fin R) (j : Fin 64) : EReal :=
  (((∑ k : Fin 64, GS e k * W1 k j) + (∑ k : Fin 64, GD e k * W2 k j)) + (∑ k : Fin 64, EA e k * W3 k j)) + b j

/-- The three 64-row blocks of the [192, 64] gate weight. -/
def wg1 (k j : Fin 64) : EReal := wg ⟨k.val, by have := k.isLt; omega⟩ j
def wg2 (k j : Fin 64) : EReal := wg ⟨64 + k.val, by have := k.isLt; omega⟩ j
def wg3 (k j : Fin 64) : EReal := wg ⟨128 + k.val, by have := k.isLt; omega⟩ j

/-- The gate's pre-activation M of the layer's inputs. -/
def gateM (e : Fin 1600000) (j : Fin 64) : EReal :=
  gateMg (gs x ei) (gd x ei) ea (wg1 wg) (wg2 wg) (wg3 wg) bg e j

/-- The logistic function as the kernel spells it: of the argument times 1/8. -/
def sigK (t : EReal) : EReal := Ideal.logistic (t * c0125)
/-- The logistic function as the reference spells it: 1 / (1 + exp (-(t / sqrt 64))). -/
def sigR (t : EReal) : EReal := Ideal.div one (one + Ideal.exp (-(Ideal.div t (Ideal.sqrt c64))))

/-- The message an edge carries, for a spelling sig of the logistic function: the gate times the destination's linear image. -/
def term (sig : EReal → EReal) (e : Fin 1600000) (j : Fin 64) : EReal :=
  sig (gateM x ei ea wg bg e j) * lin (gd x ei) wd bd e j

/-- The raw source words as the [E, 1] column of scatter indices. -/
def srcCol : IVec SE1 32 := fun i => ei 0 ⟨(i 0).val, idx2_lt0 i⟩

/-- A curried [E, 64] array as an array over the shape's indices. -/
def arrE (T : Fin 1600000 → Fin 64 → EReal) : SE64.Idx → EReal :=
  fun u => T ⟨(u 0).val, idx2_lt0 u⟩ ⟨(u 1).val, idx2_lt1 u⟩

/-- The messages accumulated at their source rows (an accumulating scatter into zeros, out-of-range rows dropped). -/
def agg (d : ScatterDims SN64 SE1 SE64) (T : Fin 1600000 → Fin 64 → EReal) (i : Fin 50000) (j : Fin 64) : EReal :=
  Ideal.hostScatterAdd d (fun _ => z) (srcCol ei) (arrE T) (ix2 i j)

/-- The node pre-normalisation values: the source linear image plus the accumulated messages. -/
def hmat (d : ScatterDims SN64 SE1 SE64) (sig : EReal → EReal) (i : Fin 50000) (j : Fin 64) : EReal :=
  lin x ws bs i j + agg ei d (term x ei ea wg bg wd bd sig) i j

end Layer

/-! ## Column statistics, the reference's way and the kernel's way -/

section Stats

variable {R : Nat}

/-- The column mean as the reference spells it: (0 + sum) / R. -/
def muR (A : Fin R → Fin 64 → EReal) (cR : EReal) (j : Fin 64) : EReal :=
  Ideal.div (z + ∑ i : Fin R, A i j) cR

/-- The biased column variance as the reference spells it: the mean of the squared deviations. -/
def varR (A : Fin R → Fin 64 → EReal) (cR : EReal) (j : Fin 64) : EReal :=
  Ideal.div (z + ∑ i : Fin R, (A i j - muR A cR j) * (A i j - muR A cR j)) cR

def istdR (A : Fin R → Fin 64 → EReal) (cR : EReal) (j : Fin 64) : EReal := Ideal.rsqrt (varR A cR j + eps)

variable {B P : Nat}

/-- Row p of block b of an array of B blocks of P rows. -/
def brow (hR : R = B * P) (b : Fin B) (p : Fin P) : Fin R :=
  ⟨b.val * P + p.val, by
    have hb := b.isLt; have hp := p.isLt
    have : b.val * P + P ≤ B * P := by
      calc b.val * P + P = (b.val + 1) * P := by ring
        _ ≤ B * P := Nat.mul_le_mul_right P hb
    omega⟩

/-- A block's column sum. -/
def psum (hR : R = B * P) (A : Fin R → Fin 64 → EReal) (b : Fin B) (j : Fin 64) : EReal :=
  ∑ p : Fin P, A (brow hR b p) j
/-- A block's column sum of squares. -/
def psumsq (hR : R = B * P) (A : Fin R → Fin 64 → EReal) (b : Fin B) (j : Fin 64) : EReal :=
  ∑ p : Fin P, A (brow hR b p) j * A (brow hR b p) j

/-- The column mean as the kernel spells it: each block's sum laid out 8 times, all summed, over 8, over R. -/
def muK (hR : R = B * P) (A : Fin R → Fin 64 → EReal) (cR : EReal) (j : Fin 64) : EReal :=
  Ideal.div (Ideal.div (z + ∑ b : Fin B, ∑ _r : Fin 8, psum hR A b j) c8) cR
/-- The column mean of squares, the kernel's way. -/
def msqK (hR : R = B * P) (A : Fin R → Fin 64 → EReal) (cR : EReal) (j : Fin 64) : EReal :=
  Ideal.div (Ideal.div (z + ∑ b : Fin B, ∑ _r : Fin 8, psumsq hR A b j) c8) cR
/-- The biased column variance as the kernel spells it: mean of squares minus squared mean. -/
def varK (hR : R = B * P) (A : Fin R → Fin 64 → EReal) (cR : EReal) (j : Fin 64) : EReal :=
  msqK hR A cR j - muK hR A cR j * muK hR A cR j
def istdK (hR : R = B * P) (A : Fin R → Fin 64 → EReal) (cR : EReal) (j : Fin 64) : EReal :=
  Ideal.rsqrt (varK hR A cR j + eps)

end Stats

/-- Normalise, scale, shift, clamp below at zero. -/
def bnrelu (a mu istd g b : EReal) : EReal := max ((((a - mu) * istd) * g) + b) z

theorem hE : (1600000 : Nat) = 320 * 5000 := by norm_num
theorem hN : (50000 : Nat) = 10 * 5000 := by norm_num

end Cert.Spec

end
-- ==== Proof.SpecMath.lean ====
/-
  The lemmas that join the two programs' spellings of the same mathematics, over the extended reals.

  * The float constants as numbers.
  * The logistic function: sigma (t / 8) spelt as logistic (t * 0.125) and as 1 / (1 + exp (-(t / sqrt 64))).
  * Column statistics of a real-valued array of R = B * P rows: the mean as (sum of block sums, each counted 8 times) / 8 / R
    equals (sum) / R, and the variance as mean of squares minus squared mean equals the mean of squared deviations.
    Both need every entry to be a real number: at an infinite entry the identities fail.
  * Closure: the arrays the layer computes from real-valued inputs are real-valued.
-/
import proofs.«418626_j55241869361500_3_alg».proof.Proof.Spec
import Mathlib.Data.EReal.Operations
import Mathlib.Data.EReal.Inv
import Mathlib.Data.Fintype.BigOperators
import Mathlib.Logic.Equiv.Fin.Basic
import Mathlib.Algebra.BigOperators.Group.Finset.Basic
import Mathlib.Algebra.BigOperators.Ring.Finset
import Mathlib.Analysis.SpecialFunctions.Sqrt
import Mathlib.Analysis.SpecialFunctions.Exp
import Mathlib.Tactic.Ring
import Mathlib.Tactic.FieldSimp
import Mathlib.Tactic.NormNum
import Mathlib.Tactic.Positivity

noncomputable section

namespace Cert.Spec

open Idealize.ShloMosaic Idealize.ShloMosaic.ValueIdx

/-! ## Constants -/

theorem z_eq : z = 0 := by
  simp [Ideal.ofBits, Ideal.ieee]
theorem one_eq : one = 1 := by
  simp [Ideal.ofBits, Ideal.ieee, -EReal.coe_mul]; norm_num
theorem c8_eq : c8 = ((8 : ℝ) : EReal) := by
  simp [Ideal.ofBits, Ideal.ieee, -EReal.coe_mul]; norm_num
theorem c64_eq : c64 = ((64 : ℝ) : EReal) := by
  simp [Ideal.ofBits, Ideal.ieee, -EReal.coe_mul]; norm_num
theorem c0125_eq : c0125 = ((1 / 8 : ℝ) : EReal) := by
  simp [Ideal.ofBits, Ideal.ieee, -EReal.coe_mul]; norm_num
theorem cE_eq : cE = ((1600000 : ℝ) : EReal) := by
  simp [Ideal.ofBits, Ideal.ieee, -EReal.coe_mul]; norm_num
theorem cN_eq : cN = ((50000 : ℝ) : EReal) := by
  simp [Ideal.ofBits, Ideal.ieee, -EReal.coe_mul]; norm_num

/-! ## The logistic function, two spellings -/

namespace Aux

/-- The square root of 64 is 8. -/
theorem sqrt_c64 : Ideal.sqrt c64 = ((8 : ℝ) : EReal) := by
  rw [c64_eq, Ideal.sqrt_coe, if_neg (by norm_num)]
  rw [show (64 : ℝ) = 8 * 8 by norm_num, Real.sqrt_mul_self (by norm_num)]

end Aux

/-- Both spellings are 1 / (1 + exp (-(t * (1/8)))): dividing by sqrt 64 = 8 is multiplying by 1/8, at the
    infinities too. -/
theorem sigK_eq_sigR (t : EReal) : sigK t = sigR t := by
  unfold sigK sigR
  rw [Aux.sqrt_c64, Ideal.div_coe (by norm_num : (8 : ℝ) ≠ 0), one_eq, c0125_eq]
  rfl

/-! ## Column statistics, two spellings -/

namespace Aux

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Summing block by block, row by row within a block, is summing over all rows: (b, p) ↦ b * P + p is a
    bijection from pairs onto the rows. -/
theorem sum_brow {R B P : Nat} (hR : R = B * P) (f : Fin R → ℝ) :
    ∑ b : Fin B, ∑ p : Fin P, f (brow hR b p) = ∑ i : Fin R, f i := by
  subst hR
  rw [← Equiv.sum_comp finProdFinEquiv f, Fintype.sum_prod_type]
  refine Finset.sum_congr rfl fun b _ => Finset.sum_congr rfl fun p _ => ?_
  congr 1
  apply Fin.ext
  show b.val * P + p.val = p.val + P * b.val
  ring

variable {R B P : Nat}

/-- The reference's mean of a real column: (0 + sum) / R. -/
theorem mean_coe (hpos : 0 < R) (g : Fin R → ℝ) (cR : EReal) (hc : cR = ((R : ℝ) : EReal)) :
    Ideal.div (z + ∑ i : Fin R, ((g i : ℝ) : EReal)) cR
      = (((∑ i : Fin R, g i) * (1 / (R : ℝ)) : ℝ) : EReal) := by
  have hRne : (R : ℝ) ≠ 0 := by exact_mod_cast hpos.ne'
  rw [← coe_sum, hc, z_eq, zero_add, Ideal.div_coe hRne, ← EReal.coe_mul]

/-- The kernel's mean of a real column: every block sum counted 8 times, over 8, over R. -/
theorem blockMean_coe (hR : R = B * P) (hpos : 0 < R) (g : Fin R → ℝ) (cR : EReal)
    (hc : cR = ((R : ℝ) : EReal)) :
    Ideal.div (Ideal.div (z + ∑ b : Fin B, ∑ _r : Fin 8, ∑ p : Fin P, ((g (brow hR b p) : ℝ) : EReal)) c8) cR
      = (((∑ i : Fin R, g i) * (1 / (R : ℝ)) : ℝ) : EReal) := by
  have hRne : (R : ℝ) ≠ 0 := by exact_mod_cast hpos.ne'
  simp only [← coe_sum]
  rw [hc, c8_eq, z_eq, zero_add, Ideal.div_coe (by norm_num : (8 : ℝ) ≠ 0), Ideal.div_coe hRne,
    ← EReal.coe_mul, ← EReal.coe_mul]
  congr 1
  simp only [Finset.sum_const, Finset.card_univ, Fintype.card_fin, nsmul_eq_mul, ← Finset.mul_sum]
  rw [sum_brow hR g]
  push_cast
  ring

end Aux

section Stats

variable {R B P : Nat}

theorem muK_eq_muR (hR : R = B * P) (hpos : 0 < R) (A : Fin R → Fin 64 → EReal) (hA : ∀ i j, IsReal (A i j))
    (cR : EReal) (hc : cR = ((R : ℝ) : EReal)) (j : Fin 64) : muK hR A cR j = muR A cR j := by
  choose a ha using hA
  obtain rfl : A = fun i j => ((a i j : ℝ) : EReal) := funext fun i => funext fun j => ha i j
  unfold muK muR psum
  exact (Aux.blockMean_coe hR hpos (fun i => a i j) cR hc).trans (Aux.mean_coe hpos (fun i => a i j) cR hc).symm

/-- With m the mean: mean of squares minus m² equals the mean of the squared deviations from m,
    since the deviations' squares sum to (sum of squares) - 2 m (sum) + R m² and (sum) = R m. -/
theorem varK_eq_varR (hR : R = B * P) (hpos : 0 < R) (A : Fin R → Fin 64 → EReal) (hA : ∀ i j, IsReal (A i j))
    (cR : EReal) (hc : cR = ((R : ℝ) : EReal)) (j : Fin 64) : varK hR A cR j = varR A cR j := by
  choose a ha using hA
  obtain rfl : A = fun i j => ((a i j : ℝ) : EReal) := funext fun i => funext fun j => ha i j
  have hRne : (R : ℝ) ≠ 0 := by exact_mod_cast hpos.ne'
  have hmuR : muR (fun i j => ((a i j : ℝ) : EReal)) cR j
      = (((∑ i : Fin R, a i j) * (1 / (R : ℝ)) : ℝ) : EReal) :=
    Aux.mean_coe hpos (fun i => a i j) cR hc
  have hmuK : muK hR (fun i j => ((a i j : ℝ) : EReal)) cR j
      = (((∑ i : Fin R, a i j) * (1 / (R : ℝ)) : ℝ) : EReal) :=
    Aux.blockMean_coe hR hpos (fun i => a i j) cR hc
  have hmsq : msqK hR (fun i j => ((a i j : ℝ) : EReal)) cR j
      = (((∑ i : Fin R, a i j * a i j) * (1 / (R : ℝ)) : ℝ) : EReal) := by
    unfold msqK psumsq
    simp only [← EReal.coe_mul]
    exact Aux.blockMean_coe hR hpos (fun i => a i j * a i j) cR hc
  unfold varK varR
  simp only [hmsq, hmuK, hmuR, ← EReal.coe_sub, ← EReal.coe_mul]
  rw [Aux.mean_coe hpos _ cR hc]
  congr 1
  have key : ∀ m : ℝ, ∑ i : Fin R, (a i j - m) * (a i j - m)
      = (∑ i : Fin R, a i j * a i j) - 2 * m * (∑ i : Fin R, a i j) + (R : ℝ) * (m * m) := by
    intro m
    have h1 : ∀ i : Fin R, (a i j - m) * (a i j - m) = a i j * a i j - 2 * m * a i j + m * m :=
      fun i => by ring
    simp only [h1, Finset.sum_add_distrib, Finset.sum_sub_distrib, ← Finset.mul_sum, Finset.sum_const,
      Finset.card_univ, Fintype.card_fin, nsmul_eq_mul]
    ring
  rw [key]
  field_simp
  ring

theorem istdK_eq_istdR (hR : R = B * P) (hpos : 0 < R) (A : Fin R → Fin 64 → EReal) (hA : ∀ i j, IsReal (A i j))
    (cR : EReal) (hc : cR = ((R : ℝ) : EReal)) (j : Fin 64) : istdK hR A cR j = istdR A cR j := by
  unfold istdK istdR; rw [varK_eq_varR hR hpos A hA cR hc j]

end Stats

/-! ## Real-valued inputs give real-valued arrays -/

namespace Aux

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_z : IsReal z := ⟨0, by rw [z_eq, EReal.coe_zero]⟩

end Aux

theorem isReal_lin {R : Nat} (A : Fin R → Fin 64 → EReal) (W : Fin 64 → Fin 64 → EReal) (b : Fin 64 → EReal)
    (hA : ∀ i k, IsReal (A i k)) (hW : ∀ k j, IsReal (W k j)) (hb : ∀ j, IsReal (b j)) (i : Fin R) (j : Fin 64) :
    IsReal (lin A W b i j) := by
  unfold lin
  exact Aux.isReal_add (Aux.isReal_sum _ _ fun k _ => Aux.isReal_mul (hA i k) (hW k j)) (hb j)

/-- The logistic function of a real r is the real 1 / (1 + exp (-r)). -/
theorem isReal_sigK (t : EReal) (ht : IsReal t) : IsReal (sigK t) := by
  obtain ⟨r, rfl⟩ := ht
  unfold sigK
  rw [c0125_eq, ← EReal.coe_mul, Ideal.logistic_coe]
  exact ⟨_, rfl⟩

section Layer

variable (x : Fin 50000 → Fin 64 → EReal) (ei : Fin 2 → Fin 1600000 → BitVec 32)
  (ea : Fin 1600000 → Fin 64 → EReal) (wg : Fin 192 → Fin 64 → EReal) (bg : Fin 64 → EReal)
  (ws : Fin 64 → Fin 64 → EReal) (bs : Fin 64 → EReal) (wd : Fin 64 → Fin 64 → EReal) (bd : Fin 64 → EReal)

theorem isReal_gateM (hx : ∀ i k, IsReal (x i k)) (hea : ∀ e k, IsReal (ea e k)) (hwg : ∀ r j, IsReal (wg r j))
    (hbg : ∀ j, IsReal (bg j)) (e : Fin 1600000) (j : Fin 64) : IsReal (gateM x ei ea wg bg e j) := by
  unfold gateM gateMg gs gd wg1 wg2 wg3
  exact Aux.isReal_add
    (Aux.isReal_add
      (Aux.isReal_add
        (Aux.isReal_sum _ _ fun k _ => Aux.isReal_mul (hx _ k) (hwg _ j))
        (Aux.isReal_sum _ _ fun k _ => Aux.isReal_mul (hx _ k) (hwg _ j)))
      (Aux.isReal_sum _ _ fun k _ => Aux.isReal_mul (hea e k) (hwg _ j)))
    (hbg j)

theorem isReal_hmat (d : ScatterDims SN64 SE1 SE64) (hx : ∀ i k, IsReal (x i k)) (hea : ∀ e k, IsReal (ea e k))
    (hwg : ∀ r j, IsReal (wg r j)) (hbg : ∀ j, IsReal (bg j)) (hws : ∀ k j, IsReal (ws k j)) (hbs : ∀ j, IsReal (bs j))
    (hwd : ∀ k j, IsReal (wd k j)) (hbd : ∀ j, IsReal (bd j)) (i : Fin 50000) (j : Fin 64) :
    IsReal (hmat x ei ea wg bg ws bs wd bd d sigK i j) := by
  have hgd : ∀ e k, IsReal (gd x ei e k) := fun e k => hx _ k
  have hterm : ∀ e j, IsReal (term x ei ea wg bg wd bd sigK e j) := fun e j => by
    unfold term
    exact Aux.isReal_mul (isReal_sigK _ (isReal_gateM x ei ea wg bg hx hea hwg hbg e j))
      (isReal_lin (gd x ei) wd bd hgd hwd hbd e j)
  unfold hmat agg Ideal.hostScatterAdd arrE
  exact Aux.isReal_add (isReal_lin x ws bs hx hws hbs i j)
    (Aux.isReal_add Aux.isReal_z (Aux.isReal_sum _ _ fun u _ => hterm _ _))

end Layer

end Cert.Spec

end
-- ==== Proof.KArgs.lean ====
/- Names for the idealized kernel program's argument arrays as launched, and for the layer's values of them. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The argument arrays as launched, curried over their coordinates. -/
abbrev ax (c : Dev nD) : Fin 50000 → Fin 64 → EReal := fun i k => m ((c : Thread nD τ).loc main_arg0) (ix2 i k)
abbrev aei (c : Dev nD) : Fin 2 → Fin 1600000 → BitVec 32 := fun r e => m ((c : Thread nD τ).loc main_arg1) (ix2 r e)
abbrev aea (c : Dev nD) : Fin 1600000 → Fin 64 → EReal := fun e k => m ((c : Thread nD τ).loc main_arg2) (ix2 e k)
abbrev awg (c : Dev nD) : Fin 192 → Fin 64 → EReal := fun r j => m ((c : Thread nD τ).loc main_arg3) (ix2 r j)
abbrev abg (c : Dev nD) : Fin 64 → EReal := fun j => m ((c : Thread nD τ).loc main_arg4) (ix1 j)
abbrev aws (c : Dev nD) : Fin 64 → Fin 64 → EReal := fun k j => m ((c : Thread nD τ).loc main_arg5) (ix2 k j)
abbrev abs (c : Dev nD) : Fin 64 → EReal := fun j => m ((c : Thread nD τ).loc main_arg6) (ix1 j)
abbrev awd (c : Dev nD) : Fin 64 → Fin 64 → EReal := fun k j => m ((c : Thread nD τ).loc main_arg7) (ix2 k j)
abbrev abd (c : Dev nD) : Fin 64 → EReal := fun j => m ((c : Thread nD τ).loc main_arg8) (ix1 j)
abbrev agn (c : Dev nD) : Fin 64 → EReal := fun j => m ((c : Thread nD τ).loc main_arg9) (ix1 j)
abbrev abn (c : Dev nD) : Fin 64 → EReal := fun j => m ((c : Thread nD τ).loc main_arg10) (ix1 j)
abbrev age (c : Dev nD) : Fin 64 → EReal := fun j => m ((c : Thread nD τ).loc main_arg11) (ix1 j)
abbrev abe (c : Dev nD) : Fin 64 → EReal := fun j => m ((c : Thread nD τ).loc main_arg12) (ix1 j)

/-- The gate's pre-activation of the launched arguments. -/
abbrev Mm (c : Dev nD) : Fin 1600000 → Fin 64 → EReal := Spec.gateM (ax m c) (aei m c) (aea m c) (awg m c) (abg m c)

/-- The messages of the launched arguments, the logistic function in the kernel's spelling. -/
abbrev Tm (c : Dev nD) : Fin 1600000 → Fin 64 → EReal :=
  Spec.term (ax m c) (aei m c) (aea m c) (awg m c) (abg m c) (awd m c) (abd m c) Spec.sigK
/-- The node values of the launched arguments. -/
abbrev Hm (c : Dev nD) : Fin 50000 → Fin 64 → EReal :=
  Spec.hmat (ax m c) (aei m c) (aea m c) (awg m c) (abg m c) (aws m c) (abs m c) (awd m c) (abd m c)
    scatter_S50000x64_S1600000x1_S1600000x64_1_0_0_1 Spec.sigK

/-- Every word of the edge index is a row number. -/
def InRange (c : Dev nD) : Prop := ∀ (r : Fin 2) (e : Fin 1600000), 0 ≤ (aei m c r e).toInt ∧ (aei m c r e).toInt < 50000

end Cert.KernelIdeal.Chain

end
-- ==== Proof.KR0.lean ====
/- Region 0 (the node linear map), at any entry contents V: the output array after the region, index by index.
   Each grid point t writes rows 10000 t .. 10000 t + 9999 of x Ws + bs; the five blocks tile the 50000 rows. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.R0

open Cert.KernelIdeal Cert.KernelIdeal.Gen Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-- The all-zero offset of a whole-block access. -/
theorem hz : (![0, 0] : Fin 2 → Nat) = fun _ => 0 := funext fun a => by fin_cases a <;> rfl

/-- The three arrays region 0 is entered with, curried: the node features, the weight and the bias row. -/
abbrev xA (c : Dev nD) : Fin 50000 → Fin 64 → EReal := fun a k => V c main_arg0 (ix2 a k)
abbrev wA (c : Dev nD) : Fin 64 → Fin 64 → EReal := fun k l => V c main_arg5 (ix2 k l)
abbrev bA (c : Dev nD) : Fin 64 → EReal := fun l => V c main_v4 (ix2 0 l)

/-- The same three arrays over their index types. -/
abbrev xI (c : Dev nD) : S50000x64.Idx → EReal := V c main_arg0
abbrev wI (c : Dev nD) : S64x64.Idx → EReal := V c main_arg5
abbrev bI (c : Dev nD) : S1x64.Idx → EReal := V c main_v4

/-- The whole output array: the affine image of the node features, index by index. -/
def linArr (c : Dev nD) : S50000x64.Idx → EReal :=
  fun i => Spec.lin (xA V c) (wA V c) (bA V c) ⟨(i 0).val, idx2_lt0 i⟩ ⟨(i 1).val, idx2_lt1 i⟩

/-! ## The product's operand indices, axis by axis -/

theorem lhs_ax0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_ax1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_ax0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_ax1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Where the product reads its left operand, its right operand, and where the sum reads the bias row. -/
abbrev lidx (i : S10000x64.Idx) (k : Fin 64) : S10000x64.Idx := fun a => match a with
  | ⟨0, _⟩ => ⟨(i 0).val, (i 0).isLt⟩
  | ⟨1, _⟩ => ⟨k.val, k.isLt⟩
abbrev ridx (i : S10000x64.Idx) (k : Fin 64) : S64x64.Idx := fun a => match a with
  | ⟨0, _⟩ => ⟨k.val, k.isLt⟩
  | ⟨1, _⟩ => ⟨(i 1).val, (i 1).isLt⟩
abbrev bidx (i : S10000x64.Idx) : S1x64.Idx := fun a => match a with
  | ⟨0, _⟩ => ⟨0, Nat.one_pos⟩
  | ⟨1, _⟩ => ⟨(i 1).val, (i 1).isLt⟩

/-- The body's payload at an index of the block: the row of the first block times the column of the second, plus the row entry. -/
theorem pay_apply (x0 : Vec Ideal S10000x64 .f32) (x1 : Vec Ideal S64x64 .f32) (x2 : Vec Ideal S1x64 .f32) (i : S10000x64.Idx) :
    k0_pay1 (F := Ideal) x0 x1 x2 i = (∑ k : Fin 64, x0 (lidx i k) * x1 (ridx i k)) + x2 (bidx i) := by
  unfold k0_pay1
  refine (addf_apply _ _ i).trans ?_
  congr 1
  · refine (Ideal.matmul_constant_zero_apply dot_S10000x64_S64x64_S10000x64_1_0_0_1_n_n none _ _ i).trans ?_
    rw [← Equiv.sum_comp (contrEquiv1 dot_S10000x64_S64x64_S10000x64_1_0_0_1_n_n 64 rfl rfl).symm]
    refine Finset.sum_congr rfl fun k _ => ?_
    have hk := contrEquiv1_symm_val dot_S10000x64_S64x64_S10000x64_1_0_0_1_n_n 64 rfl rfl k
    have el : dot_S10000x64_S64x64_S10000x64_1_0_0_1_n_n.lhsIdx i ((contrEquiv1 dot_S10000x64_S64x64_S10000x64_1_0_0_1_n_n 64 rfl rfl).symm k) = lidx i k := funext fun a => Fin.ext (by
      match a with
      | ⟨0, _⟩ => exact lhs_ax0 _ _
      | ⟨1, _⟩ => exact (lhs_ax1 _ _).trans hk)
    have er : dot_S10000x64_S64x64_S10000x64_1_0_0_1_n_n.rhsIdx i ((contrEquiv1 dot_S10000x64_S64x64_S10000x64_1_0_0_1_n_n 64 rfl rfl).symm k) = ridx i k := funext fun a => Fin.ext (by
      match a with
      | ⟨0, _⟩ => exact (rhs_ax0 _ _).trans hk
      | ⟨1, _⟩ => exact rhs_ax1 _ _)
    rw [el, er]
    rfl
  · rw [shapeCast_self]
    exact broadcastTo_apply x2 _ i (bidx i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])

/-! ## From blocks to the array -/

/-- The block index maps at each of the five grid points: the feature block and the output block are block t of the rows;
    the weight and the bias row are whole (block 0 on both axes). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole output array. -/
theorem flushed_eq (c : Dev nD) (t : Fin cfg0.N) :
    (dat0 V c).flushed 3 t = ((cfg0.win 3).blk t).view.read (Elt Ideal) (linArr V c) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts t
  funext j
  refine (pay_apply (iblk0 V c 0 t) (iblk0 V c 1 t) (iblk0 V c 2 t) j).trans ?_
  show (∑ k : Fin 64, xI V c (((cfg0.win 0).blk t).view.emb (lidx j k)) * wI V c (((cfg0.win 1).blk t).view.emb (ridx j k)))
      + bI V c (((cfg0.win 2).blk t).view.emb (bidx j))
    = linArr V c (((cfg0.win 3).blk t).view.emb j)
  have hj0 : (j 0).val < 10000 := (j 0).isLt
  have hj1 : (j 1).val < 64 := (j 1).isLt
  have h0 : ∀ k : Fin 64, ((cfg0.win 0).blk t).view.emb (lidx j k)
      = ix2 ⟨((((cfg0.win 3).blk t).view.emb j) 0).val, idx2_lt0 _⟩ k := fun k => by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  have h1 : ∀ k : Fin 64, ((cfg0.win 1).blk t).view.emb (ridx j k)
      = ix2 k ⟨((((cfg0.win 3).blk t).view.emb j) 1).val, idx2_lt1 _⟩ := fun k => by
    funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have h2 : ((cfg0.win 2).blk t).view.emb (bidx j)
      = ix2 0 ⟨((((cfg0.win 3).blk t).view.emb j) 1).val, idx2_lt1 _⟩ := by
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  rw [h2]
  simp only [h0, h1]
  rfl

/-- An index of the array is in point t's block iff each coordinate is in the block's range on its axis. -/
theorem mem_blk (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v11).slice (win0_3.rect t)).set ↔ _
  rw [View.set_slice_whole, Rect.mem_set_unit]
  exact Iff.rfl

/-- Every index of the output array is in the block of the point its row falls in: row r is in block r / 10000. -/
theorem cover (i : S50000x64.Idx) :
    ∃ t : Fin cfg0.N, (cfg0.win 3).flush t = true ∧ i ∈ ((cfg0.win 3).blk t).view.set := by
  have hi0 : (i 0).val < 50000 := idx2_lt0 i
  have hi1 : (i 1).val < 64 := idx2_lt1 i
  have ht : (i 0).val / 10000 < 5 := by omega
  obtain ⟨e0, e1, e2, e3, e4, e5, e6, e7⟩ := idx_facts ⟨(i 0).val / 10000, ht⟩
  have e6' : win0_3.index ⟨(i 0).val / 10000, ht⟩ (0 : Fin 2) = (i 0).val / 10000 := e6
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    omega

/-- The output array after the region is the affine image of the node features. -/
theorem arr_eq (c : Dev nD) : (dat0 V c).arrAt 3 cfg0.N = linArr V c :=
  (dat0 V c).arrAt_eq_of_cover 3 (linArr V c) (fun t _ => flushed_eq V c t) cover

/-- The output array of the node linear map: row i, column j is sum_k x i k * Ws k j + bs j. -/
theorem out (c : Dev nD) (i : Fin 50000) (j : Fin 64) :
    (dat0 V c).arrAt 3 cfg0.N (ix2 i j)
      = Spec.lin (fun a k => V c main_arg0 (ix2 a k)) (fun k l => V c main_arg5 (ix2 k l)) (fun l => V c main_v4 (ix2 0 l)) i j :=
  congrFun (arr_eq V c) (ix2 i j)

end Cert.KernelIdeal.R0

end
-- ==== Proof.KR1.lean ====
/- Region 1 (the gate), at any entry contents V: its four output arrays after the region, index by index.
   Grid point t handles edges 5000 t .. 5000 t + 4999: the pre-activation M, the message T = sigma(M) * (dst rows Wd + bd),
   and the block's column sums of M and of M squared, each laid out on 8 identical rows of block t of a [320, 8, 64] array. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.R1

open Cert.KernelIdeal Cert.KernelIdeal.Gen Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-- The gate's pre-activation as a function of the arrays region 1 is entered with. -/
abbrev Mk (c : Dev nD) : Fin 1600000 → Fin 64 → EReal :=
  (Spec.gateMg (fun a k => V c main_v12 (ix2 a k)) (fun a k => V c main_v13 (ix2 a k)) (fun a k => V c main_arg2 (ix2 a k))
        (fun k l => V c main_v14 (ix2 k l)) (fun k l => V c main_v15 (ix2 k l)) (fun k l => V c main_v16 (ix2 k l)) (fun l => V c main_v6 (ix2 0 l)))

/-! ## A block matmul into zeros, read at an index -/

theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000, 64] block times a [64, 64] weight into zeros, at (p, j): the sum over k of block (p, k) times weight (k, j). -/
theorem matmul_blk_apply {φ₁ φ₂ : FTy} (a : FVec Ideal S5000x64 φ₁) (w : FVec Ideal S64x64 φ₂) (p : Fin 5000) (j : Fin 64) :
    matmul dot_S5000x64_S64x64_S5000x64_1_0_0_1_n_n none a w (constant (F := Ideal) S5000x64 .f32 0x00000000#32) (ix2 p j)
      = ∑ k : Fin 64, a (ix2 p k) * w (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (rhs_blk_0 _ _).trans hk
    | ⟨1, _⟩ => exact rhs_blk_1 _ _)
  rw [el, er]

/-! ## The payloads at an index -/

/-- The pre-activation block at (p, j): the three block matmuls summed left to right, plus the bias row. -/
theorem pay5_apply (x0 x1 x2 : Vec Ideal S5000x64 .f32) (x3 x4 x5 : Vec Ideal S64x64 .f32) (x6 : Vec Ideal S1x64 .f32)
    (p : Fin 5000) (j : Fin 64) :
    k1_pay5 x0 x1 x2 x3 x4 x5 x6 (ix2 p j)
      = Spec.gateMg (fun a k => x0 (ix2 a k)) (fun a k => x1 (ix2 a k)) (fun a k => x2 (ix2 a k))
          (fun k l => x3 (ix2 k l)) (fun k l => x4 (ix2 k l)) (fun k l => x5 (ix2 k l)) (fun l => x6 (ix2 0 l)) p j := by
  unfold k1_pay5 k1_pay4 Spec.gateMg
  dsimp only
  simp only [shapeCast_self, addf_apply]
  rw [matmul_blk_apply, matmul_blk_apply, matmul_blk_apply, broadcastTo_1b_ab_apply]
  rfl

/-- The destination's linear image at (p, j). -/
theorem pay6_apply (x1 : Vec Ideal S5000x64 .f32) (x7 : Vec Ideal S64x64 .f32) (x8 : Vec Ideal S1x64 .f32)
    (p : Fin 5000) (j : Fin 64) :
    k1_pay6 x1 x7 x8 (ix2 p j)
      = Spec.lin (fun a k => x1 (ix2 a k)) (fun k l => x7 (ix2 k l)) (fun l => x8 (ix2 0 l)) p j := by
  unfold k1_pay6 k1_pay4 Spec.lin
  dsimp only
  simp only [shapeCast_self, addf_apply]
  rw [matmul_blk_apply, broadcastTo_1b_ab_apply]
  rfl

/-- The logistic factor at (p, j). -/
theorem pay7_apply (x0 x1 x2 : Vec Ideal S5000x64 .f32) (x3 x4 x5 : Vec Ideal S64x64 .f32) (x6 : Vec Ideal S1x64 .f32)
    (p : Fin 5000) (j : Fin 64) :
    k1_pay7 x0 x1 x2 x3 x4 x5 x6 (ix2 p j) = Spec.sigK (k1_pay5 x0 x1 x2 x3 x4 x5 x6 (ix2 p j)) := by
  unfold k1_pay7 Spec.sigK
  rfl

/-! ## The blocks of the arrays -/

theorem hz2 : (![0, 0] : Fin 2 → Nat) = fun _ => 0 := funext fun a => by fin_cases a <;> rfl
theorem hz3 : (![0, 0, 0] : Fin 3 → Nat) = fun _ => 0 := funext fun a => by fin_cases a <;> rfl

theorem pts : cfg1.N = 320 := by decide

/-- The block a grid point handles, as a block number below 320. -/
abbrev blkOf (t : Fin cfg1.N) : Fin 320 := ⟨t.val, t.isLt.trans_eq pts⟩

/-- The edge that row a of point t's block is. -/
abbrev edgeOf (t : Fin cfg1.N) (a : Fin 5000) : Fin 1600000 := Spec.brow Spec.hE (blkOf t) a

/-- The windows' block index maps, decided over the 320 grid points: the edge windows sit at block (t, 0), the weights and bias
    rows at (0, 0), the column-sum windows at (t, 0, 0). -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

theorem idx_whole : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

theorem idx_sums : ∀ t : Fin cfg1.N,
    (win1_11.index t (0 : Fin 3) = t.val ∧ win1_11.index t (1 : Fin 3) = 0 ∧ win1_11.index t (2 : Fin 3) = 0)
    ∧ (win1_12.index t (0 : Fin 3) = t.val ∧ win1_12.index t (1 : Fin 3) = 0 ∧ win1_12.index t (2 : Fin 3) = 0) :=
  (by decide +kernel : ∀ t : Fin grid1.N, _)

/-- Row a of the source block at point t is the source array's row 5000 t + a. -/
theorem src_blk (c : Dev nD) (t : Fin cfg1.N) (a : Fin 5000) (k : Fin 64) :
    iblk1 V c 0 t (ix2 a k) = V c main_v12 (ix2 (edgeOf t a) k) := by
  show V c main_v12 (((cfg1.win 0).blk t).view.emb (ix2 a k)) = V c main_v12 (ix2 (edgeOf t a) k)
  refine congrArg (V c main_v12) (funext fun ax => Fin.ext ?_)
  obtain ⟨⟨e0, e1⟩, -⟩ := idx_rows t
  match ax with
  | ⟨0, _⟩ => show win1_0.index t (0 : Fin 2) * 5000 + 1 * a.val = t.val * 5000 + a.val; rw [e0]; omega
  | ⟨1, _⟩ => show win1_0.index t (1 : Fin 2) * 64 + 1 * k.val = k.val; rw [e1]; omega

/-- Row a of the destination block at point t is the destination array's row 5000 t + a. -/
theorem dst_blk (c : Dev nD) (t : Fin cfg1.N) (a : Fin 5000) (k : Fin 64) :
    iblk1 V c 1 t (ix2 a k) = V c main_v13 (ix2 (edgeOf t a) k) := by
  show V c main_v13 (((cfg1.win 1).blk t).view.emb (ix2 a k)) = V c main_v13 (ix2 (edgeOf t a) k)
  refine congrArg (V c main_v13) (funext fun ax => Fin.ext ?_)
  obtain ⟨-, ⟨e0, e1⟩, -⟩ := idx_rows t
  match ax with
  | ⟨0, _⟩ => show win1_1.index t (0 : Fin 2) * 5000 + 1 * a.val = t.val * 5000 + a.val; rw [e0]; omega
  | ⟨1, _⟩ => show win1_1.index t (1 : Fin 2) * 64 + 1 * k.val = k.val; rw [e1]; omega

/-- Row a of the edge-feature block at point t is the edge-feature array's row 5000 t + a. -/
theorem ea_blk (c : Dev nD) (t : Fin cfg1.N) (a : Fin 5000) (k : Fin 64) :
    iblk1 V c 2 t (ix2 a k) = V c main_arg2 (ix2 (edgeOf t a) k) := by
  show V c main_arg2 (((cfg1.win 2).blk t).view.emb (ix2 a k)) = V c main_arg2 (ix2 (edgeOf t a) k)
  refine congrArg (V c main_arg2) (funext fun ax => Fin.ext ?_)
  obtain ⟨-, -, ⟨e0, e1⟩, -⟩ := idx_rows t
  match ax with
  | ⟨0, _⟩ => show win1_2.index t (0 : Fin 2) * 5000 + 1 * a.val = t.val * 5000 + a.val; rw [e0]; omega
  | ⟨1, _⟩ => show win1_2.index t (1 : Fin 2) * 64 + 1 * k.val = k.val; rw [e1]; omega

/-- The weight and bias windows hold their whole arrays at every point. -/
theorem w1_blk (c : Dev nD) (t : Fin cfg1.N) (k l : Fin 64) : iblk1 V c 3 t (ix2 k l) = V c main_v14 (ix2 k l) := by
  show V c main_v14 (((cfg1.win 3).blk t).view.emb (ix2 k l)) = V c main_v14 (ix2 k l)
  refine congrArg (V c main_v14) (funext fun ax => Fin.ext ?_)
  obtain ⟨⟨e0, e1⟩, -⟩ := idx_whole t
  match ax with
  | ⟨0, _⟩ => show win1_3.index t (0 : Fin 2) * 64 + 1 * k.val = k.val; rw [e0]; omega
  | ⟨1, _⟩ => show win1_3.index t (1 : Fin 2) * 64 + 1 * l.val = l.val; rw [e1]; omega
theorem w2_blk (c : Dev nD) (t : Fin cfg1.N) (k l : Fin 64) : iblk1 V c 4 t (ix2 k l) = V c main_v15 (ix2 k l) := by
  show V c main_v15 (((cfg1.win 4).blk t).view.emb (ix2 k l)) = V c main_v15 (ix2 k l)
  refine congrArg (V c main_v15) (funext fun ax => Fin.ext ?_)
  obtain ⟨-, ⟨e0, e1⟩, -⟩ := idx_whole t
  match ax with
  | ⟨0, _⟩ => show win1_4.index t (0 : Fin 2) * 64 + 1 * k.val = k.val; rw [e0]; omega
  | ⟨1, _⟩ => show win1_4.index t (1 : Fin 2) * 64 + 1 * l.val = l.val; rw [e1]; omega
theorem w3_blk (c : Dev nD) (t : Fin cfg1.N) (k l : Fin 64) : iblk1 V c 5 t (ix2 k l) = V c main_v16 (ix2 k l) := by
  show V c main_v16 (((cfg1.win 5).blk t).view.emb (ix2 k l)) = V c main_v16 (ix2 k l)
  refine congrArg (V c main_v16) (funext fun ax => Fin.ext ?_)
  obtain ⟨-, -, ⟨e0, e1⟩, -⟩ := idx_whole t
  match ax with
  | ⟨0, _⟩ => show win1_5.index t (0 : Fin 2) * 64 + 1 * k.val = k.val; rw [e0]; omega
  | ⟨1, _⟩ => show win1_5.index t (1 : Fin 2) * 64 + 1 * l.val = l.val; rw [e1]; omega
theorem bg_blk (c : Dev nD) (t : Fin cfg1.N) (l : Fin 64) : iblk1 V c 6 t (ix2 (0 : Fin 1) l) = V c main_v6 (ix2 (0 : Fin 1) l) := by
  show V c main_v6 (((cfg1.win 6).blk t).view.emb (ix2 (0 : Fin 1) l)) = V c main_v6 (ix2 (0 : Fin 1) l)
  refine congrArg (V c main_v6) (funext fun ax => Fin.ext ?_)
  obtain ⟨-, -, -, ⟨e0, e1⟩, -⟩ := idx_whole t
  match ax with
  | ⟨0, _⟩ => show win1_6.index t (0 : Fin 2) * 1 + 1 * 0 = 0; rw [e0]
  | ⟨1, _⟩ => show win1_6.index t (1 : Fin 2) * 64 + 1 * l.val = l.val; rw [e1]; omega
theorem wd_blk (c : Dev nD) (t : Fin cfg1.N) (k l : Fin 64) : iblk1 V c 7 t (ix2 k l) = V c main_arg7 (ix2 k l) := by
  show V c main_arg7 (((cfg1.win 7).blk t).view.emb (ix2 k l)) = V c main_arg7 (ix2 k l)
  refine congrArg (V c main_arg7) (funext fun ax => Fin.ext ?_)
  obtain ⟨-, -, -, -, ⟨e0, e1⟩, -⟩ := idx_whole t
  match ax with
  | ⟨0, _⟩ => show win1_7.index t (0 : Fin 2) * 64 + 1 * k.val = k.val; rw [e0]; omega
  | ⟨1, _⟩ => show win1_7.index t (1 : Fin 2) * 64 + 1 * l.val = l.val; rw [e1]; omega
theorem bd_blk (c : Dev nD) (t : Fin cfg1.N) (l : Fin 64) : iblk1 V c 8 t (ix2 (0 : Fin 1) l) = V c main_v5 (ix2 (0 : Fin 1) l) := by
  show V c main_v5 (((cfg1.win 8).blk t).view.emb (ix2 (0 : Fin 1) l)) = V c main_v5 (ix2 (0 : Fin 1) l)
  refine congrArg (V c main_v5) (funext fun ax => Fin.ext ?_)
  obtain ⟨-, -, -, -, -, e0, e1⟩ := idx_whole t
  match ax with
  | ⟨0, _⟩ => show win1_8.index t (0 : Fin 2) * 1 + 1 * 0 = 0; rw [e0]
  | ⟨1, _⟩ => show win1_8.index t (1 : Fin 2) * 64 + 1 * l.val = l.val; rw [e1]; omega

/-! ## The payloads of blocks that are rows of whole arrays -/

/-- The pre-activation payload, when each row block holds rows r a of an array and the weight blocks their whole arrays. -/
theorem pay5_of_rows (A0 A1 A2 : Fin 1600000 → Fin 64 → EReal) (W1 W2 W3 : Fin 64 → Fin 64 → EReal) (b : Fin 64 → EReal)
    (x0 x1 x2 : Vec Ideal S5000x64 .f32) (x3 x4 x5 : Vec Ideal S64x64 .f32) (x6 : Vec Ideal S1x64 .f32) (r : Fin 5000 → Fin 1600000)
    (h0 : ∀ a k, x0 (ix2 a k) = A0 (r a) k) (h1 : ∀ a k, x1 (ix2 a k) = A1 (r a) k) (h2 : ∀ a k, x2 (ix2 a k) = A2 (r a) k)
    (h3 : ∀ k l, x3 (ix2 k l) = W1 k l) (h4 : ∀ k l, x4 (ix2 k l) = W2 k l) (h5 : ∀ k l, x5 (ix2 k l) = W3 k l)
    (h6 : ∀ l, x6 (ix2 (0 : Fin 1) l) = b l) (p : Fin 5000) (j : Fin 64) :
    k1_pay5 x0 x1 x2 x3 x4 x5 x6 (ix2 p j) = Spec.gateMg A0 A1 A2 W1 W2 W3 b (r p) j := by
  rw [pay5_apply]
  unfold Spec.gateMg
  simp only [h0, h1, h2, h3, h4, h5, h6]

/-- The destination's linear image, likewise. -/
theorem pay6_of_rows (A1 : Fin 1600000 → Fin 64 → EReal) (W : Fin 64 → Fin 64 → EReal) (b : Fin 64 → EReal)
    (x1 : Vec Ideal S5000x64 .f32) (x7 : Vec Ideal S64x64 .f32) (x8 : Vec Ideal S1x64 .f32) (r : Fin 5000 → Fin 1600000)
    (h1 : ∀ a k, x1 (ix2 a k) = A1 (r a) k) (h7 : ∀ k l, x7 (ix2 k l) = W k l) (h8 : ∀ l, x8 (ix2 (0 : Fin 1) l) = b l)
    (p : Fin 5000) (j : Fin 64) :
    k1_pay6 x1 x7 x8 (ix2 p j) = Spec.lin A1 W b (r p) j := by
  rw [pay6_apply]
  unfold Spec.lin
  simp only [h1, h7, h8]

/-- The message payload at an index: the logistic factor first. -/
theorem pay1_apply (v32 v35 : FVec Ideal S5000x64 .f32) (i : S5000x64.Idx) : k1_pay1 v32 v35 i = v35 i * v32 i := rfl

/-- The destination's linear image as a function of the arrays region 1 is entered with. -/
abbrev Lk (c : Dev nD) : Fin 1600000 → Fin 64 → EReal :=
  Spec.lin (fun a k => V c main_v13 (ix2 a k)) (fun k l => V c main_arg7 (ix2 k l)) (fun l => V c main_v5 (ix2 0 l))

/-- The message as a function of the arrays region 1 is entered with. -/
abbrev Tk (c : Dev nD) : Fin 1600000 → Fin 64 → EReal := fun e j => Spec.sigK (Mk V c e j) * Lk V c e j

/-- The pre-activation payload of point t's blocks at (p, j) is M at edge 5000 t + p. -/
theorem pay5_at (c : Dev nD) (t : Fin cfg1.N) (p : Fin 5000) (j : Fin 64) :
    k1_pay5 (iblk1 V c 0 t) (iblk1 V c 1 t) (iblk1 V c 2 t) (iblk1 V c 3 t) (iblk1 V c 4 t) (iblk1 V c 5 t) (iblk1 V c 6 t) (ix2 p j)
      = Mk V c (edgeOf t p) j :=
  pay5_of_rows _ _ _ _ _ _ _ _ _ _ _ _ _ _ (edgeOf t) (src_blk V c t) (dst_blk V c t) (ea_blk V c t)
    (w1_blk V c t) (w2_blk V c t) (w3_blk V c t) (bg_blk V c t) p j

/-- The linear-image payload of point t's blocks at (p, j) is the destination's linear image at edge 5000 t + p. -/
theorem pay6_at (c : Dev nD) (t : Fin cfg1.N) (p : Fin 5000) (j : Fin 64) :
    k1_pay6 (iblk1 V c 1 t) (iblk1 V c 7 t) (iblk1 V c 8 t) (ix2 p j) = Lk V c (edgeOf t p) j :=
  pay6_of_rows _ _ _ _ _ _ (edgeOf t) (dst_blk V c t) (wd_blk V c t) (bd_blk V c t) p j

/-! ## From blocks to the arrays -/

/-- What point t writes back to the pre-activation array is block t of M. -/
theorem flushedM (c : Dev nD) (t : Fin cfg1.N) :
    (dat1 V c).flushed 9 t = ((cfg1.win 9).blk t).view.read (Elt Ideal) (Spec.arrE (Mk V c)) := by
  show (cfg1.win 9).cut (grid1.coords t) ((dat1 V c).after 9 t) = _
  rw [after1_9]
  unfold out1_9
  rw [View.canon_unit_zero hz2]
  simp only [View.ld_unit_zero (S := S5000x64) hz2, View.ld_unit_zero (S := S64x64) hz2, View.ld_unit_zero (S := S1x64) hz2]
  funext y
  obtain ⟨p, q, rfl⟩ : ∃ (p : Fin 5000) (q : Fin 64), y = ix2 p q := ⟨y 0, y 1, eq_ix2 y⟩
  show k1_pay5 (iblk1 V c 0 t) (iblk1 V c 1 t) (iblk1 V c 2 t) (iblk1 V c 3 t) (iblk1 V c 4 t) (iblk1 V c 5 t) (iblk1 V c 6 t) (ix2 p q)
    = Spec.arrE (Mk V c) (((cfg1.win 9).blk t).view.emb (ix2 p q))
  refine (pay5_at V c t p q).trans ?_
  obtain ⟨-, -, -, ⟨e0, e1⟩, -⟩ := idx_rows t
  unfold Spec.arrE
  refine congrArg₂ (Mk V c) (Fin.ext ?_) (Fin.ext ?_)
  · show t.val * 5000 + p.val = win1_9.index t (0 : Fin 2) * 5000 + 1 * p.val; rw [e0]; omega
  · show q.val = win1_9.index t (1 : Fin 2) * 64 + 1 * q.val; rw [e1]; omega

/-- An index of the array is in point t's block iff each coordinate is in the block's range on its axis. -/
theorem mem_blkM (t : Fin cfg1.N) (i : S1600000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v17_0).slice (win1_9.rect t)).set ↔ _
  rw [View.set_slice_whole, Rect.mem_set_unit]
  exact Iff.rfl

/-- Every index of the pre-activation array is in the block of the point its row divided by 5000 names. -/
theorem coverM (i : S1600000x64.Idx) : ∃ t : Fin cfg1.N, (cfg1.win 9).flush t = true ∧ i ∈ ((cfg1.win 9).blk t).view.set := by
  have hi0 : (i 0).val < 1600000 := idx2_lt0 i
  have hi1 : (i 1).val < 64 := idx2_lt1 i
  have ht : (i 0).val / 5000 < cfg1.N := by rw [pts]; omega
  refine ⟨⟨(i 0).val / 5000, ht⟩, flush1_9 _, ?_⟩
  rw [mem_blkM]
  obtain ⟨-, -, -, ⟨e0, e1⟩, -⟩ := idx_rows ⟨(i 0).val / 5000, ht⟩
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_9.index ⟨(i 0).val / 5000, ht⟩ (1 : Fin 2) * 64 ≤ (i 1).val ∧ (i 1).val < win1_9.index ⟨(i 0).val / 5000, ht⟩ (1 : Fin 2) * 64 + 64
    rw [e1]; omega

/-- The pre-activation array after the region is M. -/
theorem finalM (c : Dev nD) : (dat1 V c).arrAt 9 cfg1.N = Spec.arrE (Mk V c) :=
  (dat1 V c).arrAt_eq_of_cover 9 (Spec.arrE (Mk V c)) (fun t _ => flushedM V c t) coverM

theorem outM (c : Dev nD) (e : Fin 1600000) (j : Fin 64) :
    (dat1 V c).arrAt 9 cfg1.N (ix2 e j) = Mk V c e j := by
  exact congrFun (finalM V c) (ix2 e j)

/-- What point t writes back to the message array is block t of T. -/
theorem flushedT (c : Dev nD) (t : Fin cfg1.N) :
    (dat1 V c).flushed 10 t = ((cfg1.win 10).blk t).view.read (Elt Ideal) (Spec.arrE (Tk V c)) := by
  show (cfg1.win 10).cut (grid1.coords t) ((dat1 V c).after 10 t) = _
  rw [after1_10]
  unfold out1_10
  rw [View.canon_unit_zero hz2]
  simp only [View.ld_unit_zero (S := S5000x64) hz2, View.ld_unit_zero (S := S64x64) hz2, View.ld_unit_zero (S := S1x64) hz2]
  funext y
  obtain ⟨p, q, rfl⟩ : ∃ (p : Fin 5000) (q : Fin 64), y = ix2 p q := ⟨y 0, y 1, eq_ix2 y⟩
  show k1_pay1 (k1_pay6 (iblk1 V c 1 t) (iblk1 V c 7 t) (iblk1 V c 8 t))
      (k1_pay7 (iblk1 V c 0 t) (iblk1 V c 1 t) (iblk1 V c 2 t) (iblk1 V c 3 t) (iblk1 V c 4 t) (iblk1 V c 5 t) (iblk1 V c 6 t)) (ix2 p q)
    = Spec.arrE (Tk V c) (((cfg1.win 10).blk t).view.emb (ix2 p q))
  refine (pay1_apply _ _ _).trans ?_
  refine (congrArg₂ (· * ·) ((pay7_apply _ _ _ _ _ _ _ p q).trans (congrArg Spec.sigK (pay5_at V c t p q))) (pay6_at V c t p q)).trans ?_
  obtain ⟨-, -, -, -, e0, e1⟩ := idx_rows t
  unfold Spec.arrE
  refine congrArg₂ (Tk V c) (Fin.ext ?_) (Fin.ext ?_)
  · show t.val * 5000 + p.val = win1_10.index t (0 : Fin 2) * 5000 + 1 * p.val; rw [e0]; omega
  · show q.val = win1_10.index t (1 : Fin 2) * 64 + 1 * q.val; rw [e1]; omega

theorem mem_blkT (t : Fin cfg1.N) (i : S1600000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v17_1).slice (win1_10.rect t)).set ↔ _
  rw [View.set_slice_whole, Rect.mem_set_unit]
  exact Iff.rfl

/-- Every index of the message array is in the block of the point its row divided by 5000 names. -/
theorem coverT (i : S1600000x64.Idx) : ∃ t : Fin cfg1.N, (cfg1.win 10).flush t = true ∧ i ∈ ((cfg1.win 10).blk t).view.set := by
  have hi0 : (i 0).val < 1600000 := idx2_lt0 i
  have hi1 : (i 1).val < 64 := idx2_lt1 i
  have ht : (i 0).val / 5000 < cfg1.N := by rw [pts]; omega
  refine ⟨⟨(i 0).val / 5000, ht⟩, flush1_10 _, ?_⟩
  rw [mem_blkT]
  obtain ⟨-, -, -, -, e0, e1⟩ := idx_rows ⟨(i 0).val / 5000, ht⟩
  intro a
  match a with
  | ⟨0, _⟩ =>
    show win1_10.index ⟨(i 0).val / 5000, ht⟩ (0 : Fin 2) * 5000 ≤ (i 0).val ∧ (i 0).val < win1_10.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_10.index ⟨(i 0).val / 5000, ht⟩ (1 : Fin 2) * 64 ≤ (i 1).val ∧ (i 1).val < win1_10.index ⟨(i 0).val / 5000, ht⟩ (1 : Fin 2) * 64 + 64
    rw [e1]; omega

/-- The message array after the region is T. -/
theorem finalT (c : Dev nD) : (dat1 V c).arrAt 10 cfg1.N = Spec.arrE (Tk V c) :=
  (dat1 V c).arrAt_eq_of_cover 10 (Spec.arrE (Tk V c)) (fun t _ => flushedT V c t) coverT

theorem outT (c : Dev nD) (e : Fin 1600000) (j : Fin 64) :
    (dat1 V c).arrAt 10 cfg1.N (ix2 e j)
      = Spec.sigK (Mk V c e j)
        * Spec.lin (fun a k => V c main_v13 (ix2 a k)) (fun k l => V c main_arg7 (ix2 k l)) (fun l => V c main_v5 (ix2 0 l)) e j := by
  exact congrFun (finalT V c) (ix2 e j)

/-! ## The column sums -/

/-- The sum over the 5000 rows of a [5000, 64] block, at column j. -/
theorem colsum_apply (v : FVec Ideal S5000x64 .f32) (hφ : FKind.Formats .f32)
    (hacc : (0x00000000#32 : BitVec 32) = FKind.add.neutral .f32 hφ) (j : Fin 64) :
    multiReduction (F := Ideal) .add [0] S64 v 0x00000000#32 reduces_S5000x64_S64 hφ hacc (ix1 j) = ∑ p : Fin 5000, v (ix2 p j) := by
  refine (Ideal.multiReduction_add_single v 0x00000000#32 reduces_S5000x64_S64 hφ hacc (ix1 j)).trans ?_
  show ∑ p : Fin 5000, v (reduces_S5000x64_S64.lift (ix1 j) p) = ∑ p : Fin 5000, v (ix2 p j)
  refine Finset.sum_congr rfl fun p _ => congrArg v (funext fun a => Fin.ext ?_)
  match a with
  | ⟨0, _⟩ => rfl
  | ⟨1, _⟩ => rfl

/-- The column-sum payload at (u, r, j): the block's column sum at j, on each of the 8 rows. -/
theorem pay2_apply (v : FVec Ideal S5000x64 .f32) (u : Fin 1) (r : Fin 8) (j : Fin 64) :
    k1_pay2 v (ix3 u r j) = ∑ p : Fin 5000, v (ix2 p j) := by
  unfold k1_pay2
  dsimp only
  simp only [shapeCast_self]
  refine (broadcastTo_apply _ _ (ix3 u r j) (ix3 (0 : Fin 1) (0 : Fin 1) j) (fun a => ?_)).trans ?_
  · match a with
    | ⟨0, _⟩ => rfl
    | ⟨1, _⟩ => rfl
    | ⟨2, _⟩ => rfl
  refine (shapeCast_ab_1ab_apply _ _ (0 : Fin 1) (0 : Fin 1) j).trans ?_
  refine (shapeCast_a_1a_apply _ _ (0 : Fin 1) j).trans ?_
  exact colsum_apply v _ _ j

/-- The column-sum-of-squares payload at (u, r, j). -/
theorem pay3_apply (v : FVec Ideal S5000x64 .f32) (u : Fin 1) (r : Fin 8) (j : Fin 64) :
    k1_pay3 v (ix3 u r j) = ∑ p : Fin 5000, v (ix2 p j) * v (ix2 p j) := by
  unfold k1_pay3
  dsimp only
  simp only [shapeCast_self]
  refine (broadcastTo_apply _ _ (ix3 u r j) (ix3 (0 : Fin 1) (0 : Fin 1) j) (fun a => ?_)).trans ?_
  · match a with
    | ⟨0, _⟩ => rfl
    | ⟨1, _⟩ => rfl
    | ⟨2, _⟩ => rfl
  refine (shapeCast_ab_1ab_apply _ _ (0 : Fin 1) (0 : Fin 1) j).trans ?_
  refine (shapeCast_a_1a_apply _ _ (0 : Fin 1) j).trans ?_
  exact colsum_apply (mulf v v) _ _ j

/-- The blocks' column sums of M as an array over the [320, 8, 64] index type: the same on each of the 8 rows. -/
abbrev arrSP (c : Dev nD) : S320x8x64.Idx → EReal :=
  fun i => Spec.psum Spec.hE (Mk V c) ⟨(i 0).val, (i 0).isLt⟩ ⟨(i 2).val, (i 2).isLt⟩

/-- The blocks' column sums of M squared, likewise. -/
abbrev arrSQ (c : Dev nD) : S320x8x64.Idx → EReal :=
  fun i => Spec.psumsq Spec.hE (Mk V c) ⟨(i 0).val, (i 0).isLt⟩ ⟨(i 2).val, (i 2).isLt⟩

/-- What point t writes back to the column-sum array is block t of the blocks' column sums. -/
theorem flushedSP (c : Dev nD) (t : Fin cfg1.N) :
    (dat1 V c).flushed 11 t = ((cfg1.win 11).blk t).view.read (Elt Ideal) (arrSP V c) := by
  show (cfg1.win 11).cut (grid1.coords t) ((dat1 V c).after 11 t) = _
  rw [after1_11]
  unfold out1_11
  rw [View.canon_unit_zero hz3]
  simp only [View.ld_unit_zero (S := S5000x64) hz2, View.ld_unit_zero (S := S64x64) hz2, View.ld_unit_zero (S := S1x64) hz2]
  funext y
  obtain ⟨u, r, q, rfl⟩ : ∃ (u : Fin 1) (r : Fin 8) (q : Fin 64), y = ix3 u r q := ⟨y 0, y 1, y 2, eq_ix3 y⟩
  show k1_pay2 (k1_pay5 (iblk1 V c 0 t) (iblk1 V c 1 t) (iblk1 V c 2 t) (iblk1 V c 3 t) (iblk1 V c 4 t) (iblk1 V c 5 t) (iblk1 V c 6 t)) (ix3 u r q)
    = arrSP V c (((cfg1.win 11).blk t).view.emb (ix3 u r q))
  refine (pay2_apply _ u r q).trans ?_
  refine (Finset.sum_congr rfl fun p _ => pay5_at V c t p q).trans ?_
  have hsum : (∑ p : Fin 5000, Mk V c (edgeOf t p) q) = Spec.psum Spec.hE (Mk V c) (blkOf t) q := rfl
  refine hsum.trans ?_
  obtain ⟨⟨e0, e1, e2⟩, -⟩ := idx_sums t
  have hu : u.val = 0 := by have := u.isLt; omega
  refine congrArg₂ (Spec.psum Spec.hE (Mk V c)) (Fin.ext ?_) (Fin.ext ?_)
  · show t.val = win1_11.index t (0 : Fin 3) * 1 + 1 * u.val; rw [e0, hu]; omega
  · show q.val = win1_11.index t (2 : Fin 3) * 64 + 1 * q.val; rw [e2]; omega

theorem mem_blkSP (t : Fin cfg1.N) (i : S320x8x64.Idx) :
    i ∈ ((cfg1.win 11).blk t).view.set ↔ ∀ a : Fin 3, win1_11.index t a * S1x8x64.size a ≤ (i a).val ∧ (i a).val < win1_11.index t a * S1x8x64.size a + S1x8x64.size a := by
  show i ∈ ((View.whole main_v17_2).slice (win1_11.rect t)).set ↔ _
  rw [View.set_slice_whole, Rect.mem_set_unit]
  exact Iff.rfl

/-- Every index (b, r, j) of the column-sum array is in point b's block. -/
theorem coverSP (i : S320x8x64.Idx) : ∃ t : Fin cfg1.N, (cfg1.win 11).flush t = true ∧ i ∈ ((cfg1.win 11).blk t).view.set := by
  have hi0 : (i 0).val < 320 := (i 0).isLt
  have hi1 : (i 1).val < 8 := (i 1).isLt
  have hi2 : (i 2).val < 64 := (i 2).isLt
  have ht : (i 0).val < cfg1.N := by rw [pts]; exact hi0
  refine ⟨⟨(i 0).val, ht⟩, flush1_11 _, ?_⟩
  rw [mem_blkSP]
  obtain ⟨⟨e0, e1, e2⟩, -⟩ := idx_sums ⟨(i 0).val, ht⟩
  intro a
  match a with
  | ⟨0, _⟩ =>
    show win1_11.index ⟨(i 0).val, ht⟩ (0 : Fin 3) * 1 ≤ (i 0).val ∧ (i 0).val < win1_11.index ⟨(i 0).val, ht⟩ (0 : Fin 3) * 1 + 1
    rw [e0]; show (i 0).val * 1 ≤ (i 0).val ∧ (i 0).val < (i 0).val * 1 + 1; omega
  | ⟨1, _⟩ =>
    show win1_11.index ⟨(i 0).val, ht⟩ (1 : Fin 3) * 8 ≤ (i 1).val ∧ (i 1).val < win1_11.index ⟨(i 0).val, ht⟩ (1 : Fin 3) * 8 + 8
    rw [e1]; omega
  | ⟨2, _⟩ =>
    show win1_11.index ⟨(i 0).val, ht⟩ (2 : Fin 3) * 64 ≤ (i 2).val ∧ (i 2).val < win1_11.index ⟨(i 0).val, ht⟩ (2 : Fin 3) * 64 + 64
    rw [e2]; omega

/-- The column-sum array after the region. -/
theorem finalSP (c : Dev nD) : (dat1 V c).arrAt 11 cfg1.N = arrSP V c :=
  (dat1 V c).arrAt_eq_of_cover 11 (arrSP V c) (fun t _ => flushedSP V c t) coverSP

theorem outSP (c : Dev nD) (b : Fin 320) (r : Fin 8) (j : Fin 64) :
    (dat1 V c).arrAt 11 cfg1.N (ix3 b r j) = Spec.psum Spec.hE (Mk V c) b j := by
  exact congrFun (finalSP V c) (ix3 b r j)

/-- What point t writes back to the column-sum-of-squares array is block t of the blocks' column sums of squares. -/
theorem flushedSQ (c : Dev nD) (t : Fin cfg1.N) :
    (dat1 V c).flushed 12 t = ((cfg1.win 12).blk t).view.read (Elt Ideal) (arrSQ V c) := by
  show (cfg1.win 12).cut (grid1.coords t) ((dat1 V c).after 12 t) = _
  rw [after1_12]
  unfold out1_12
  rw [View.canon_unit_zero hz3]
  simp only [View.ld_unit_zero (S := S5000x64) hz2, View.ld_unit_zero (S := S64x64) hz2, View.ld_unit_zero (S := S1x64) hz2]
  funext y
  obtain ⟨u, r, q, rfl⟩ : ∃ (u : Fin 1) (r : Fin 8) (q : Fin 64), y = ix3 u r q := ⟨y 0, y 1, y 2, eq_ix3 y⟩
  show k1_pay3 (k1_pay5 (iblk1 V c 0 t) (iblk1 V c 1 t) (iblk1 V c 2 t) (iblk1 V c 3 t) (iblk1 V c 4 t) (iblk1 V c 5 t) (iblk1 V c 6 t)) (ix3 u r q)
    = arrSQ V c (((cfg1.win 12).blk t).view.emb (ix3 u r q))
  refine (pay3_apply _ u r q).trans ?_
  refine (Finset.sum_congr rfl fun p _ => congrArg₂ (· * ·) (pay5_at V c t p q) (pay5_at V c t p q)).trans ?_
  have hsum : (∑ p : Fin 5000, Mk V c (edgeOf t p) q * Mk V c (edgeOf t p) q) = Spec.psumsq Spec.hE (Mk V c) (blkOf t) q := rfl
  refine hsum.trans ?_
  obtain ⟨-, e0, e1, e2⟩ := idx_sums t
  have hu : u.val = 0 := by have := u.isLt; omega
  refine congrArg₂ (Spec.psumsq Spec.hE (Mk V c)) (Fin.ext ?_) (Fin.ext ?_)
  · show t.val = win1_12.index t (0 : Fin 3) * 1 + 1 * u.val; rw [e0, hu]; omega
  · show q.val = win1_12.index t (2 : Fin 3) * 64 + 1 * q.val; rw [e2]; omega

theorem mem_blkSQ (t : Fin cfg1.N) (i : S320x8x64.Idx) :
    i ∈ ((cfg1.win 12).blk t).view.set ↔ ∀ a : Fin 3, win1_12.index t a * S1x8x64.size a ≤ (i a).val ∧ (i a).val < win1_12.index t a * S1x8x64.size a + S1x8x64.size a := by
  show i ∈ ((View.whole main_v17_3).slice (win1_12.rect t)).set ↔ _
  rw [View.set_slice_whole, Rect.mem_set_unit]
  exact Iff.rfl

/-- Every index (b, r, j) of the column-sum-of-squares array is in point b's block. -/
theorem coverSQ (i : S320x8x64.Idx) : ∃ t : Fin cfg1.N, (cfg1.win 12).flush t = true ∧ i ∈ ((cfg1.win 12).blk t).view.set := by
  have hi0 : (i 0).val < 320 := (i 0).isLt
  have hi1 : (i 1).val < 8 := (i 1).isLt
  have hi2 : (i 2).val < 64 := (i 2).isLt
  have ht : (i 0).val < cfg1.N := by rw [pts]; exact hi0
  refine ⟨⟨(i 0).val, ht⟩, flush1_12 _, ?_⟩
  rw [mem_blkSQ]
  obtain ⟨-, e0, e1, e2⟩ := idx_sums ⟨(i 0).val, ht⟩
  intro a
  match a with
  | ⟨0, _⟩ =>
    show win1_12.index ⟨(i 0).val, ht⟩ (0 : Fin 3) * 1 ≤ (i 0).val ∧ (i 0).val < win1_12.index ⟨(i 0).val, ht⟩ (0 : Fin 3) * 1 + 1
    rw [e0]; show (i 0).val * 1 ≤ (i 0).val ∧ (i 0).val < (i 0).val * 1 + 1; omega
  | ⟨1, _⟩ =>
    show win1_12.index ⟨(i 0).val, ht⟩ (1 : Fin 3) * 8 ≤ (i 1).val ∧ (i 1).val < win1_12.index ⟨(i 0).val, ht⟩ (1 : Fin 3) * 8 + 8
    rw [e1]; omega
  | ⟨2, _⟩ =>
    show win1_12.index ⟨(i 0).val, ht⟩ (2 : Fin 3) * 64 ≤ (i 2).val ∧ (i 2).val < win1_12.index ⟨(i 0).val, ht⟩ (2 : Fin 3) * 64 + 64
    rw [e2]; omega

/-- The column-sum-of-squares array after the region. -/
theorem finalSQ (c : Dev nD) : (dat1 V c).arrAt 12 cfg1.N = arrSQ V c :=
  (dat1 V c).arrAt_eq_of_cover 12 (arrSQ V c) (fun t _ => flushedSQ V c t) coverSQ

theorem outSQ (c : Dev nD) (b : Fin 320) (r : Fin 8) (j : Fin 64) :
    (dat1 V c).arrAt 12 cfg1.N (ix3 b r j) = Spec.psumsq Spec.hE (Mk V c) b j := by
  exact congrFun (finalSQ V c) (ix3 b r j)

end Cert.KernelIdeal.R1

end
-- ==== Proof.KH.lean ====
/- The host stretches of the idealized kernel program between its regions, each read at ANY entry valuation W:
   what a stretch leaves in each buffer it writes, index by index, from what W holds in the buffers it reads. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.H

open Cert.KernelIdeal Cert.KernelIdeal.Gen Idealize.ShloMosaic Idealize.ShloMosaic.TcCoe Idealize.ShloMosaic.ValueIdx Idealize.SL.Sem
open Idealize.ShloMosaic.Pipeline (Dat Cfg Window)
variable (W : Valuation τ sig (Elt Ideal))

/-! ## Before region 0: the two rows of the edge index as vectors, the seven [64] vectors as [1, 64] rows -/

/-- A [64] vector laid out as a [1, 64] row reads, at (0, l), the vector at l: the two row-major positions agree. -/
private theorem row_cast {α : Type} (v : (⟨1, ![64]⟩ : Shape).Idx → α) (l : Fin 64) :
    shapeCast (⟨2, ![1, 64]⟩ : Shape) v shapeCasts_S64_S1x64 (ix2 0 l) = v (ix1 l) := by
  refine shapeCast_apply (s := ⟨1, ![64]⟩) (t := ⟨2, ![1, 64]⟩) _ _ _ (ix1 l) ?_
  rw [Shape.rowMajor_val_one, Shape.rowMajor_val_two]
  show l.val = 0 * 64 + l.val
  omega

theorem h0_v1 (e : Fin 1600000) : StableHlo.after hostOps0 W (Proc.devRef .tc main_v1) (ix1 e) = W (Proc.devRef .tc main_arg1) (ix2 0 e) := by
  have h : StableHlo.after hostOps0 W (Proc.devRef .tc main_v1) = shapeCast S1600000 (extractStridedSlice S1x1600000 ![0, 0] (W (Proc.devRef .tc main_arg1)) slices_S2x1600000_S1x1600000_0_0) shapeCasts_S1x1600000_S1600000 := by
    after_results
    try rfl
  rw [h]
  refine (shapeCast_apply (s := ⟨2, ![1, 1600000]⟩) (t := ⟨1, ![1600000]⟩) _ _ _ (ix2 0 e) ?_).trans ?_
  · rw [Shape.rowMajor_val_one, Shape.rowMajor_val_two]
    show 0 * 1600000 + e.val = e.val
    omega
  refine extractStridedSlice_apply _ _ _ _ _ (fun a => ?_)
  match a with
  | ⟨0, _⟩ => show 0 = 0 + 0; omega
  | ⟨1, _⟩ => show e.val = 0 + e.val; omega
theorem h0_v3 (e : Fin 1600000) : StableHlo.after hostOps0 W (Proc.devRef .tc main_v3) (ix1 e) = W (Proc.devRef .tc main_arg1) (ix2 1 e) := by
  have h : StableHlo.after hostOps0 W (Proc.devRef .tc main_v3) = shapeCast S1600000 (extractStridedSlice S1x1600000 ![1, 0] (W (Proc.devRef .tc main_arg1)) slices_S2x1600000_S1x1600000_1_0) shapeCasts_S1x1600000_S1600000 := by
    after_results
    try rfl
  rw [h]
  refine (shapeCast_apply (s := ⟨2, ![1, 1600000]⟩) (t := ⟨1, ![1600000]⟩) _ _ _ (ix2 0 e) ?_).trans ?_
  · rw [Shape.rowMajor_val_one, Shape.rowMajor_val_two]
    show 0 * 1600000 + e.val = e.val
    omega
  refine extractStridedSlice_apply _ _ _ _ _ (fun a => ?_)
  match a with
  | ⟨0, _⟩ => show 1 = 1 + 0; omega
  | ⟨1, _⟩ => show e.val = 0 + e.val; omega
theorem h0_v4 (l : Fin 64) : StableHlo.after hostOps0 W (Proc.devRef .tc main_v4) (ix2 0 l) = W (Proc.devRef .tc main_arg6) (ix1 l) := by
  have h : StableHlo.after hostOps0 W (Proc.devRef .tc main_v4) = shapeCast S1x64 (W (Proc.devRef .tc main_arg6)) shapeCasts_S64_S1x64 := by
    after_results
    try rfl
  rw [h]
  exact row_cast _ l
theorem h0_v5 (l : Fin 64) : StableHlo.after hostOps0 W (Proc.devRef .tc main_v5) (ix2 0 l) = W (Proc.devRef .tc main_arg8) (ix1 l) := by
  have h : StableHlo.after hostOps0 W (Proc.devRef .tc main_v5) = shapeCast S1x64 (W (Proc.devRef .tc main_arg8)) shapeCasts_S64_S1x64 := by
    after_results
    try rfl
  rw [h]
  exact row_cast _ l
theorem h0_v6 (l : Fin 64) : StableHlo.after hostOps0 W (Proc.devRef .tc main_v6) (ix2 0 l) = W (Proc.devRef .tc main_arg4) (ix1 l) := by
  have h : StableHlo.after hostOps0 W (Proc.devRef .tc main_v6) = shapeCast S1x64 (W (Proc.devRef .tc main_arg4)) shapeCasts_S64_S1x64 := by
    after_results
    try rfl
  rw [h]
  exact row_cast _ l
theorem h0_v7 (l : Fin 64) : StableHlo.after hostOps0 W (Proc.devRef .tc main_v7) (ix2 0 l) = W (Proc.devRef .tc main_arg9) (ix1 l) := by
  have h : StableHlo.after hostOps0 W (Proc.devRef .tc main_v7) = shapeCast S1x64 (W (Proc.devRef .tc main_arg9)) shapeCasts_S64_S1x64 := by
    after_results
    try rfl
  rw [h]
  exact row_cast _ l
theorem h0_v8 (l : Fin 64) : StableHlo.after hostOps0 W (Proc.devRef .tc main_v8) (ix2 0 l) = W (Proc.devRef .tc main_arg10) (ix1 l) := by
  have h : StableHlo.after hostOps0 W (Proc.devRef .tc main_v8) = shapeCast S1x64 (W (Proc.devRef .tc main_arg10)) shapeCasts_S64_S1x64 := by
    after_results
    try rfl
  rw [h]
  exact row_cast _ l
theorem h0_v9 (l : Fin 64) : StableHlo.after hostOps0 W (Proc.devRef .tc main_v9) (ix2 0 l) = W (Proc.devRef .tc main_arg11) (ix1 l) := by
  have h : StableHlo.after hostOps0 W (Proc.devRef .tc main_v9) = shapeCast S1x64 (W (Proc.devRef .tc main_arg11)) shapeCasts_S64_S1x64 := by
    after_results
    try rfl
  rw [h]
  exact row_cast _ l
theorem h0_v10 (l : Fin 64) : StableHlo.after hostOps0 W (Proc.devRef .tc main_v10) (ix2 0 l) = W (Proc.devRef .tc main_arg12) (ix1 l) := by
  have h : StableHlo.after hostOps0 W (Proc.devRef .tc main_v10) = shapeCast S1x64 (W (Proc.devRef .tc main_arg12)) shapeCasts_S64_S1x64 := by
    after_results
    try rfl
  rw [h]
  exact row_cast _ l

/-! ## Between regions 0 and 1: the three 64-row blocks of the gate weight -/

theorem h12_v14 (k l : Fin 64) : StableHlo.after hostOps1_2 W (Proc.devRef .tc main_v14) (ix2 k l) = Spec.wg1 (fun r l' => W (Proc.devRef .tc main_arg3) (ix2 r l')) k l := by
  have h : StableHlo.after hostOps1_2 W (Proc.devRef .tc main_v14) = extractStridedSlice S64x64 ![0, 0] (W (Proc.devRef .tc main_arg3)) slices_S192x64_S64x64_0_0 := by
    after_results
    try rfl
  rw [h]; unfold Spec.wg1
  refine extractStridedSlice_apply _ _ _ _ _ (fun a => ?_)
  match a with
  | ⟨0, _⟩ => show k.val = 0 + k.val; omega
  | ⟨1, _⟩ => show l.val = 0 + l.val; omega
theorem h12_v15 (k l : Fin 64) : StableHlo.after hostOps1_2 W (Proc.devRef .tc main_v15) (ix2 k l) = Spec.wg2 (fun r l' => W (Proc.devRef .tc main_arg3) (ix2 r l')) k l := by
  have h : StableHlo.after hostOps1_2 W (Proc.devRef .tc main_v15) = extractStridedSlice S64x64 ![64, 0] (W (Proc.devRef .tc main_arg3)) slices_S192x64_S64x64_64_0 := by
    after_results
    try rfl
  rw [h]; unfold Spec.wg2
  refine extractStridedSlice_apply _ _ _ _ _ (fun a => ?_)
  match a with
  | ⟨0, _⟩ => show 64 + k.val = 64 + k.val; omega
  | ⟨1, _⟩ => show l.val = 0 + l.val; omega
theorem h12_v16 (k l : Fin 64) : StableHlo.after hostOps1_2 W (Proc.devRef .tc main_v16) (ix2 k l) = Spec.wg3 (fun r l' => W (Proc.devRef .tc main_arg3) (ix2 r l')) k l := by
  have h : StableHlo.after hostOps1_2 W (Proc.devRef .tc main_v16) = extractStridedSlice S64x64 ![128, 0] (W (Proc.devRef .tc main_arg3)) slices_S192x64_S64x64_128_0 := by
    after_results
    try rfl
  rw [h]; unfold Spec.wg3
  refine extractStridedSlice_apply _ _ _ _ _ (fun a => ?_)
  match a with
  | ⟨0, _⟩ => show 128 + k.val = 128 + k.val; omega
  | ⟨1, _⟩ => show l.val = 0 + l.val; omega

/-! ## After region 2: the edge result back in [E, 64] layout; the messages accumulated at their source rows -/

theorem h3_v49 (e : Fin 1600000) (j : Fin 64) :
    StableHlo.after hostOps3 W (Proc.devRef .tc main_v49) (ix2 e j)
      = W (Proc.devRef .tc main_v48) (ix2 ⟨e.val / 2, by have := e.isLt; omega⟩ ⟨(e.val % 2) * 64 + j.val, by have := j.isLt; omega⟩) := by
  have h : StableHlo.after hostOps3 W (Proc.devRef .tc main_v49) = shapeCast S1600000x64 (W (Proc.devRef .tc main_v48)) shapeCasts_S800000x128_S1600000x64 := by
    after_results
    try rfl
  rw [h]
  refine shapeCast_apply (s := ⟨2, ![800000, 128]⟩) (t := ⟨2, ![1600000, 64]⟩) _ _ _ _ ?_
  rw [Shape.rowMajor_val_two, Shape.rowMajor_val_two]
  show e.val / 2 * 128 + (e.val % 2 * 64 + j.val) = e.val * 64 + j.val
  omega

theorem h3_v52 :
    StableHlo.after hostOps3 W (Proc.devRef .tc main_v52)
      = Ideal.hostScatterAdd scatter_S50000x64_S1600000x1_S1600000x64_1_0_0_1 (fun _ => Spec.z)
          (fun i => W (Proc.devRef .tc main_v1) (ix1 ⟨(i 0).val, idx2_lt0 i⟩)) (W (Proc.devRef .tc main_v17_1)) := by
  have h : StableHlo.after hostOps3 W (Proc.devRef .tc main_v52)
      = Host.scatterAdd (F := Ideal) scatter_S50000x64_S1600000x1_S1600000x64_1_0_0_1
          (broadcastInDim S50000x64 ![] bcast_S_S50000x64 (constant (F := Ideal) S_ .f32 0x00000000#32))
          (broadcastInDim S1600000x1 ![0] bcast_S1600000_S1600000x1_0 (W (Proc.devRef .tc main_v1)))
          (W (Proc.devRef .tc main_v17_1)) := by
    after_results
    try rfl
  -- the scalar zero broadcast to [N, 64] is zero everywhere
  have hz : broadcastInDim S50000x64 ![] bcast_S_S50000x64 (constant (F := Ideal) S_ .f32 0x00000000#32) = fun _ => Spec.z := by
    funext j; rfl
  -- a vector as an [E, 1] column reads, at (p, 0), the vector at p
  have hi : ∀ v : IVec (⟨1, ![1600000]⟩ : Shape) 32,
      broadcastInDim (⟨2, ![1600000, 1]⟩ : Shape) ![0] bcast_S1600000_S1600000x1_0 v
        = fun i => v (ix1 ⟨(i 0).val, idx2_lt0 i⟩) := by
    intro v; funext i
    refine broadcastInDim_apply _ _ _ _ _ (fun a => ?_)
    match a with
    | ⟨0, _⟩ => rfl
  rw [h, hz]
  exact congrArg (fun t => Ideal.hostScatterAdd scatter_S50000x64_S1600000x1_S1600000x64_1_0_0_1 (fun _ => Spec.z) t (W (Proc.devRef .tc main_v17_1))) (hi _)

/-! ## After region 4: the node result back in [N, 64] layout -/

theorem h5_v85 (i : Fin 50000) (j : Fin 64) :
    StableHlo.after hostOps5 W (Proc.devRef .tc main_v85) (ix2 i j)
      = W (Proc.devRef .tc main_v84) (ix2 ⟨i.val / 2, by have := i.isLt; omega⟩ ⟨(i.val % 2) * 64 + j.val, by have := j.isLt; omega⟩) := by
  have h : StableHlo.after hostOps5 W (Proc.devRef .tc main_v85) = shapeCast S50000x64 (W (Proc.devRef .tc main_v84)) shapeCasts_S25000x128_S50000x64 := by
    after_results
    try rfl
  rw [h]
  refine shapeCast_apply (s := ⟨2, ![25000, 128]⟩) (t := ⟨2, ![50000, 64]⟩) _ _ _ _ ?_
  rw [Shape.rowMajor_val_two, Shape.rowMajor_val_two]
  show i.val / 2 * 128 + (i.val % 2 * 64 + j.val) = i.val * 64 + j.val
  omega

end Cert.KernelIdeal.H

end
-- ==== Proof.GatherRows.lean ====
/- A row gather read at an index.  A [50000, 64] array gathered along its rows at a column of 1600000 start words:
   element (e, k) of the result is the array's row at start word e, read as a signed integer and clamped into
   [0, 49999], at column k. -/
import proofs.«418626_j55241869361500_3_alg».proof.Proof.Spec
import Idealize.ShloMosaic.Lib.ValueIdx
import Idealize.ShloMosaic.Lib.StableHlo.Predicate

set_option maxRecDepth 16384

noncomputable section

namespace Cert.Spec

open Idealize.ShloMosaic Idealize.ShloMosaic.ValueIdx

/-- The row gather's dimension numbers: the start index names axis 0, which is collapsed; axis 1 is kept whole. -/
def rowGather : GatherDims SN64 SE1 SE64 where
  offsetDims := [1]
  collapsedSliceDims := [0]
  operandBatchingDims := []
  startIndicesBatchingDims := []
  startIndexMap := [0]
  indexVectorDim := 1
  sliceSizes := ![1, 64]
  wf := by decide

/-- THE ROW GATHER READ AT (e, k): the operand's row at start word e, signed and clamped, column k. -/
theorem gather_rows {α : Type} (x : SN64.Idx → α) (idx : IVec SE1 32) (e : Fin 1600000) (k : Fin 64) :
    Host.gather rowGather x idx (ix2 e k) = x (ix2 ⟨min (idx (ix2 e 0)).toInt.toNat 49999, by omega⟩ k) := by
  unfold Host.gather
  congr 1
  funext a
  refine Fin.ext ?_
  -- no operand axis is a batching axis
  have hb : ∀ a : Fin SN64.rank, rowGather.batchCoord (ix2 e k) a = 0 :=
    fun a => GatherDims.batchCoord_eq_zero _ _ _ List.not_mem_nil
  match a with
  | ⟨0, _⟩ =>
    -- axis 0 is collapsed: the clamped start word alone
    show rowGather.start (ix2 e k) idx 0 + rowGather.batchCoord (ix2 e k) 0 + rowGather.offCoord (ix2 e k) 0 = _
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ rowGather.startIndexMap from List.mem_singleton.mpr rfl)]
    have hsi : rowGather.siIdx (ix2 e k) ⟨List.idxOf (0 : Fin 2) rowGather.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- axis 1 is kept whole: start 0, the offset coordinate is the column
    show rowGather.start (ix2 e k) idx 1 + rowGather.batchCoord (ix2 e k) 1 + rowGather.offCoord (ix2 e k) 1 = k.val
    have hs : rowGather.start (ix2 e k) idx 1 = 0 := by
      unfold GatherDims.start
      rw [dif_neg (show (1 : Fin 2) ∉ rowGather.startIndexMap by decide)]
    have hk : (1 : Fin 2) ∈ rowGather.sKept := by decide
    rw [hs, hb]
    unfold GatherDims.offCoord
    rw [dif_pos hk]
    simp only [Nat.zero_add]
    -- axis 1 is the first (only) kept operand axis, and the first (only) offset axis of the result is axis 1
    have key : ∀ (n : Nat) (h : n < rowGather.offsetDims.length), n = 0 →
        ((ix2 e k) (rowGather.offsetDims[n]'h)).val = k.val := by
      intro n h hn; subst hn; rfl
    exact key _ _ (by decide)

end Cert.Spec

end
-- ==== Proof.KHT.lean ====
/- The two row gathers of the idealized kernel program (jnp.take: an index word is normalised, tested for range, the row
   gathered with the start clamped, and an out-of-range row replaced by a fill value), each read at ANY entry valuation W
   whose index vector is in range: then the range test passes everywhere and the result is the gathered row. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.ReduceAll
import proofs.«418626_j55241869361500_3_alg».proof.Proof.GatherRows

set_option maxRecDepth 16384

noncomputable section

namespace Cert.KernelIdeal.HT

open Cert.KernelIdeal Cert.KernelIdeal.Gen Idealize.ShloMosaic Idealize.ShloMosaic.TcCoe Idealize.ShloMosaic.ValueIdx Idealize.SL.Sem
open Idealize.ShloMosaic.Pipeline (Dat Cfg Window)
variable (W : Valuation τ sig (Elt Ideal))

/-! ## jnp.take as an array expression of the table and the index vector -/

section Take

/-- The index vector normalised: a negative word has 50000 added. -/
def nidx (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v

/-- The normalised index vector as the [1600000, 1] column of start words. -/
def icol (v : IVec S1600000 32) : IVec S1600000x1 32 :=
  broadcastInDim S1600000x1 ![0] bcast_S1600000_S1600000x1_0 (nidx v)

/-- The range test on the column: 0 ≤ word and word ≤ 49999, both signed. -/
def inr (v : IVec S1600000 32) : IVec S1600000x1 1 :=
  andi (cmpi .sge (icol v) (broadcastInDim S1600000x1 ![] bcast_S_S1600000x1 (constantI S_ 32 0#32)))
    (cmpi .sle (icol v) (broadcastInDim S1600000x1 ![0, 1] bcast_S1x1_S1600000x1_0_1
      (broadcastInDim S1x1 ![1] bcast_S1_S1x1_1 (constantI S1 32 49999#32))))

/-- The range test and-reduced over the column's unit axis, from the bit 1. -/
def mask (v : IVec S1600000 32) : IVec S1600000 1 :=
  Host.reduce IntOp.andi (inr v) (constantI S_ 1 1#1) reducesTo_S1600000x1_S1600000_d1 h_S_

/-- jnp.take: the rows gathered at the column of start words where the range test passes, a fill value elsewhere. -/
def takeArr (x : FVec Ideal S50000x64 .f32) (v : IVec S1600000 32) : FVec Ideal S1600000x64 .f32 :=
  select (broadcastInDim S1600000x64 ![0] bcast_S1600000_S1600000x64_0 (mask v))
    (Host.gather gather_S50000x64_S1600000x1_S1600000x64_1_0_n_n_0_1_164 x (icol v))
    (broadcastInDim S1600000x64 ![] bcast_S_S1600000x64 (constant (F := Ideal) S_ .f32 0x7FC00000#32))

/-- The normalised vector at p is the normalised word. -/
theorem nidx_apply (v : IVec S1600000 32) (p : Fin 1600000) : nidx v (ix1 p) = Spec.nrm (v (ix1 p)) := rfl

/-- The column at (p, q) is the normalised word at p. -/
theorem icol_apply (v : IVec S1600000 32) (p : Fin 1600000) (q : Fin 1) : icol v (ix2 p q) = Spec.nrm (v (ix1 p)) := by
  unfold icol
  refine (broadcastInDim_apply _ _ _ (ix2 p q) (ix1 p) (fun a => ?_)).trans (nidx_apply v p)
  obtain rfl : a = 0 := Subsingleton.elim _ _
  rw [if_neg (by decide)]
  rfl

/-- An in-range word is its own normalisation. -/
theorem nrm_of_nonneg (w : BitVec 32) (h0 : 0 ≤ w.toInt) : Spec.nrm w = w := by
  have hc : IntOp.cmpi .slt w 0#32 = 0#1 := by
    refine eq_zero_of_ne_one (fun h => ?_)
    have := IntOp.cmpi_slt.mp h
    have h00 : (0#32 : BitVec 32).toInt = 0 := by decide
    omega
  unfold Spec.nrm
  rw [hc, select_zero]

/-- On an in-range word the range test's bit is 1. -/
theorem inr_apply (v : IVec S1600000 32) (p : Fin 1600000) (q : Fin 1)
    (h : 0 ≤ (v (ix1 p)).toInt ∧ (v (ix1 p)).toInt < 50000) : inr v (ix2 p q) = 1#1 := by
  have hw : icol v (ix2 p q) = v (ix1 p) := (icol_apply v p q).trans (nrm_of_nonneg _ h.1)
  show IntOp.andi (IntOp.cmpi .sge (icol v (ix2 p q)) 0#32) (IntOp.cmpi .sle (icol v (ix2 p q)) 49999#32) = 1#1
  rw [hw]
  refine IntOp.andi_eq_one.mpr ⟨IntOp.cmpi_sge.mpr ?_, IntOp.cmpi_sle.mpr ?_⟩
  · have h00 : (0#32 : BitVec 32).toInt = 0 := by decide
    omega
  · have h49 : (49999#32 : BitVec 32).toInt = 49999 := by decide
    omega

/-- A left fold by and over one-bit words that are all 1, from 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- With every index word in range the reduced range test is 1 everywhere. -/
theorem mask_apply (v : IVec S1600000 32)
    (hin : ∀ e : Fin 1600000, 0 ≤ (v (ix1 e)).toInt ∧ (v (ix1 e)).toInt < 50000) (j : S1600000.Idx) : mask v j = 1#1 := by
  unfold mask
  rw [Host.reduce_eq_foldl]
  refine foldl_andi_one (inr v) _ (fun i _ => ?_)
  obtain ⟨p, q, rfl⟩ : ∃ (p : Fin 1600000) (q : Fin 1), i = ix2 p q := ⟨i 0, i 1, eq_ix2 i⟩
  exact inr_apply v p q (hin p)

/-- jnp.take at (e, k), every index word in range: the table's row at the word, normalised and clamped, column k. -/
theorem takeArr_apply (x : FVec Ideal S50000x64 .f32) (v : IVec S1600000 32)
    (hin : ∀ e : Fin 1600000, 0 ≤ (v (ix1 e)).toInt ∧ (v (ix1 e)).toInt < 50000) (e : Fin 1600000) (k : Fin 64) :
    takeArr x v (ix2 e k) = x (ix2 (Spec.row (v (ix1 e))) k) := by
  have hm : broadcastInDim S1600000x64 ![0] bcast_S1600000_S1600000x64_0 (mask v) (ix2 e k) = 1#1 := by
    refine (broadcastInDim_apply _ _ _ (ix2 e k) (ix1 e) (fun a => ?_)).trans (mask_apply v hin _)
    obtain rfl : a = 0 := Subsingleton.elim _ _
    rw [if_neg (by decide)]
    rfl
  unfold takeArr
  rw [select_apply, hm, select_one]
  show Host.gather Cert.Spec.rowGather x (icol v) (ix2 e k) = _
  rw [Spec.gather_rows]
  refine congrArg (fun r => x (ix2 r k)) (Fin.ext ?_)
  show min (icol v (ix2 e 0)).toInt.toNat 49999 = min (Spec.nrm (v (ix1 e))).toInt.toNat 49999
  rw [icol_apply]

end Take

/-! ## The two stretches -/

/-- Contents moved to a buffer's own type and back are unchanged. -/
theorem ofBuf_toBuf {T : BufTy} (x : StableHlo.TRef sig T) (v : T.Contents (Elt Ideal)) : x.ofBuf (x.toBuf v) = v := by
  obtain ⟨r, h, _, _⟩ := x
  subst h
  rfl

/-- The table read at its buffer's own type is the table. -/
theorem of_arg0 : (StableHlo.TRef.of main_arg0 : StableHlo.TRef sig ⟨S50000x64, .f32⟩).ofBuf (W (Proc.devRef .tc main_arg0))
    = (W (Proc.devRef .tc main_arg0) : FVec Ideal S50000x64 .f32) := rfl
/-- The source index vector read at its buffer's own type is the vector. -/
theorem of_v1 : (StableHlo.TRef.of main_v1 : StableHlo.TRef sig ⟨S1600000, .i32⟩).ofBuf (W (Proc.devRef .tc main_v1))
    = (W (Proc.devRef .tc main_v1) : IVec S1600000 32) := rfl
/-- The destination index vector read at its buffer's own type is the vector. -/
theorem of_v3 : (StableHlo.TRef.of main_v3 : StableHlo.TRef sig ⟨S1600000, .i32⟩).ofBuf (W (Proc.devRef .tc main_v3))
    = (W (Proc.devRef .tc main_v3) : IVec S1600000 32) := rfl
/-- An array written to the source gather's result buffer is the array. -/
theorem to_v12 (a : (⟨S1600000x64, .f32⟩ : BufTy).Contents (Elt Ideal)) :
    (StableHlo.TRef.of main_v12 : StableHlo.TRef sig ⟨S1600000x64, .f32⟩).toBuf a = a := rfl
/-- An array written to the destination gather's result buffer is the array. -/
theorem to_v13 (a : (⟨S1600000x64, .f32⟩ : BufTy).Contents (Elt Ideal)) :
    (StableHlo.TRef.of main_v13 : StableHlo.TRef sig ⟨S1600000x64, .f32⟩).toBuf a = a := rfl

/-- The first stretch leaves jnp.take of the table at the source index vector in its result buffer: the 23 operations
    composed, the moves between a buffer's own type and the value's type dropped first, so that the two sides are
    compared operation by operation and the reduction is never opened. -/
theorem src_arr : StableHlo.after hostOps1 W (Proc.devRef .tc main_v12)
    = takeArr (W (Proc.devRef .tc main_arg0)) (W (Proc.devRef .tc main_v1)) := by
  after_results_simp
  simp only [ofBuf_toBuf, of_arg0, of_v1]
  unfold takeArr mask inr icol nidx
  exact to_v12 _

/-- The second stretch, likewise, at the destination index vector. -/
theorem dst_arr : StableHlo.after hostOps1_1 W (Proc.devRef .tc main_v13)
    = takeArr (W (Proc.devRef .tc main_arg0)) (W (Proc.devRef .tc main_v3)) := by
  after_results_simp
  simp only [ofBuf_toBuf, of_arg0, of_v3]
  unfold takeArr mask inr icol nidx
  exact to_v13 _

theorem take_src (hin : ∀ e : Fin 1600000, 0 ≤ (W (Proc.devRef .tc main_v1) (ix1 e)).toInt ∧ (W (Proc.devRef .tc main_v1) (ix1 e)).toInt < 50000)
    (e : Fin 1600000) (k : Fin 64) :
    StableHlo.after hostOps1 W (Proc.devRef .tc main_v12) (ix2 e k) = W (Proc.devRef .tc main_arg0) (ix2 (Spec.row (W (Proc.devRef .tc main_v1) (ix1 e))) k) :=
  (congrFun (src_arr W) (ix2 e k)).trans (takeArr_apply _ _ hin e k)

theorem take_dst (hin : ∀ e : Fin 1600000, 0 ≤ (W (Proc.devRef .tc main_v3) (ix1 e)).toInt ∧ (W (Proc.devRef .tc main_v3) (ix1 e)).toInt < 50000)
    (e : Fin 1600000) (k : Fin 64) :
    StableHlo.after hostOps1_1 W (Proc.devRef .tc main_v13) (ix2 e k) = W (Proc.devRef .tc main_arg0) (ix2 (Spec.row (W (Proc.devRef .tc main_v3) (ix1 e))) k) :=
  (congrFun (dst_arr W) (ix2 e k)).trans (takeArr_apply _ _ hin e k)

end Cert.KernelIdeal.HT

end
-- ==== Proof.KC1.lean ====
/- The idealized kernel program's buffers at region 1's exit (the boundary W6), as functions of the launched arguments,
   for an edge index whose words are all row numbers: the gate's four outputs, and the buffers later segments still read. -/
import proofs.«418626_j55241869361500_3_alg».proof.Proof.Gen.KernelIdeal.Frame
import proofs.«418626_j55241869361500_3_alg».proof.Proof.Spec
import proofs.«418626_j55241869361500_3_alg».proof.Proof.KArgs
import proofs.«418626_j55241869361500_3_alg».proof.Proof.KR0
import proofs.«418626_j55241869361500_3_alg».proof.Proof.KR1
import proofs.«418626_j55241869361500_3_alg».proof.Proof.KH
import proofs.«418626_j55241869361500_3_alg».proof.Proof.KHT
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A buffer that no operation of a host stretch writes keeps its contents across the stretch. -/
macro "keep_across " h:ident : tactic => `(tactic|
  exact StableHlo.after_of_forall_not_mem _ _ (List.forall_iff_forall_mem.mp (by
    simp only [$h:ident, List.Forall, StableHlo.nullary_writes, StableHlo.unary_writes, StableHlo.binary_writes,
      StableHlo.ternary_writes, StableHlo.quaternary_writes, StableHlo.reshape_writes, StableHlo.binaryIndexed_writes,
      Finset.mem_singleton, List.flatten_cons, List.flatten_nil, List.append_nil, List.cons_append, List.nil_append]
    repeat' apply And.intro
    all_goals exact StableHlo.devRef_ne_of_ne (by decide))))

/-! ## Buffers a stretch or a region leaves as they were -/

theorem a1_main_arg0 (c : Dev nD) : W1 m ρ c (Proc.devRef .tc main_arg0) = m ((c : Thread nD τ).loc main_arg0) := by
  keep_across hostOps0
theorem a1_main_arg2 (c : Dev nD) : W1 m ρ c (Proc.devRef .tc main_arg2) = m ((c : Thread nD τ).loc main_arg2) := by
  keep_across hostOps0
theorem a1_main_arg3 (c : Dev nD) : W1 m ρ c (Proc.devRef .tc main_arg3) = m ((c : Thread nD τ).loc main_arg3) := by
  keep_across hostOps0
theorem a1_main_arg5 (c : Dev nD) : W1 m ρ c (Proc.devRef .tc main_arg5) = m ((c : Thread nD τ).loc main_arg5) := by
  keep_across hostOps0
theorem a1_main_arg7 (c : Dev nD) : W1 m ρ c (Proc.devRef .tc main_arg7) = m ((c : Thread nD τ).loc main_arg7) := by
  keep_across hostOps0
theorem a1_main_v1 (c : Dev nD) (e : Fin 1600000) : W1 m ρ c (Proc.devRef .tc main_v1) (ix1 e) = aei m c 0 e :=
  H.h0_v1 (W0 m ρ c) e
theorem a1_main_v3 (c : Dev nD) (e : Fin 1600000) : W1 m ρ c (Proc.devRef .tc main_v3) (ix1 e) = aei m c 1 e :=
  H.h0_v3 (W0 m ρ c) e
theorem a1_main_v4 (c : Dev nD) (l : Fin 64) : W1 m ρ c (Proc.devRef .tc main_v4) (ix2 0 l) = abs m c l :=
  H.h0_v4 (W0 m ρ c) l
theorem a1_main_v5 (c : Dev nD) (l : Fin 64) : W1 m ρ c (Proc.devRef .tc main_v5) (ix2 0 l) = abd m c l :=
  H.h0_v5 (W0 m ρ c) l
theorem a1_main_v6 (c : Dev nD) (l : Fin 64) : W1 m ρ c (Proc.devRef .tc main_v6) (ix2 0 l) = abg m c l :=
  H.h0_v6 (W0 m ρ c) l
theorem a1_main_v7 (c : Dev nD) (l : Fin 64) : W1 m ρ c (Proc.devRef .tc main_v7) (ix2 0 l) = agn m c l :=
  H.h0_v7 (W0 m ρ c) l
theorem a1_main_v8 (c : Dev nD) (l : Fin 64) : W1 m ρ c (Proc.devRef .tc main_v8) (ix2 0 l) = abn m c l :=
  H.h0_v8 (W0 m ρ c) l
theorem a1_main_v9 (c : Dev nD) (l : Fin 64) : W1 m ρ c (Proc.devRef .tc main_v9) (ix2 0 l) = age m c l :=
  H.h0_v9 (W0 m ρ c) l
theorem a1_main_v10 (c : Dev nD) (l : Fin 64) : W1 m ρ c (Proc.devRef .tc main_v10) (ix2 0 l) = abe m c l :=
  H.h0_v10 (W0 m ρ c) l
theorem a2_main_v1 (c : Dev nD) : W2 m ρ c (Proc.devRef .tc main_v1) = W1 m ρ c (Proc.devRef .tc main_v1) :=
  W2_of_ne m ρ c main_v1 (by decide)
theorem a2_main_v3 (c : Dev nD) : W2 m ρ c (Proc.devRef .tc main_v3) = W1 m ρ c (Proc.devRef .tc main_v3) :=
  W2_of_ne m ρ c main_v3 (by decide)
theorem a2_main_v5 (c : Dev nD) : W2 m ρ c (Proc.devRef .tc main_v5) = W1 m ρ c (Proc.devRef .tc main_v5) :=
  W2_of_ne m ρ c main_v5 (by decide)
theorem a2_main_v6 (c : Dev nD) : W2 m ρ c (Proc.devRef .tc main_v6) = W1 m ρ c (Proc.devRef .tc main_v6) :=
  W2_of_ne m ρ c main_v6 (by decide)
theorem a2_main_v7 (c : Dev nD) : W2 m ρ c (Proc.devRef .tc main_v7) = W1 m ρ c (Proc.devRef .tc main_v7) :=
  W2_of_ne m ρ c main_v7 (by decide)
theorem a2_main_v8 (c : Dev nD) : W2 m ρ c (Proc.devRef .tc main_v8) = W1 m ρ c (Proc.devRef .tc main_v8) :=
  W2_of_ne m ρ c main_v8 (by decide)
theorem a2_main_v9 (c : Dev nD) : W2 m ρ c (Proc.devRef .tc main_v9) = W1 m ρ c (Proc.devRef .tc main_v9) :=
  W2_of_ne m ρ c main_v9 (by decide)
theorem a2_main_v10 (c : Dev nD) : W2 m ρ c (Proc.devRef .tc main_v10) = W1 m ρ c (Proc.devRef .tc main_v10) :=
  W2_of_ne m ρ c main_v10 (by decide)
theorem a2_main_arg2 (c : Dev nD) : W2 m ρ c (Proc.devRef .tc main_arg2) = W1 m ρ c (Proc.devRef .tc main_arg2) :=
  W2_of_ne m ρ c main_arg2 (by decide)
theorem a2_main_arg3 (c : Dev nD) : W2 m ρ c (Proc.devRef .tc main_arg3) = W1 m ρ c (Proc.devRef .tc main_arg3) :=
  W2_of_ne m ρ c main_arg3 (by decide)
theorem a2_main_arg7 (c : Dev nD) : W2 m ρ c (Proc.devRef .tc main_arg7) = W1 m ρ c (Proc.devRef .tc main_arg7) :=
  W2_of_ne m ρ c main_arg7 (by decide)
theorem a2_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem a3_main_v1 (c : Dev nD) : W3 m ρ c (Proc.devRef .tc main_v1) = W2 m ρ c (Proc.devRef .tc main_v1) := by
  keep_across hostOps1
theorem a3_main_v3 (c : Dev nD) : W3 m ρ c (Proc.devRef .tc main_v3) = W2 m ρ c (Proc.devRef .tc main_v3) := by
  keep_across hostOps1
theorem a3_main_v5 (c : Dev nD) : W3 m ρ c (Proc.devRef .tc main_v5) = W2 m ρ c (Proc.devRef .tc main_v5) := by
  keep_across hostOps1
theorem a3_main_v6 (c : Dev nD) : W3 m ρ c (Proc.devRef .tc main_v6) = W2 m ρ c (Proc.devRef .tc main_v6) := by
  keep_across hostOps1
theorem a3_main_v7 (c : Dev nD) : W3 m ρ c (Proc.devRef .tc main_v7) = W2 m ρ c (Proc.devRef .tc main_v7) := by
  keep_across hostOps1
theorem a3_main_v8 (c : Dev nD) : W3 m ρ c (Proc.devRef .tc main_v8) = W2 m ρ c (Proc.devRef .tc main_v8) := by
  keep_across hostOps1
theorem a3_main_v9 (c : Dev nD) : W3 m ρ c (Proc.devRef .tc main_v9) = W2 m ρ c (Proc.devRef .tc main_v9) := by
  keep_across hostOps1
theorem a3_main_v10 (c : Dev nD) : W3 m ρ c (Proc.devRef .tc main_v10) = W2 m ρ c (Proc.devRef .tc main_v10) := by
  keep_across hostOps1
theorem a3_main_arg0 (c : Dev nD) : W3 m ρ c (Proc.devRef .tc main_arg0) = W2 m ρ c (Proc.devRef .tc main_arg0) := by
  keep_across hostOps1
theorem a3_main_arg2 (c : Dev nD) : W3 m ρ c (Proc.devRef .tc main_arg2) = W2 m ρ c (Proc.devRef .tc main_arg2) := by
  keep_across hostOps1
theorem a3_main_arg3 (c : Dev nD) : W3 m ρ c (Proc.devRef .tc main_arg3) = W2 m ρ c (Proc.devRef .tc main_arg3) := by
  keep_across hostOps1
theorem a3_main_arg7 (c : Dev nD) : W3 m ρ c (Proc.devRef .tc main_arg7) = W2 m ρ c (Proc.devRef .tc main_arg7) := by
  keep_across hostOps1
theorem a3_main_v11 (c : Dev nD) : W3 m ρ c (Proc.devRef .tc main_v11) = W2 m ρ c (Proc.devRef .tc main_v11) := by
  keep_across hostOps1
theorem a4_main_v1 (c : Dev nD) : W4 m ρ c (Proc.devRef .tc main_v1) = W3 m ρ c (Proc.devRef .tc main_v1) := by
  keep_across hostOps1_1
theorem a4_main_v5 (c : Dev nD) : W4 m ρ c (Proc.devRef .tc main_v5) = W3 m ρ c (Proc.devRef .tc main_v5) := by
  keep_across hostOps1_1
theorem a4_main_v6 (c : Dev nD) : W4 m ρ c (Proc.devRef .tc main_v6) = W3 m ρ c (Proc.devRef .tc main_v6) := by
  keep_across hostOps1_1
theorem a4_main_v7 (c : Dev nD) : W4 m ρ c (Proc.devRef .tc main_v7) = W3 m ρ c (Proc.devRef .tc main_v7) := by
  keep_across hostOps1_1
theorem a4_main_v8 (c : Dev nD) : W4 m ρ c (Proc.devRef .tc main_v8) = W3 m ρ c (Proc.devRef .tc main_v8) := by
  keep_across hostOps1_1
theorem a4_main_v9 (c : Dev nD) : W4 m ρ c (Proc.devRef .tc main_v9) = W3 m ρ c (Proc.devRef .tc main_v9) := by
  keep_across hostOps1_1
theorem a4_main_v10 (c : Dev nD) : W4 m ρ c (Proc.devRef .tc main_v10) = W3 m ρ c (Proc.devRef .tc main_v10) := by
  keep_across hostOps1_1
theorem a4_main_arg2 (c : Dev nD) : W4 m ρ c (Proc.devRef .tc main_arg2) = W3 m ρ c (Proc.devRef .tc main_arg2) := by
  keep_across hostOps1_1
theorem a4_main_arg3 (c : Dev nD) : W4 m ρ c (Proc.devRef .tc main_arg3) = W3 m ρ c (Proc.devRef .tc main_arg3) := by
  keep_across hostOps1_1
theorem a4_main_arg7 (c : Dev nD) : W4 m ρ c (Proc.devRef .tc main_arg7) = W3 m ρ c (Proc.devRef .tc main_arg7) := by
  keep_across hostOps1_1
theorem a4_main_v11 (c : Dev nD) : W4 m ρ c (Proc.devRef .tc main_v11) = W3 m ρ c (Proc.devRef .tc main_v11) := by
  keep_across hostOps1_1
theorem a4_main_v12 (c : Dev nD) : W4 m ρ c (Proc.devRef .tc main_v12) = W3 m ρ c (Proc.devRef .tc main_v12) := by
  keep_across hostOps1_1
theorem a5_main_v1 (c : Dev nD) : W5 m ρ c (Proc.devRef .tc main_v1) = W4 m ρ c (Proc.devRef .tc main_v1) := by
  keep_across hostOps1_2
theorem a5_main_v5 (c : Dev nD) : W5 m ρ c (Proc.devRef .tc main_v5) = W4 m ρ c (Proc.devRef .tc main_v5) := by
  keep_across hostOps1_2
theorem a5_main_v6 (c : Dev nD) : W5 m ρ c (Proc.devRef .tc main_v6) = W4 m ρ c (Proc.devRef .tc main_v6) := by
  keep_across hostOps1_2
theorem a5_main_v7 (c : Dev nD) : W5 m ρ c (Proc.devRef .tc main_v7) = W4 m ρ c (Proc.devRef .tc main_v7) := by
  keep_across hostOps1_2
theorem a5_main_v8 (c : Dev nD) : W5 m ρ c (Proc.devRef .tc main_v8) = W4 m ρ c (Proc.devRef .tc main_v8) := by
  keep_across hostOps1_2
theorem a5_main_v9 (c : Dev nD) : W5 m ρ c (Proc.devRef .tc main_v9) = W4 m ρ c (Proc.devRef .tc main_v9) := by
  keep_across hostOps1_2
theorem a5_main_v10 (c : Dev nD) : W5 m ρ c (Proc.devRef .tc main_v10) = W4 m ρ c (Proc.devRef .tc main_v10) := by
  keep_across hostOps1_2
theorem a5_main_arg2 (c : Dev nD) : W5 m ρ c (Proc.devRef .tc main_arg2) = W4 m ρ c (Proc.devRef .tc main_arg2) := by
  keep_across hostOps1_2
theorem a5_main_arg7 (c : Dev nD) : W5 m ρ c (Proc.devRef .tc main_arg7) = W4 m ρ c (Proc.devRef .tc main_arg7) := by
  keep_across hostOps1_2
theorem a5_main_v11 (c : Dev nD) : W5 m ρ c (Proc.devRef .tc main_v11) = W4 m ρ c (Proc.devRef .tc main_v11) := by
  keep_across hostOps1_2
theorem a5_main_v12 (c : Dev nD) : W5 m ρ c (Proc.devRef .tc main_v12) = W4 m ρ c (Proc.devRef .tc main_v12) := by
  keep_across hostOps1_2
theorem a5_main_v13 (c : Dev nD) : W5 m ρ c (Proc.devRef .tc main_v13) = W4 m ρ c (Proc.devRef .tc main_v13) := by
  keep_across hostOps1_2
theorem a6_main_v1 (c : Dev nD) : W6 m ρ c (Proc.devRef .tc main_v1) = W5 m ρ c (Proc.devRef .tc main_v1) :=
  W6_of_ne m ρ c main_v1 (by decide)
theorem a6_main_v7 (c : Dev nD) : W6 m ρ c (Proc.devRef .tc main_v7) = W5 m ρ c (Proc.devRef .tc main_v7) :=
  W6_of_ne m ρ c main_v7 (by decide)
theorem a6_main_v8 (c : Dev nD) : W6 m ρ c (Proc.devRef .tc main_v8) = W5 m ρ c (Proc.devRef .tc main_v8) :=
  W6_of_ne m ρ c main_v8 (by decide)
theorem a6_main_v9 (c : Dev nD) : W6 m ρ c (Proc.devRef .tc main_v9) = W5 m ρ c (Proc.devRef .tc main_v9) :=
  W6_of_ne m ρ c main_v9 (by decide)
theorem a6_main_v10 (c : Dev nD) : W6 m ρ c (Proc.devRef .tc main_v10) = W5 m ρ c (Proc.devRef .tc main_v10) :=
  W6_of_ne m ρ c main_v10 (by decide)
theorem a6_main_v11 (c : Dev nD) : W6 m ρ c (Proc.devRef .tc main_v11) = W5 m ρ c (Proc.devRef .tc main_v11) :=
  W6_of_ne m ρ c main_v11 (by decide)

/-! ## Region 0's output: the node linear map of the launched arguments -/

theorem a2_main_v11 (c : Dev nD) (i : Fin 50000) (j : Fin 64) :
    W2 m ρ c (Proc.devRef .tc main_v11) (ix2 i j) = Spec.lin (ax m c) (aws m c) (abs m c) i j := by
  have e0 : (fun (a : Fin 50000) (k : Fin 64) => V1 m ρ c main_arg0 (ix2 a k)) = ax m c :=
    funext fun a => funext fun k => congrFun (a1_main_arg0 m ρ c) (ix2 a k)
  have e1 : (fun (k l : Fin 64) => V1 m ρ c main_arg5 (ix2 k l)) = aws m c :=
    funext fun k => funext fun l => congrFun (a1_main_arg5 m ρ c) (ix2 k l)
  have e2 : (fun (l : Fin 64) => V1 m ρ c main_v4 (ix2 0 l)) = abs m c := funext fun l => a1_main_v4 m ρ c l
  refine (congrFun (W2_arr m ρ c 3) (ix2 i j)).trans ((R0.out (V1 m ρ) c i j).trans ?_)
  rw [e0, e1, e2]

/-! ## The two row gathers, for an edge index whose words are row numbers -/

theorem a2_arg0 (c : Dev nD) : W2 m ρ c (Proc.devRef .tc main_arg0) = m ((c : Thread nD τ).loc main_arg0) :=
  (a2_main_arg0 m ρ c).trans (a1_main_arg0 m ρ c)

theorem a2_v1 (c : Dev nD) (e : Fin 1600000) : W2 m ρ c (Proc.devRef .tc main_v1) (ix1 e) = aei m c 0 e :=
  (congrFun (a2_main_v1 m ρ c) (ix1 e)).trans (a1_main_v1 m ρ c e)

theorem a3_main_v12 (c : Dev nD) (hin : InRange m c) (e : Fin 1600000) (k : Fin 64) :
    W3 m ρ c (Proc.devRef .tc main_v12) (ix2 e k) = ax m c (Spec.row (aei m c 0 e)) k := by
  refine (HT.take_src (W2 m ρ c) (fun e' => ?_) e k).trans ?_
  · rw [a2_v1 m ρ c e']; exact hin 0 e'
  · rw [a2_v1 m ρ c e]; exact congrFun (a2_arg0 m ρ c) _

theorem a3_arg0 (c : Dev nD) : W3 m ρ c (Proc.devRef .tc main_arg0) = m ((c : Thread nD τ).loc main_arg0) :=
  (a3_main_arg0 m ρ c).trans (a2_arg0 m ρ c)

theorem a3_v3 (c : Dev nD) (e : Fin 1600000) : W3 m ρ c (Proc.devRef .tc main_v3) (ix1 e) = aei m c 1 e :=
  (congrFun ((a3_main_v3 m ρ c).trans (a2_main_v3 m ρ c)) (ix1 e)).trans (a1_main_v3 m ρ c e)

theorem a4_main_v13 (c : Dev nD) (hin : InRange m c) (e : Fin 1600000) (k : Fin 64) :
    W4 m ρ c (Proc.devRef .tc main_v13) (ix2 e k) = ax m c (Spec.row (aei m c 1 e)) k := by
  refine (HT.take_dst (W3 m ρ c) (fun e' => ?_) e k).trans ?_
  · rw [a3_v3 m ρ c e']; exact hin 1 e'
  · rw [a3_v3 m ρ c e]; exact congrFun (a3_arg0 m ρ c) _

/-! ## The three blocks of the gate weight -/

theorem a4_arg3 (c : Dev nD) :
    (fun (r : Fin 192) (l' : Fin 64) => W4 m ρ c (Proc.devRef .tc main_arg3) (ix2 r l')) = awg m c :=
  funext fun r => funext fun l' =>
    congrFun ((a4_main_arg3 m ρ c).trans ((a3_main_arg3 m ρ c).trans ((a2_main_arg3 m ρ c).trans (a1_main_arg3 m ρ c)))) (ix2 r l')

theorem a5_main_v14 (c : Dev nD) (k l : Fin 64) : W5 m ρ c (Proc.devRef .tc main_v14) (ix2 k l) = Spec.wg1 (awg m c) k l :=
  (H.h12_v14 (W4 m ρ c) k l).trans (by rw [a4_arg3 m ρ c])
theorem a5_main_v15 (c : Dev nD) (k l : Fin 64) : W5 m ρ c (Proc.devRef .tc main_v15) (ix2 k l) = Spec.wg2 (awg m c) k l :=
  (H.h12_v15 (W4 m ρ c) k l).trans (by rw [a4_arg3 m ρ c])
theorem a5_main_v16 (c : Dev nD) (k l : Fin 64) : W5 m ρ c (Proc.devRef .tc main_v16) (ix2 k l) = Spec.wg3 (awg m c) k l :=
  (H.h12_v16 (W4 m ρ c) k l).trans (by rw [a4_arg3 m ρ c])

/-! ## Region 1's entry contents, array by array -/

theorem e5_v12 (c : Dev nD) (hin : InRange m c) :
    (fun (a : Fin 1600000) (k : Fin 64) => V5 m ρ c main_v12 (ix2 a k)) = Spec.gs (ax m c) (aei m c) :=
  funext fun a => funext fun k =>
    (congrFun ((a5_main_v12 m ρ c).trans (a4_main_v12 m ρ c)) (ix2 a k)).trans (a3_main_v12 m ρ c hin a k)
theorem e5_v13 (c : Dev nD) (hin : InRange m c) :
    (fun (a : Fin 1600000) (k : Fin 64) => V5 m ρ c main_v13 (ix2 a k)) = Spec.gd (ax m c) (aei m c) :=
  funext fun a => funext fun k =>
    (congrFun (a5_main_v13 m ρ c) (ix2 a k)).trans (a4_main_v13 m ρ c hin a k)
theorem e5_arg2 (c : Dev nD) :
    (fun (a : Fin 1600000) (k : Fin 64) => V5 m ρ c main_arg2 (ix2 a k)) = aea m c :=
  funext fun a => funext fun k =>
    congrFun ((a5_main_arg2 m ρ c).trans ((a4_main_arg2 m ρ c).trans ((a3_main_arg2 m ρ c).trans
      ((a2_main_arg2 m ρ c).trans (a1_main_arg2 m ρ c))))) (ix2 a k)
theorem e5_arg7 (c : Dev nD) :
    (fun (k l : Fin 64) => V5 m ρ c main_arg7 (ix2 k l)) = awd m c :=
  funext fun k => funext fun l =>
    congrFun ((a5_main_arg7 m ρ c).trans ((a4_main_arg7 m ρ c).trans ((a3_main_arg7 m ρ c).trans
      ((a2_main_arg7 m ρ c).trans (a1_main_arg7 m ρ c))))) (ix2 k l)
theorem e5_v14 (c : Dev nD) : (fun (k l : Fin 64) => V5 m ρ c main_v14 (ix2 k l)) = Spec.wg1 (awg m c) :=
  funext fun k => funext fun l => a5_main_v14 m ρ c k l
theorem e5_v15 (c : Dev nD) : (fun (k l : Fin 64) => V5 m ρ c main_v15 (ix2 k l)) = Spec.wg2 (awg m c) :=
  funext fun k => funext fun l => a5_main_v15 m ρ c k l
theorem e5_v16 (c : Dev nD) : (fun (k l : Fin 64) => V5 m ρ c main_v16 (ix2 k l)) = Spec.wg3 (awg m c) :=
  funext fun k => funext fun l => a5_main_v16 m ρ c k l
theorem a5_row_v5 (c : Dev nD) (l : Fin 64) : W5 m ρ c (Proc.devRef .tc main_v5) (ix2 0 l) = abd m c l :=
  (congrFun ((a5_main_v5 m ρ c).trans ((a4_main_v5 m ρ c).trans ((a3_main_v5 m ρ c).trans (a2_main_v5 m ρ c)))) (ix2 0 l)).trans
    (a1_main_v5 m ρ c l)
theorem a5_row_v6 (c : Dev nD) (l : Fin 64) : W5 m ρ c (Proc.devRef .tc main_v6) (ix2 0 l) = abg m c l :=
  (congrFun ((a5_main_v6 m ρ c).trans ((a4_main_v6 m ρ c).trans ((a3_main_v6 m ρ c).trans (a2_main_v6 m ρ c)))) (ix2 0 l)).trans
    (a1_main_v6 m ρ c l)
theorem a5_row_v7 (c : Dev nD) (l : Fin 64) : W5 m ρ c (Proc.devRef .tc main_v7) (ix2 0 l) = agn m c l :=
  (congrFun ((a5_main_v7 m ρ c).trans ((a4_main_v7 m ρ c).trans ((a3_main_v7 m ρ c).trans (a2_main_v7 m ρ c)))) (ix2 0 l)).trans
    (a1_main_v7 m ρ c l)
theorem a5_row_v8 (c : Dev nD) (l : Fin 64) : W5 m ρ c (Proc.devRef .tc main_v8) (ix2 0 l) = abn m c l :=
  (congrFun ((a5_main_v8 m ρ c).trans ((a4_main_v8 m ρ c).trans ((a3_main_v8 m ρ c).trans (a2_main_v8 m ρ c)))) (ix2 0 l)).trans
    (a1_main_v8 m ρ c l)
theorem a5_row_v9 (c : Dev nD) (l : Fin 64) : W5 m ρ c (Proc.devRef .tc main_v9) (ix2 0 l) = age m c l :=
  (congrFun ((a5_main_v9 m ρ c).trans ((a4_main_v9 m ρ c).trans ((a3_main_v9 m ρ c).trans (a2_main_v9 m ρ c)))) (ix2 0 l)).trans
    (a1_main_v9 m ρ c l)
theorem a5_row_v10 (c : Dev nD) (l : Fin 64) : W5 m ρ c (Proc.devRef .tc main_v10) (ix2 0 l) = abe m c l :=
  (congrFun ((a5_main_v10 m ρ c).trans ((a4_main_v10 m ρ c).trans ((a3_main_v10 m ρ c).trans (a2_main_v10 m ρ c)))) (ix2 0 l)).trans
    (a1_main_v10 m ρ c l)
theorem e5_v6 (c : Dev nD) : (fun (l : Fin 64) => V5 m ρ c main_v6 (ix2 0 l)) = abg m c := funext fun l => a5_row_v6 m ρ c l
theorem e5_v5 (c : Dev nD) : (fun (l : Fin 64) => V5 m ρ c main_v5 (ix2 0 l)) = abd m c := funext fun l => a5_row_v5 m ρ c l

/-- The gate's pre-activation of region 1's entry arrays is that of the launched arguments. -/
theorem Mk_eq (c : Dev nD) (hin : InRange m c) : R1.Mk (V5 m ρ) c = Mm m c := by
  funext e j
  show Spec.gateMg _ _ _ _ _ _ _ e j = Spec.gateMg _ _ _ _ _ _ _ e j
  rw [e5_v12 m ρ c hin, e5_v13 m ρ c hin, e5_arg2 m ρ c, e5_v14 m ρ c, e5_v15 m ρ c, e5_v16 m ρ c, e5_v6 m ρ c]

/-! ## The boundary -/

theorem w6_M (c : Dev nD) (hin : InRange m c) (e : Fin 1600000) (j : Fin 64) :
    W6 m ρ c (Proc.devRef .tc main_v17_0) (ix2 e j) = Mm m c e j :=
  (congrFun (W6_arr m ρ c 9) (ix2 e j)).trans
    ((R1.outM (V5 m ρ) c e j).trans (congrFun (congrFun (Mk_eq m ρ c hin) e) j))
theorem w6_T (c : Dev nD) (hin : InRange m c) (e : Fin 1600000) (j : Fin 64) :
    W6 m ρ c (Proc.devRef .tc main_v17_1) (ix2 e j) = Tm m c e j := by
  refine (congrFun (W6_arr m ρ c 10) (ix2 e j)).trans ((R1.outT (V5 m ρ) c e j).trans ?_)
  rw [Mk_eq m ρ c hin, e5_v13 m ρ c hin, e5_arg7 m ρ c, e5_v5 m ρ c]
  rfl
theorem w6_SP (c : Dev nD) (hin : InRange m c) (b : Fin 320) (r : Fin 8) (j : Fin 64) :
    W6 m ρ c (Proc.devRef .tc main_v17_2) (ix3 b r j) = Spec.psum Spec.hE (Mm m c) b j := by
  refine (congrFun (W6_arr m ρ c 11) (ix3 b r j)).trans ((R1.outSP (V5 m ρ) c b r j).trans ?_)
  rw [Mk_eq m ρ c hin]
theorem w6_SQ (c : Dev nD) (hin : InRange m c) (b : Fin 320) (r : Fin 8) (j : Fin 64) :
    W6 m ρ c (Proc.devRef .tc main_v17_3) (ix3 b r j) = Spec.psumsq Spec.hE (Mm m c) b j := by
  refine (congrFun (W6_arr m ρ c 12) (ix3 b r j)).trans ((R1.outSQ (V5 m ρ) c b r j).trans ?_)
  rw [Mk_eq m ρ c hin]
theorem w6_v9 (c : Dev nD) (l : Fin 64) : W6 m ρ c (Proc.devRef .tc main_v9) (ix2 0 l) = age m c l :=
  (congrFun (a6_main_v9 m ρ c) (ix2 0 l)).trans (a5_row_v9 m ρ c l)
theorem w6_v10 (c : Dev nD) (l : Fin 64) : W6 m ρ c (Proc.devRef .tc main_v10) (ix2 0 l) = abe m c l :=
  (congrFun (a6_main_v10 m ρ c) (ix2 0 l)).trans (a5_row_v10 m ρ c l)
theorem w6_v7 (c : Dev nD) (l : Fin 64) : W6 m ρ c (Proc.devRef .tc main_v7) (ix2 0 l) = agn m c l :=
  (congrFun (a6_main_v7 m ρ c) (ix2 0 l)).trans (a5_row_v7 m ρ c l)
theorem w6_v8 (c : Dev nD) (l : Fin 64) : W6 m ρ c (Proc.devRef .tc main_v8) (ix2 0 l) = abn m c l :=
  (congrFun (a6_main_v8 m ρ c) (ix2 0 l)).trans (a5_row_v8 m ρ c l)
theorem w6_v1 (c : Dev nD) (e : Fin 1600000) : W6 m ρ c (Proc.devRef .tc main_v1) (ix1 e) = aei m c 0 e :=
  (congrFun ((a6_main_v1 m ρ c).trans ((a5_main_v1 m ρ c).trans ((a4_main_v1 m ρ c).trans (a3_main_v1 m ρ c)))) (ix1 e)).trans
    (a2_v1 m ρ c e)
theorem w6_v11 (c : Dev nD) (i : Fin 50000) (j : Fin 64) :
    W6 m ρ c (Proc.devRef .tc main_v11) (ix2 i j) = Spec.lin (ax m c) (aws m c) (abs m c) i j :=
  (congrFun ((a6_main_v11 m ρ c).trans ((a5_main_v11 m ρ c).trans ((a4_main_v11 m ρ c).trans (a3_main_v11 m ρ c)))) (ix2 i j)).trans
    (a2_main_v11 m ρ c i j)

end Cert.KernelIdeal.Chain

end
-- ==== Proof.KR2.lean ====
/- Region 2 (edge normalisation on the lane-dense [800000, 128] view), at any entry contents V: pointwise
   max (((a - mu) * istd) * gamma + beta) 0 with the four [1, 128] rows broadcast down the columns; 200 blocks of 4000 rows. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.R2

open Cert.KernelIdeal Cert.KernelIdeal.Gen Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-- The one store's offset is the origin of the block. -/
theorem origin : (![0, 0] : Fin 2 → Nat) = fun _ => 0 := funext fun a => by fin_cases a <;> rfl

/-- A [1, 128] row cast to itself and broadcast down the block's rows reads, at (p, q), the row's entry q. -/
theorem row_down (v : Vec Ideal S1x128 .f32) (p : Fin 4000) (q : Fin 128) :
    broadcastTo S4000x128 (shapeCast S1x128 v shapeCasts_S1x128_S1x128) broadcasts_S1x128_S4000x128 (ix2 p q) = v (ix2 0 q) := by
  rw [shapeCast_self]
  refine broadcastTo_apply v _ (ix2 p q) (ix2 0 q) ?_
  intro a
  match a with
  | ⟨0, _⟩ => rfl
  | ⟨1, _⟩ => rfl

/-- The body's payload at an index of the block: normalise, scale, shift, clamp below at zero, with the
    four rows read at the index's column. -/
theorem pay_apply (x0 : Vec Ideal S4000x128 .f32) (x1 x2 x3 x4 : Vec Ideal S1x128 .f32) (j : S4000x128.Idx) :
    k2_pay1 x0 x1 x2 x3 x4 j
      = Spec.bnrelu (x0 j) (x1 (ix2 0 ⟨(j 1).val, idx2_lt1 j⟩)) (x2 (ix2 0 ⟨(j 1).val, idx2_lt1 j⟩))
          (x3 (ix2 0 ⟨(j 1).val, idx2_lt1 j⟩)) (x4 (ix2 0 ⟨(j 1).val, idx2_lt1 j⟩)) := by
  obtain ⟨p, q, rfl⟩ : ∃ (p : Fin 4000) (q : Fin 128), j = ix2 p q := ⟨j 0, j 1, eq_ix2 j⟩
  unfold k2_pay1
  rw [maximumf_apply, addf_apply, mulf_apply, mulf_apply, subf_apply, broadcast_apply,
    row_down, row_down, row_down, row_down, shapeCast_self]
  rfl

/-- The whole output array as one function of the region's input arrays, index by index. -/
def G (c : Dev nD) : S800000x128.Idx → EReal := fun i =>
  Spec.bnrelu (V c main_v35 i) (V c main_v44 (ix2 0 ⟨(i 1).val, idx2_lt1 i⟩)) (V c main_v47 (ix2 0 ⟨(i 1).val, idx2_lt1 i⟩))
    (V c main_v38 (ix2 0 ⟨(i 1).val, idx2_lt1 i⟩)) (V c main_v41 (ix2 0 ⟨(i 1).val, idx2_lt1 i⟩))

/-- The block index maps over the grid: the data window and the output window are at block (t, 0),
    each row window at block (0, 0). -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem bnrelu_congr {a a' m m' s s' g g' b b' : EReal} (ha : a = a') (hm : m = m') (hs : s = s') (hg : g = g')
    (hb : b = b') : Spec.bnrelu a m s g b = Spec.bnrelu a' m' s' g' b' := by
  subst ha hm hs hg hb; rfl

/-- What point t writes back is block t of G. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero origin]
  simp only [View.ld_unit_zero (S := S4000x128) origin, View.ld_unit_zero (S := S1x128) origin]
  obtain ⟨e00, e01, e50, e51, e10, e11, e20, e21, e30, e31, e40, e41⟩ := idx_facts t
  funext j
  refine (pay_apply _ _ _ _ _ j).trans ?_
  have hj0 : (j 0).val < 4000 := idx2_lt0 j
  have hj1 : (j 1).val < 128 := idx2_lt1 j
  show Spec.bnrelu (V c main_v35 (((cfg2.win 0).blk t).view.emb j))
      (V c main_v44 (((cfg2.win 1).blk t).view.emb (ix2 0 ⟨(j 1).val, hj1⟩)))
      (V c main_v47 (((cfg2.win 2).blk t).view.emb (ix2 0 ⟨(j 1).val, hj1⟩)))
      (V c main_v38 (((cfg2.win 3).blk t).view.emb (ix2 0 ⟨(j 1).val, hj1⟩)))
      (V c main_v41 (((cfg2.win 4).blk t).view.emb (ix2 0 ⟨(j 1).val, hj1⟩)))
    = G V c (((cfg2.win 5).blk t).view.emb j)
  unfold G
  refine bnrelu_congr (congrArg (V c main_v35 : S800000x128.Idx → EReal) ?_) (congrArg (V c main_v44 : S1x128.Idx → EReal) ?_)
    (congrArg (V c main_v47 : S1x128.Idx → EReal) ?_) (congrArg (V c main_v38 : S1x128.Idx → EReal) ?_)
    (congrArg (V c main_v41 : S1x128.Idx → EReal) ?_)
  · funext a; apply Fin.ext
    match a with
    | ⟨0, _⟩ => show win2_0.index t (0 : Fin 2) * 4000 + 1 * (j 0).val = win2_5.index t (0 : Fin 2) * 4000 + 1 * (j 0).val; omega
    | ⟨1, _⟩ => show win2_0.index t (1 : Fin 2) * 128 + 1 * (j 1).val = win2_5.index t (1 : Fin 2) * 128 + 1 * (j 1).val; omega
  · funext a; apply Fin.ext
    match a with
    | ⟨0, _⟩ => show win2_1.index t (0 : Fin 2) * 1 + 1 * 0 = 0; omega
    | ⟨1, _⟩ => show win2_1.index t (1 : Fin 2) * 128 + 1 * (j 1).val = win2_5.index t (1 : Fin 2) * 128 + 1 * (j 1).val; omega
  · funext a; apply Fin.ext
    match a with
    | ⟨0, _⟩ => show win2_2.index t (0 : Fin 2) * 1 + 1 * 0 = 0; omega
    | ⟨1, _⟩ => show win2_2.index t (1 : Fin 2) * 128 + 1 * (j 1).val = win2_5.index t (1 : Fin 2) * 128 + 1 * (j 1).val; omega
  · funext a; apply Fin.ext
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega
  · funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega

/-- An index of the array is in point t's block iff each coordinate is in the block's range on its axis. -/
theorem mem_blk (t : Fin cfg2.N) (i : S800000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v48).slice (win2_5.rect t)).set ↔ _
  rw [View.set_slice_whole, Rect.mem_set_unit]
  exact Iff.rfl

/-- Every index of the array is in the block of the point its row falls in, and every point writes back. -/
theorem cover (i : S800000x128.Idx) :
    ∃ t : Fin cfg2.N, (cfg2.win 5).flush t = true ∧ i ∈ ((cfg2.win 5).blk t).view.set := by
  have hi0 : (i 0).val < 800000 := idx2_lt0 i
  have hi1 : (i 1).val < 128 := idx2_lt1 i
  have hN : cfg2.N = 200 := N_2
  have ht : (i 0).val / 4000 < cfg2.N := by rw [hN]; omega
  obtain ⟨e00, e01, e50, e51, -⟩ := idx_facts ⟨(i 0).val / 4000, ht⟩
  refine ⟨⟨(i 0).val / 4000, ht⟩, flush2_5 _, ?_⟩
  rw [mem_blk]
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win2_5.index ⟨(i 0).val / 4000, ht⟩ (1 : Fin 2) * 128 ≤ (i 1).val ∧ (i 1).val < win2_5.index ⟨(i 0).val / 4000, ht⟩ (1 : Fin 2) * 128 + 128
    rw [e51]; omega

/-- The output array after the region is G. -/
theorem final (c : Dev nD) : (dat2 V c).arrAt 5 cfg2.N = G V c :=
  (dat2 V c).arrAt_eq_of_cover 5 (G V c) (fun t _ => flushed_eq V c t) cover

theorem out (c : Dev nD) (r : Fin 800000) (q : Fin 128) :
    (dat2 V c).arrAt 5 cfg2.N (ix2 r q)
      = Spec.bnrelu (V c main_v35 (ix2 r q)) (V c main_v44 (ix2 0 q)) (V c main_v47 (ix2 0 q)) (V c main_v38 (ix2 0 q)) (V c main_v41 (ix2 0 q)) := by
  rw [final V c]
  rfl

end Cert.KernelIdeal.R2

end
-- ==== Proof.KHS.lean ====
/- The two statistics stretches of the idealized kernel program (before region 2 and before region 4), each read at ANY
   entry valuation W: the column mean and inverse deviation from the laid-out block sums, and the lane-dense views:
   row r, lane q of the [R/2, 128] view is row 2 r + q / 64, column q % 64 of the [R, 64] array; a [1, 64] row tiled twice
   reads column q % 64 at lane q. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.HS

open Cert.KernelIdeal Cert.KernelIdeal.Gen Idealize.ShloMosaic Idealize.ShloMosaic.TcCoe Idealize.ShloMosaic.ValueIdx Idealize.SL.Sem
open Idealize.ShloMosaic.Pipeline (Dat Cfg Window)
variable (W : Valuation τ sig (Elt Ideal))

/-! ## The two-axis host sum over the block and sublane axes of a [B, 8, 64] array -/

/-- Dropping the first two coordinates of a [B, 8, 64] index keeps the third. -/
theorem drop_d01 {B : Nat} (h : Shape.ReducesTo ⟨3, ![B, 8, 64]⟩ [0, 1] ⟨1, ![64]⟩)
    (i : (⟨3, ![B, 8, 64]⟩ : Shape).Idx) : h.drop i = ix1 (⟨(i 2).val, (i 2).isLt⟩ : Fin 64) := by
  funext d
  match d with
  | ⟨0, _⟩ => exact Fin.ext (Shape.ReducesTo.drop_apply_val_of_eq h i (0 : Fin 1) (2 : Fin 3) (hb := Nat.zero_lt_one) (hc := rfl))

/-- The host sum over axes 0 and 1 of a [B, 8, 64] array at column j: the initial value plus the double sum over blocks
    and sublanes. -/
theorem hostReduceAdd_d01 {B : Nat} (h : Shape.ReducesTo ⟨3, ![B, 8, 64]⟩ [0, 1] ⟨1, ![64]⟩)
    (x : (⟨3, ![B, 8, 64]⟩ : Shape).Idx → EReal) (init : EReal) (j : Fin 64) :
    Ideal.hostReduceAdd h x init (ix1 j) = init + ∑ b : Fin B, ∑ r : Fin 8, x (ix3 b r j) := by
  unfold Ideal.hostReduceAdd
  congr 1
  have key : ∀ i : (⟨3, ![B, 8, 64]⟩ : Shape).Idx, h.drop i = ix1 j → ix3 (i 0 : Fin B) (i 1 : Fin 8) j = i := by
    intro i hi
    rw [drop_d01] at hi
    have h2 : (⟨(i 2).val, (i 2).isLt⟩ : Fin 64) = j := congrFun hi (0 : Fin 1)
    subst h2
    exact (eq_ix3 i).symm
  calc ∑ i ∈ Finset.univ.filter (fun i => h.drop i = ix1 j), x i
      = ∑ p : Fin B × Fin 8, x (ix3 p.1 p.2 j) := by
        refine Finset.sum_bij' (fun i _ => ((i 0, i 1) : Fin B × Fin 8)) (fun p _ => ix3 p.1 p.2 j) ?_ ?_ ?_ ?_ ?_
        · intro a _; exact Finset.mem_univ _
        · intro p _
          refine Finset.mem_filter.mpr ⟨Finset.mem_univ _, ?_⟩
          rw [drop_d01]
          rfl
        · intro a ha; exact key a (Finset.mem_filter.mp ha).2
        · intro p _; rfl
        · intro a ha; exact congrArg x (key a (Finset.mem_filter.mp ha).2).symm
    _ = _ := Fintype.sum_prod_type' (fun (b : Fin B) (r : Fin 8) => x (ix3 b r j))

/-! ## The layout operations at an index -/

/-- The lane-dense view: row r, lane q of the [R, 128] view of a [R2, 64] array is row 2 r + q / 64, column q % 64. -/
theorem shapeCast_pair_apply {α : Type} {R R2 : Nat} (x : (⟨2, ![R2, 64]⟩ : Shape).Idx → α)
    (h : (⟨2, ![R2, 64]⟩ : Shape).ShapeCasts ⟨2, ![R, 128]⟩) (r : Fin R) (q : Fin 128) (hlt : 2 * r.val + q.val / 64 < R2) :
    shapeCast ⟨2, ![R, 128]⟩ x h (ix2 r q) = x (ix2 ⟨2 * r.val + q.val / 64, hlt⟩ ⟨q.val % 64, Nat.mod_lt _ (by decide)⟩) :=
  shapeCast_apply x h _ _ (by
    rw [Shape.rowMajor_val_two, Shape.rowMajor_val_two]
    show (2 * r.val + q.val / 64) * 64 + q.val % 64 = r.val * 128 + q.val
    omega)

/-- A [1, 64] row viewed as [1, 1, 1, 64], repeated along the third axis and viewed as [1, 128], reads column q % 64 at
    lane q. -/
theorem tile2_apply {α : Type} (x : (⟨2, ![1, 64]⟩ : Shape).Idx → α)
    (h1 : (⟨2, ![1, 64]⟩ : Shape).ShapeCasts ⟨4, ![1, 1, 1, 64]⟩)
    (hb : (⟨4, ![1, 1, 1, 64]⟩ : Shape).BroadcastsInDim ⟨4, ![1, 1, 2, 64]⟩ ![0, 1, 2, 3])
    (h2 : (⟨4, ![1, 1, 2, 64]⟩ : Shape).ShapeCasts ⟨2, ![1, 128]⟩) (q : Fin 128) :
    shapeCast ⟨2, ![1, 128]⟩
        (broadcastInDim ⟨4, ![1, 1, 2, 64]⟩ ![0, 1, 2, 3] hb (fun i => shapeCast ⟨4, ![1, 1, 1, 64]⟩ x h1 i)) h2 (ix2 0 q)
      = x (ix2 0 ⟨q.val % 64, Nat.mod_lt _ (by decide)⟩) := by
  have hq := q.isLt
  refine (shapeCast_apply _ h2 (ix2 0 q)
    (ix4 (0 : Fin 1) (0 : Fin 1) (⟨q.val / 64, by omega⟩ : Fin 2) (⟨q.val % 64, Nat.mod_lt _ (by decide)⟩ : Fin 64)) ?_).trans ?_
  · rw [Shape.rowMajor_val_four, Shape.rowMajor_val_two]
    show (((0 : Nat) * 1 + 0) * 2 + q.val / 64) * 64 + q.val % 64 = 0 * 128 + q.val
    omega
  refine (broadcastInDim_apply _ hb _ _
    (ix4 (0 : Fin 1) (0 : Fin 1) (0 : Fin 1) (⟨q.val % 64, Nat.mod_lt _ (by decide)⟩ : Fin 64)) ?_).trans ?_
  · intro a
    match a with
    | ⟨0, _⟩ => rfl
    | ⟨1, _⟩ => rfl
    | ⟨2, _⟩ => rfl
    | ⟨3, _⟩ => rfl
  exact shapeCast_apply x h1 _ _ (by
    rw [Shape.rowMajor_val_two, Shape.rowMajor_val_four]
    show (0 : Nat) * 64 + q.val % 64 = (((0 : Nat) * 1 + 0) * 1 + 0) * 64 + q.val % 64
    omega)

/-- The inverse deviation at a point of a [1, 64] row: the reciprocal square root of (A - B B) + C there. -/
theorem istd_row (A B C : FVec Ideal ⟨2, ![1, 64]⟩ .f32) (i : (⟨2, ![1, 64]⟩ : Shape).Idx) {a b c : EReal}
    (hA : A i = a) (hB : B i = b) (hC : C i = c) :
    Host.rsqrt (addf (subf A (mulf B B)) C) i = Ideal.rsqrt ((a - b * b) + c) := by
  subst hA hB hC; rfl

/-- The two [320, 8, 64] arrays of laid-out block sums the stretch reads, curried. -/
abbrev sp_hostOps2 : Fin 320 → Fin 8 → Fin 64 → EReal := fun b r j => W (Proc.devRef .tc main_v17_2) (ix3 b r j)
abbrev sq_hostOps2 : Fin 320 → Fin 8 → Fin 64 → EReal := fun b r j => W (Proc.devRef .tc main_v17_3) (ix3 b r j)
/-- The column mean the stretch computes from the laid-out block sums, at column j. -/
abbrev mu_hostOps2 (j : Fin 64) : EReal :=
  Ideal.div (Ideal.div (Spec.z + ∑ b : Fin 320, ∑ r : Fin 8, sp_hostOps2 W b r j) Spec.c8) Spec.cE
/-- The column mean of squares, likewise. -/
abbrev msq_hostOps2 (j : Fin 64) : EReal :=
  Ideal.div (Ideal.div (Spec.z + ∑ b : Fin 320, ∑ r : Fin 8, sq_hostOps2 W b r j) Spec.c8) Spec.cE

/-- The [1, 64] row of column means, before it is tiled. -/
theorem hostOps2_mu_row (j : Fin 64) (x : (⟨3, ![320, 8, 64]⟩ : Shape).Idx → EReal) :
    Host.divf (Host.divf (Host.reduceAdd (F := Ideal) (φ := .f32) x (constant (F := Ideal) S_ .f32 0x00000000#32) reducesTo_S320x8x64_S64_d0_1 h_S_)
        (broadcastInDim S64 ![] bcast_S_S64 (constant (F := Ideal) S_ .f32 0x41000000#32)))
      (broadcastInDim S64 ![] bcast_S_S64 (constant (F := Ideal) S_ .f32 0x49C35000#32)) (ix1 j)
      = Ideal.div (Ideal.div (Spec.z + ∑ b : Fin 320, ∑ r : Fin 8, x (ix3 b r j)) Spec.c8) Spec.cE :=
  congrArg (fun t => Ideal.div (Ideal.div t Spec.c8) Spec.cE) (hostReduceAdd_d01 reducesTo_S320x8x64_S64_d0_1 x Spec.z j)

theorem hostOps2_mu (q : Fin 128) : StableHlo.after hostOps2 W (Proc.devRef .tc main_v44) (ix2 0 q) = mu_hostOps2 W ⟨q.val % 64, by omega⟩ := by
  after_results_simp
  refine (tile2_apply _ _ _ _ q).trans ?_
  refine (shapeCast_a_1a_apply _ _ 0 _).trans ?_
  exact hostOps2_mu_row ⟨q.val % 64, by omega⟩ _
theorem hostOps2_istd (q : Fin 128) :
    StableHlo.after hostOps2 W (Proc.devRef .tc main_v47) (ix2 0 q)
      = Ideal.rsqrt ((msq_hostOps2 W ⟨q.val % 64, by omega⟩ - mu_hostOps2 W ⟨q.val % 64, by omega⟩ * mu_hostOps2 W ⟨q.val % 64, by omega⟩) + Spec.eps) := by
  after_results_simp
  refine (tile2_apply _ _ _ _ q).trans ?_
  exact istd_row _ _ _ _
    ((shapeCast_a_1a_apply _ _ 0 _).trans (hostOps2_mu_row ⟨q.val % 64, by omega⟩ _))
    ((shapeCast_a_1a_apply _ _ 0 _).trans (hostOps2_mu_row ⟨q.val % 64, by omega⟩ _)) rfl
theorem hostOps2_gamma (q : Fin 128) : StableHlo.after hostOps2 W (Proc.devRef .tc main_v38) (ix2 0 q) = W (Proc.devRef .tc main_v9) (ix2 0 ⟨q.val % 64, by omega⟩) := by
  after_results_simp
  exact tile2_apply _ _ _ _ q
theorem hostOps2_beta (q : Fin 128) : StableHlo.after hostOps2 W (Proc.devRef .tc main_v41) (ix2 0 q) = W (Proc.devRef .tc main_v10) (ix2 0 ⟨q.val % 64, by omega⟩) := by
  after_results_simp
  exact tile2_apply _ _ _ _ q
theorem hostOps2_big (r : Fin 800000) (q : Fin 128) :
    StableHlo.after hostOps2 W (Proc.devRef .tc main_v35) (ix2 r q) = W (Proc.devRef .tc main_v17_0) (ix2 ⟨2 * r.val + q.val / 64, by have := r.isLt; have := q.isLt; omega⟩ ⟨q.val % 64, by omega⟩) := by
  after_results_simp
  exact shapeCast_pair_apply _ _ r q _

/-- The two [10, 8, 64] arrays of laid-out block sums the stretch reads, curried. -/
abbrev sp_hostOps4 : Fin 10 → Fin 8 → Fin 64 → EReal := fun b r j => W (Proc.devRef .tc main_v53_1) (ix3 b r j)
abbrev sq_hostOps4 : Fin 10 → Fin 8 → Fin 64 → EReal := fun b r j => W (Proc.devRef .tc main_v53_2) (ix3 b r j)
/-- The column mean the stretch computes from the laid-out block sums, at column j. -/
abbrev mu_hostOps4 (j : Fin 64) : EReal :=
  Ideal.div (Ideal.div (Spec.z + ∑ b : Fin 10, ∑ r : Fin 8, sp_hostOps4 W b r j) Spec.c8) Spec.cN
/-- The column mean of squares, likewise. -/
abbrev msq_hostOps4 (j : Fin 64) : EReal :=
  Ideal.div (Ideal.div (Spec.z + ∑ b : Fin 10, ∑ r : Fin 8, sq_hostOps4 W b r j) Spec.c8) Spec.cN

/-- The [1, 64] row of column means, before it is tiled. -/
theorem hostOps4_mu_row (j : Fin 64) (x : (⟨3, ![10, 8, 64]⟩ : Shape).Idx → EReal) :
    Host.divf (Host.divf (Host.reduceAdd (F := Ideal) (φ := .f32) x (constant (F := Ideal) S_ .f32 0x00000000#32) reducesTo_S10x8x64_S64_d0_1 h_S_)
        (broadcastInDim S64 ![] bcast_S_S64 (constant (F := Ideal) S_ .f32 0x41000000#32)))
      (broadcastInDim S64 ![] bcast_S_S64 (constant (F := Ideal) S_ .f32 0x47435000#32)) (ix1 j)
      = Ideal.div (Ideal.div (Spec.z + ∑ b : Fin 10, ∑ r : Fin 8, x (ix3 b r j)) Spec.c8) Spec.cN :=
  congrArg (fun t => Ideal.div (Ideal.div t Spec.c8) Spec.cN) (hostReduceAdd_d01 reducesTo_S10x8x64_S64_d0_1 x Spec.z j)

theorem hostOps4_mu (q : Fin 128) : StableHlo.after hostOps4 W (Proc.devRef .tc main_v80) (ix2 0 q) = mu_hostOps4 W ⟨q.val % 64, by omega⟩ := by
  after_results_simp
  refine (tile2_apply _ _ _ _ q).trans ?_
  refine (shapeCast_a_1a_apply _ _ 0 _).trans ?_
  exact hostOps4_mu_row ⟨q.val % 64, by omega⟩ _
theorem hostOps4_istd (q : Fin 128) :
    StableHlo.after hostOps4 W (Proc.devRef .tc main_v83) (ix2 0 q)
      = Ideal.rsqrt ((msq_hostOps4 W ⟨q.val % 64, by omega⟩ - mu_hostOps4 W ⟨q.val % 64, by omega⟩ * mu_hostOps4 W ⟨q.val % 64, by omega⟩) + Spec.eps) := by
  after_results_simp
  refine (tile2_apply _ _ _ _ q).trans ?_
  exact istd_row _ _ _ _
    ((shapeCast_a_1a_apply _ _ 0 _).trans (hostOps4_mu_row ⟨q.val % 64, by omega⟩ _))
    ((shapeCast_a_1a_apply _ _ 0 _).trans (hostOps4_mu_row ⟨q.val % 64, by omega⟩ _)) rfl
theorem hostOps4_gamma (q : Fin 128) : StableHlo.after hostOps4 W (Proc.devRef .tc main_v74) (ix2 0 q) = W (Proc.devRef .tc main_v7) (ix2 0 ⟨q.val % 64, by omega⟩) := by
  after_results_simp
  exact tile2_apply _ _ _ _ q
theorem hostOps4_beta (q : Fin 128) : StableHlo.after hostOps4 W (Proc.devRef .tc main_v77) (ix2 0 q) = W (Proc.devRef .tc main_v8) (ix2 0 ⟨q.val % 64, by omega⟩) := by
  after_results_simp
  exact tile2_apply _ _ _ _ q
theorem hostOps4_big (r : Fin 25000) (q : Fin 128) :
    StableHlo.after hostOps4 W (Proc.devRef .tc main_v71) (ix2 r q) = W (Proc.devRef .tc main_v53_0) (ix2 ⟨2 * r.val + q.val / 64, by have := r.isLt; have := q.isLt; omega⟩ ⟨q.val % 64, by omega⟩) := by
  after_results_simp
  exact shapeCast_pair_apply _ _ r q _

end Cert.KernelIdeal.HS

end
-- ==== Proof.KC2.lean ====
/- The edge result of the idealized kernel program at the last boundary (W13), as a function of the launched arguments:
   from region 1's exit through the statistics stretch, the edge normalisation, the reshape back, and then unchanged. -/
import proofs.«418626_j55241869361500_3_alg».proof.Proof.Gen.KernelIdeal.Frame
import proofs.«418626_j55241869361500_3_alg».proof.Proof.Spec
import proofs.«418626_j55241869361500_3_alg».proof.Proof.KArgs
import proofs.«418626_j55241869361500_3_alg».proof.Proof.KC1
import proofs.«418626_j55241869361500_3_alg».proof.Proof.KR2
import proofs.«418626_j55241869361500_3_alg».proof.Proof.KH
import proofs.«418626_j55241869361500_3_alg».proof.Proof.KHS
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A host stretch leaves a buffer that none of its operations writes as it was. -/
local macro "stretch_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The edge result is written by the stretch after region 2 and by nothing later. -/
theorem w13_v49 (c : Dev nD) : W13 m ρ c (Proc.devRef .tc main_v49) = W9 m ρ c (Proc.devRef .tc main_v49) :=
  calc W13 m ρ c (Proc.devRef .tc main_v49)
    _ = W12 m ρ c (Proc.devRef .tc main_v49) := by stretch_keeps hostOps5
    _ = W11 m ρ c (Proc.devRef .tc main_v49) := W12_of_ne m ρ c main_v49 (by decide)
    _ = W10 m ρ c (Proc.devRef .tc main_v49) := by stretch_keeps hostOps4
    _ = W9 m ρ c (Proc.devRef .tc main_v49) := W10_of_ne m ρ c main_v49 (by decide)

/-- Region 2's output array at its exit. -/
theorem w8_v48 (c : Dev nD) (r : Fin 800000) (q : Fin 128) :
    W8 m ρ c (Proc.devRef .tc main_v48) (ix2 r q) = (dat2 (V7 m ρ) c).arrAt 5 cfg2.N (ix2 r q) :=
  congrFun (W8_arr m ρ c 5) (ix2 r q)

/-- The block sums region 1 leaves, under the stretch's column mean: the kernel's spelling of the mean. -/
theorem mu_eq (c : Dev nD) (hin : InRange m c) (l : Fin 64) :
    HS.mu_hostOps2 (W6 m ρ c) l = Spec.muK Spec.hE (Mm m c) Spec.cE l := by
  have h : (∑ b : Fin 320, ∑ r : Fin 8, HS.sp_hostOps2 (W6 m ρ c) b r l)
      = ∑ b : Fin 320, ∑ _r : Fin 8, Spec.psum Spec.hE (Mm m c) b l :=
    Finset.sum_congr rfl fun b _ => Finset.sum_congr rfl fun r _ => w6_SP m ρ c hin b r l
  exact congrArg (fun s => Ideal.div (Ideal.div (Spec.z + s) Spec.c8) Spec.cE) h

/-- Likewise the column mean of squares. -/
theorem msq_eq (c : Dev nD) (hin : InRange m c) (l : Fin 64) :
    HS.msq_hostOps2 (W6 m ρ c) l = Spec.msqK Spec.hE (Mm m c) Spec.cE l := by
  have h : (∑ b : Fin 320, ∑ r : Fin 8, HS.sq_hostOps2 (W6 m ρ c) b r l)
      = ∑ b : Fin 320, ∑ _r : Fin 8, Spec.psumsq Spec.hE (Mm m c) b l :=
    Finset.sum_congr rfl fun b _ => Finset.sum_congr rfl fun r _ => w6_SQ m ρ c hin b r l
  exact congrArg (fun s => Ideal.div (Ideal.div (Spec.z + s) Spec.c8) Spec.cE) h

/-- Region 2's output at row r, lane q of the lane-dense view, as a function of the launched arguments. -/
theorem w8_v48_eq (c : Dev nD) (hin : InRange m c) (r : Fin 800000) (q : Fin 128) (e : Fin 1600000) (j : Fin 64)
    (he : 2 * r.val + q.val / 64 = e.val) (hj : q.val % 64 = j.val) :
    W8 m ρ c (Proc.devRef .tc main_v48) (ix2 r q)
      = Spec.bnrelu (Mm m c e j) (Spec.muK Spec.hE (Mm m c) Spec.cE j) (Spec.istdK Spec.hE (Mm m c) Spec.cE j) (age m c j) (abe m c j) := by
  have e1 : (⟨2 * r.val + q.val / 64, by have := r.isLt; have := q.isLt; omega⟩ : Fin 1600000) = e := Fin.ext he
  have e2 : (⟨q.val % 64, by omega⟩ : Fin 64) = j := Fin.ext hj
  have h35 : V7 m ρ c main_v35 (ix2 r q) = Mm m c e j := by
    refine (HS.hostOps2_big (W6 m ρ c) r q).trans ?_
    rw [e1, e2]; exact w6_M m ρ c hin e j
  have h44 : V7 m ρ c main_v44 (ix2 0 q) = Spec.muK Spec.hE (Mm m c) Spec.cE j := by
    refine (HS.hostOps2_mu (W6 m ρ c) q).trans ?_
    rw [e2]; exact mu_eq m ρ c hin j
  have h47 : V7 m ρ c main_v47 (ix2 0 q) = Spec.istdK Spec.hE (Mm m c) Spec.cE j := by
    refine (HS.hostOps2_istd (W6 m ρ c) q).trans ?_
    rw [e2, mu_eq m ρ c hin j, msq_eq m ρ c hin j]; rfl
  have h38 : V7 m ρ c main_v38 (ix2 0 q) = age m c j := by
    refine (HS.hostOps2_gamma (W6 m ρ c) q).trans ?_
    rw [e2]; exact w6_v9 m ρ c j
  have h41 : V7 m ρ c main_v41 (ix2 0 q) = abe m c j := by
    refine (HS.hostOps2_beta (W6 m ρ c) q).trans ?_
    rw [e2]; exact w6_v10 m ρ c j
  rw [w8_v48 m ρ c r q, R2.out (V7 m ρ) c r q, h35, h44, h47, h38, h41]

theorem edge_out (c : Dev nD) (hin : InRange m c) (e : Fin 1600000) (j : Fin 64) :
    W13 m ρ c (Proc.devRef .tc main_v49) (ix2 e j)
      = Spec.bnrelu (Mm m c e j) (Spec.muK Spec.hE (Mm m c) Spec.cE j) (Spec.istdK Spec.hE (Mm m c) Spec.cE j) (age m c j) (abe m c j) := by
  refine (congrFun (w13_v49 m ρ c) (ix2 e j)).trans ?_
  refine (H.h3_v49 (W8 m ρ c) e j).trans ?_
  refine w8_v48_eq m ρ c hin _ _ e j ?_ ?_
  · show 2 * (e.val / 2) + ((e.val % 2) * 64 + j.val) / 64 = e.val
    have := j.isLt; omega
  · show ((e.val % 2) * 64 + j.val) % 64 = j.val
    have := j.isLt; omega

end Cert.KernelIdeal.Chain

end
-- ==== Proof.KR3.lean ====
/- Region 3 (node sum and statistics), at any entry contents V: h = src + agg, and per block of 5000 rows the column
   sums of h and of h squared, each on 8 identical rows of block t of a [10, 8, 64] array. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.R3

open Cert.KernelIdeal Cert.KernelIdeal.Gen Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-- The two arrays region 3 is entered with, curried: the source linear image and the accumulated messages. -/
abbrev srcA (c : Dev nD) : Fin 50000 → Fin 64 → EReal := fun a l => V c main_v11 (ix2 a l)
abbrev aggA (c : Dev nD) : Fin 50000 → Fin 64 → EReal := fun a l => V c main_v52 (ix2 a l)
/-- The node values h as a function of the arrays region 3 is entered with. -/
abbrev Hk (c : Dev nD) : Fin 50000 → Fin 64 → EReal := fun a l => srcA V c a l + aggA V c a l

/-! ## The sum h = src + agg -/

theorem offs2_zero : (![0, 0] : Fin 2 → Nat) = fun _ => 0 := funext fun a => by fin_cases a <;> rfl

/-- The node values as one array over the [50000, 64] index. -/
abbrev hArr (c : Dev nD) : S50000x64.Idx → EReal :=
  fun u => Hk V c ⟨(u 0).val, idx2_lt0 u⟩ ⟨(u 1).val, idx2_lt1 u⟩

/-- The stored block is the pointwise sum of the two loaded blocks. -/
theorem sum_payload (x0 x1 : Vec Ideal S5000x64 .f32) : k3_pay1 x0 x1 = addf x0 x1 := by
  unfold k3_pay1
  simp only [shapeCast_self]

/-- The block index maps over the grid: the three [5000, 64] windows sit at block (t, 0). -/
theorem rows_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- An element of an input block is the array's element at row t * 5000 + p. -/
theorem src_block (c : Dev nD) (t : Fin cfg3.N) (y : S5000x64.Idx) (k : S50000x64.Idx)
    (h0 : (k 0).val = t.val * 5000 + (y 0).val) (h1 : (k 1).val = (y 1).val) :
    (iblk3 V c 0 t : Vec Ideal S5000x64 .f32) y = V c main_v11 k := by
  obtain ⟨e0, e1, -, -, -, -⟩ := rows_index t
  unfold iblk3
  rw [View.read_apply]
  show V c main_v11 _ = V c main_v11 _
  congr 1
  funext a
  apply Fin.ext
  match a with
  | ⟨0, _⟩ => show win3_0.index t (0 : Fin 2) * 5000 + 1 * (y 0).val = (k 0).val; rw [e0, h0]; omega
  | ⟨1, _⟩ => show win3_0.index t (1 : Fin 2) * 64 + 1 * (y 1).val = (k 1).val; rw [e1, h1]; omega

theorem agg_block (c : Dev nD) (t : Fin cfg3.N) (y : S5000x64.Idx) (k : S50000x64.Idx)
    (h0 : (k 0).val = t.val * 5000 + (y 0).val) (h1 : (k 1).val = (y 1).val) :
    (iblk3 V c 1 t : Vec Ideal S5000x64 .f32) y = V c main_v52 k := by
  obtain ⟨-, -, e0, e1, -, -⟩ := rows_index t
  unfold iblk3
  rw [View.read_apply]
  show V c main_v52 _ = V c main_v52 _
  congr 1
  funext a
  apply Fin.ext
  match a with
  | ⟨0, _⟩ => show win3_1.index t (0 : Fin 2) * 5000 + 1 * (y 0).val = (k 0).val; rw [e0, h0]; omega
  | ⟨1, _⟩ => show win3_1.index t (1 : Fin 2) * 64 + 1 * (y 1).val = (k 1).val; rw [e1, h1]; omega

/-- What point t writes back through window 2 is block t of the node values. -/
theorem flushedH (c : Dev nD) (t : Fin cfg3.N) :
    (dat3 V c).flushed 2 t = ((cfg3.win 2).blk t).view.read (Elt Ideal) (hArr V c) := by
  show (cfg3.win 2).cut (grid3.coords t) ((dat3 V c).after 2 t) = _
  rw [after3_2]
  unfold out3_2
  rw [View.canon_unit_zero offs2_zero]
  simp only [View.ld_unit_zero (S := S5000x64) offs2_zero]
  rw [sum_payload]
  obtain ⟨-, -, -, -, e0, e1⟩ := rows_index t
  funext y
  rw [View.read_apply]
  have k0 : ((((cfg3.win 2).blk t).view.emb y) 0).val = t.val * 5000 + (y 0).val := by
    show win3_2.index t (0 : Fin 2) * 5000 + 1 * (y 0).val = _; rw [e0]; omega
  have k1 : ((((cfg3.win 2).blk t).view.emb y) 1).val = (y 1).val := by
    show win3_2.index t (1 : Fin 2) * 64 + 1 * (y 1).val = _; rw [e1]; omega
  show _ = hArr V c (((cfg3.win 2).blk t).view.emb y)
  refine (addf_apply _ _ y).trans ?_
  rw [src_block V c t y (ix2 ⟨_, idx2_lt0 (((cfg3.win 2).blk t).view.emb y)⟩ ⟨_, idx2_lt1 (((cfg3.win 2).blk t).view.emb y)⟩) k0 k1,
    agg_block V c t y (ix2 ⟨_, idx2_lt0 (((cfg3.win 2).blk t).view.emb y)⟩ ⟨_, idx2_lt1 (((cfg3.win 2).blk t).view.emb y)⟩) k0 k1]

/-- An index of the [50000, 64] array is in point t's block iff each coordinate is in the block's range. -/
theorem mem_rows (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v53_0).slice (win3_2.rect t)).set ↔ _
  rw [View.set_slice_whole, Rect.mem_set_unit]
  exact Iff.rfl

/-- Row r lies in the block of point r / 5000. -/
theorem rows_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  refine ⟨⟨(i 0).val / 5000, by show (i 0).val / 5000 < 10; omega⟩, flush3_2 _, ?_⟩
  rw [mem_rows]
  obtain ⟨-, -, -, -, e0, e1⟩ := rows_index ⟨(i 0).val / 5000, by show (i 0).val / 5000 < 10; omega⟩
  intro a
  match a with
  | ⟨0, _⟩ =>
    show win3_2.index _ (0 : Fin 2) * 5000 ≤ (i 0).val ∧ (i 0).val < win3_2.index _ (0 : Fin 2) * 5000 + 5000
    rw [e0]; show (i 0).val / 5000 * 5000 ≤ (i 0).val ∧ (i 0).val < (i 0).val / 5000 * 5000 + 5000; omega
  | ⟨1, _⟩ =>
    show win3_2.index _ (1 : Fin 2) * 64 ≤ (i 1).val ∧ (i 1).val < win3_2.index _ (1 : Fin 2) * 64 + 64
    rw [e1]; omega

/-- The whole array after the region: the node values. -/
theorem arrH (c : Dev nD) : (dat3 V c).arrAt 2 cfg3.N = hArr V c :=
  (dat3 V c).arrAt_eq_of_cover 2 (hArr V c) (fun t _ => flushedH V c t) rows_cover

theorem outH (c : Dev nD) (i : Fin 50000) (j : Fin 64) :
    (dat3 V c).arrAt 2 cfg3.N (ix2 i j) = Hk V c i j := by
  rw [arrH V c]

/-! ## The block column sums -/

theorem offs3_zero : (![0, 0, 0] : Fin 3 → Nat) = fun _ => 0 := funext fun a => by fin_cases a <;> rfl

/-- A sum over the rows of a [5000, 64] block, at column j. -/
theorem colsum_apply (v : FVec Ideal S5000x64 .f32) (j : Fin 64) :
    multiReduction (F := Ideal) .add [0] S64 v 0x00000000#32 reduces_S5000x64_S64 (.inl rfl) rfl (ix1 j)
      = ∑ p : Fin 5000, v (ix2 p j) := by
  refine (Ideal.multiReduction_add_single v 0x00000000#32 reduces_S5000x64_S64 (.inl rfl) rfl (ix1 j)).trans ?_
  refine Finset.sum_congr rfl fun p _ => congrArg v ?_
  funext a
  apply Fin.ext
  match a with
  | ⟨0, _⟩ => rfl
  | ⟨1, _⟩ => rfl

/-- The first statistics payload at (0, r, j): the column sum of the block of h. -/
theorem sum_rows_payload (x0 x1 : Vec Ideal S5000x64 .f32) (r : Fin 8) (j : Fin 64) :
    k3_pay2 x0 x1 (ix3 (0 : Fin 1) r j) = ∑ p : Fin 5000, (x0 (ix2 p j) + x1 (ix2 p j)) := by
  unfold k3_pay2
  refine (broadcastTo_apply _ broadcasts_S1x1x64_S1x8x64 (ix3 (0 : Fin 1) r j) (ix3 (0 : Fin 1) (0 : Fin 1) j) (fun a => ?_)).trans ?_
  · match a with
    | ⟨0, _⟩ => rfl
    | ⟨1, _⟩ => rfl
    | ⟨2, _⟩ => rfl
  rw [shapeCast_self]
  refine (shapeCast_ab_1ab_apply _ shapeCasts_S1x64_S1x1x64 0 0 j).trans ?_
  refine (shapeCast_a_1a_apply _ shapeCasts_S64_S1x64 0 j).trans ?_
  refine (colsum_apply _ j).trans ?_
  rw [sum_payload]
  rfl

/-- The second statistics payload at (0, r, j): the column sum of squares of the block of h. -/
theorem sumsq_rows_payload (x0 x1 : Vec Ideal S5000x64 .f32) (r : Fin 8) (j : Fin 64) :
    k3_pay3 x0 x1 (ix3 (0 : Fin 1) r j)
      = ∑ p : Fin 5000, ((x0 (ix2 p j) + x1 (ix2 p j)) * (x0 (ix2 p j) + x1 (ix2 p j))) := by
  unfold k3_pay3
  refine (broadcastTo_apply _ broadcasts_S1x1x64_S1x8x64 (ix3 (0 : Fin 1) r j) (ix3 (0 : Fin 1) (0 : Fin 1) j) (fun a => ?_)).trans ?_
  · match a with
    | ⟨0, _⟩ => rfl
    | ⟨1, _⟩ => rfl
    | ⟨2, _⟩ => rfl
  rw [shapeCast_self]
  refine (shapeCast_ab_1ab_apply _ shapeCasts_S1x64_S1x1x64 0 0 j).trans ?_
  refine (shapeCast_a_1a_apply _ shapeCasts_S64_S1x64 0 j).trans ?_
  refine (colsum_apply _ j).trans ?_
  rw [sum_payload]
  rfl

/-- The block index maps over the grid: the two [1, 8, 64] windows sit at block (t, 0, 0). -/
theorem sums_index3 : ∀ t : Fin cfg3.N, win3_3.index t (0 : Fin 3) = t.val ∧ win3_3.index t (1 : Fin 3) = 0 ∧ win3_3.index t (2 : Fin 3) = 0 :=
  (by decide +kernel : ∀ t : Fin grid3.N, _)
theorem sums_index4 : ∀ t : Fin cfg3.N, win3_4.index t (0 : Fin 3) = t.val ∧ win3_4.index t (1 : Fin 3) = 0 ∧ win3_4.index t (2 : Fin 3) = 0 :=
  (by decide +kernel : ∀ t : Fin grid3.N, _)

/-- The block column sums of the node values as one array over the [10, 8, 64] index: every one of the 8 rows of block b holds block b's sum. -/
abbrev spArr (c : Dev nD) : S10x8x64.Idx → EReal :=
  fun u => Spec.psum Spec.hN (Hk V c) ⟨(u 0).val, (u 0).isLt⟩ ⟨(u 2).val, (u 2).isLt⟩

/-- What point t writes back through window 3 is block t of that array. -/
theorem flushedSP (c : Dev nD) (t : Fin cfg3.N) :
    (dat3 V c).flushed 3 t = ((cfg3.win 3).blk t).view.read (Elt Ideal) (spArr V c) := by
  show (cfg3.win 3).cut (grid3.coords t) ((dat3 V c).after 3 t) = _
  rw [after3_3]
  unfold out3_3
  rw [View.canon_unit_zero offs3_zero]
  simp only [View.ld_unit_zero (S := S5000x64) offs2_zero]
  obtain ⟨e0, e1, e2⟩ := sums_index3 t
  funext y
  rw [View.read_apply]
  show _ = spArr V c (((cfg3.win 3).blk t).view.emb y)
  have hy0 : (y 0).val < 1 := (y 0).isLt
  have k0 : ((((cfg3.win 3).blk t).view.emb y) 0).val = t.val := by
    show win3_3.index t (0 : Fin 3) * 1 + 1 * (y 0).val = _; rw [e0]; omega
  have k2 : ((((cfg3.win 3).blk t).view.emb y) 2).val = (y 2).val := by
    show win3_3.index t (2 : Fin 3) * 64 + 1 * (y 2).val = _; rw [e2]; omega
  have hy : y = ix3 (0 : Fin 1) (y 1) (y 2) := by
    funext a
    match a with
    | ⟨0, _⟩ => exact Fin.ext (by show (y 0).val = 0; omega)
    | ⟨1, _⟩ => rfl
    | ⟨2, _⟩ => rfl
  refine ((congrArg (fun z => k3_pay2 (iblk3 V c 0 t) (iblk3 V c 1 t) z) hy).trans (sum_rows_payload _ _ (y 1) (y 2))).trans ?_
  show _ = ∑ p : Fin 5000, (Hk V c (Spec.brow Spec.hN ⟨_, _⟩ p) ⟨_, _⟩)
  refine Finset.sum_congr rfl fun p _ => ?_
  have h0 : (Spec.brow Spec.hN (⟨((((cfg3.win 3).blk t).view.emb y) 0).val, (((cfg3.win 3).blk t).view.emb y 0).isLt⟩ : Fin 10) p).val = t.val * 5000 + p.val := by
    show ((((cfg3.win 3).blk t).view.emb y) 0).val * 5000 + p.val = _; rw [k0]
  rw [src_block V c t (ix2 p (y 2)) (ix2 (Spec.brow Spec.hN ⟨_, (((cfg3.win 3).blk t).view.emb y 0).isLt⟩ p) ⟨_, (((cfg3.win 3).blk t).view.emb y 2).isLt⟩) h0 k2,
    agg_block V c t (ix2 p (y 2)) (ix2 (Spec.brow Spec.hN ⟨_, (((cfg3.win 3).blk t).view.emb y 0).isLt⟩ p) ⟨_, (((cfg3.win 3).blk t).view.emb y 2).isLt⟩) h0 k2]

/-- An index of the [10, 8, 64] array is in point t's block iff each coordinate is in the block's range. -/
theorem mem_sums3 (t : Fin cfg3.N) (i : S10x8x64.Idx) :
    i ∈ ((cfg3.win 3).blk t).view.set ↔ ∀ a : Fin 3, win3_3.index t a * S1x8x64.size a ≤ (i a).val ∧ (i a).val < win3_3.index t a * S1x8x64.size a + S1x8x64.size a := by
  show i ∈ ((View.whole main_v53_1).slice (win3_3.rect t)).set ↔ _
  rw [View.set_slice_whole, Rect.mem_set_unit]
  exact Iff.rfl

/-- Block b of the array is point b's. -/
theorem sums_cover3 (i : S10x8x64.Idx) :
    ∃ t : Fin cfg3.N, (cfg3.win 3).flush t = true ∧ i ∈ ((cfg3.win 3).blk t).view.set := by
  have hi0 : (i 0).val < 10 := (i 0).isLt
  have hi1 : (i 1).val < 8 := (i 1).isLt
  have hi2 : (i 2).val < 64 := (i 2).isLt
  refine ⟨⟨(i 0).val, hi0⟩, flush3_3 _, ?_⟩
  rw [mem_sums3]
  obtain ⟨e0, e1, e2⟩ := sums_index3 ⟨(i 0).val, hi0⟩
  intro a
  match a with
  | ⟨0, _⟩ =>
    show win3_3.index _ (0 : Fin 3) * 1 ≤ (i 0).val ∧ (i 0).val < win3_3.index _ (0 : Fin 3) * 1 + 1
    rw [e0]; show (i 0).val * 1 ≤ (i 0).val ∧ (i 0).val < (i 0).val * 1 + 1; omega
  | ⟨1, _⟩ =>
    show win3_3.index _ (1 : Fin 3) * 8 ≤ (i 1).val ∧ (i 1).val < win3_3.index _ (1 : Fin 3) * 8 + 8
    rw [e1]; omega
  | ⟨2, _⟩ =>
    show win3_3.index _ (2 : Fin 3) * 64 ≤ (i 2).val ∧ (i 2).val < win3_3.index _ (2 : Fin 3) * 64 + 64
    rw [e2]; omega

/-- The whole array after the region. -/
theorem arrSP (c : Dev nD) : (dat3 V c).arrAt 3 cfg3.N = spArr V c :=
  (dat3 V c).arrAt_eq_of_cover 3 (spArr V c) (fun t _ => flushedSP V c t) sums_cover3

/-- The block column sums of squares of the node values as one array over the [10, 8, 64] index: every one of the 8 rows of block b holds block b's sum. -/
abbrev sqArr (c : Dev nD) : S10x8x64.Idx → EReal :=
  fun u => Spec.psumsq Spec.hN (Hk V c) ⟨(u 0).val, (u 0).isLt⟩ ⟨(u 2).val, (u 2).isLt⟩

/-- What point t writes back through window 4 is block t of that array. -/
theorem flushedSQ (c : Dev nD) (t : Fin cfg3.N) :
    (dat3 V c).flushed 4 t = ((cfg3.win 4).blk t).view.read (Elt Ideal) (sqArr V c) := by
  show (cfg3.win 4).cut (grid3.coords t) ((dat3 V c).after 4 t) = _
  rw [after3_4]
  unfold out3_4
  rw [View.canon_unit_zero offs3_zero]
  simp only [View.ld_unit_zero (S := S5000x64) offs2_zero]
  obtain ⟨e0, e1, e2⟩ := sums_index4 t
  funext y
  rw [View.read_apply]
  show _ = sqArr V c (((cfg3.win 4).blk t).view.emb y)
  have hy0 : (y 0).val < 1 := (y 0).isLt
  have k0 : ((((cfg3.win 4).blk t).view.emb y) 0).val = t.val := by
    show win3_4.index t (0 : Fin 3) * 1 + 1 * (y 0).val = _; rw [e0]; omega
  have k2 : ((((cfg3.win 4).blk t).view.emb y) 2).val = (y 2).val := by
    show win3_4.index t (2 : Fin 3) * 64 + 1 * (y 2).val = _; rw [e2]; omega
  have hy : y = ix3 (0 : Fin 1) (y 1) (y 2) := by
    funext a
    match a with
    | ⟨0, _⟩ => exact Fin.ext (by show (y 0).val = 0; omega)
    | ⟨1, _⟩ => rfl
    | ⟨2, _⟩ => rfl
  refine ((congrArg (fun z => k3_pay3 (iblk3 V c 0 t) (iblk3 V c 1 t) z) hy).trans (sumsq_rows_payload _ _ (y 1) (y 2))).trans ?_
  show _ = ∑ p : Fin 5000, ((Hk V c (Spec.brow Spec.hN ⟨_, _⟩ p) ⟨_, _⟩) * (Hk V c (Spec.brow Spec.hN ⟨_, _⟩ p) ⟨_, _⟩))
  refine Finset.sum_congr rfl fun p _ => ?_
  have h0 : (Spec.brow Spec.hN (⟨((((cfg3.win 4).blk t).view.emb y) 0).val, (((cfg3.win 4).blk t).view.emb y 0).isLt⟩ : Fin 10) p).val = t.val * 5000 + p.val := by
    show ((((cfg3.win 4).blk t).view.emb y) 0).val * 5000 + p.val = _; rw [k0]
  rw [src_block V c t (ix2 p (y 2)) (ix2 (Spec.brow Spec.hN ⟨_, (((cfg3.win 4).blk t).view.emb y 0).isLt⟩ p) ⟨_, (((cfg3.win 4).blk t).view.emb y 2).isLt⟩) h0 k2,
    agg_block V c t (ix2 p (y 2)) (ix2 (Spec.brow Spec.hN ⟨_, (((cfg3.win 4).blk t).view.emb y 0).isLt⟩ p) ⟨_, (((cfg3.win 4).blk t).view.emb y 2).isLt⟩) h0 k2]

/-- An index of the [10, 8, 64] array is in point t's block iff each coordinate is in the block's range. -/
theorem mem_sums4 (t : Fin cfg3.N) (i : S10x8x64.Idx) :
    i ∈ ((cfg3.win 4).blk t).view.set ↔ ∀ a : Fin 3, win3_4.index t a * S1x8x64.size a ≤ (i a).val ∧ (i a).val < win3_4.index t a * S1x8x64.size a + S1x8x64.size a := by
  show i ∈ ((View.whole main_v53_2).slice (win3_4.rect t)).set ↔ _
  rw [View.set_slice_whole, Rect.mem_set_unit]
  exact Iff.rfl

/-- Block b of the array is point b's. -/
theorem sums_cover4 (i : S10x8x64.Idx) :
    ∃ t : Fin cfg3.N, (cfg3.win 4).flush t = true ∧ i ∈ ((cfg3.win 4).blk t).view.set := by
  have hi0 : (i 0).val < 10 := (i 0).isLt
  have hi1 : (i 1).val < 8 := (i 1).isLt
  have hi2 : (i 2).val < 64 := (i 2).isLt
  refine ⟨⟨(i 0).val, hi0⟩, flush3_4 _, ?_⟩
  rw [mem_sums4]
  obtain ⟨e0, e1, e2⟩ := sums_index4 ⟨(i 0).val, hi0⟩
  intro a
  match a with
  | ⟨0, _⟩ =>
    show win3_4.index _ (0 : Fin 3) * 1 ≤ (i 0).val ∧ (i 0).val < win3_4.index _ (0 : Fin 3) * 1 + 1
    rw [e0]; show (i 0).val * 1 ≤ (i 0).val ∧ (i 0).val < (i 0).val * 1 + 1; omega
  | ⟨1, _⟩ =>
    show win3_4.index _ (1 : Fin 3) * 8 ≤ (i 1).val ∧ (i 1).val < win3_4.index _ (1 : Fin 3) * 8 + 8
    rw [e1]; omega
  | ⟨2, _⟩ =>
    show win3_4.index _ (2 : Fin 3) * 64 ≤ (i 2).val ∧ (i 2).val < win3_4.index _ (2 : Fin 3) * 64 + 64
    rw [e2]; omega

/-- The whole array after the region. -/
theorem arrSQ (c : Dev nD) : (dat3 V c).arrAt 4 cfg3.N = sqArr V c :=
  (dat3 V c).arrAt_eq_of_cover 4 (sqArr V c) (fun t _ => flushedSQ V c t) sums_cover4

theorem outSP (c : Dev nD) (b : Fin 10) (r : Fin 8) (j : Fin 64) :
    (dat3 V c).arrAt 3 cfg3.N (ix3 b r j) = Spec.psum Spec.hN (Hk V c) b j := by
  rw [arrSP V c]

theorem outSQ (c : Dev nD) (b : Fin 10) (r : Fin 8) (j : Fin 64) :
    (dat3 V c).arrAt 4 cfg3.N (ix3 b r j) = Spec.psumsq Spec.hN (Hk V c) b j := by
  rw [arrSQ V c]

end Cert.KernelIdeal.R3

end
-- ==== Proof.KR4.lean ====
/- Region 4 (node normalisation on the lane-dense [25000, 128] view), at any entry contents V: pointwise
   max (((a - mu) * istd) * gamma + beta) 0 with the four [1, 128] rows broadcast down the columns; 5 blocks of 5000 rows. -/
import proofs.«418626_j55241869361500_3_alg».proof.Proof.Gen.KernelIdeal.Frame
import proofs.«418626_j55241869361500_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.R4

open Cert.KernelIdeal Cert.KernelIdeal.Gen Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

theorem hz : (![0, 0] : Fin 2 → Nat) = fun _ => 0 := funext fun a => by fin_cases a <;> rfl

/-- What the output array ends holding: each entry normalised by its column's mean and inverse deviation, scaled,
    shifted and clamped below at zero, the four rows read at the entry's column. -/
def bn (c : Dev nD) : S25000x128.Idx → EReal := fun u =>
  Spec.bnrelu (V c main_v71 u) (V c main_v80 (ix2 0 ⟨(u 1).val, idx2_lt1 u⟩)) (V c main_v83 (ix2 0 ⟨(u 1).val, idx2_lt1 u⟩))
    (V c main_v74 (ix2 0 ⟨(u 1).val, idx2_lt1 u⟩)) (V c main_v77 (ix2 0 ⟨(u 1).val, idx2_lt1 u⟩))

theorem bn_congr {a a' mu mu' s s' g g' b b' : EReal} (h0 : a = a') (h1 : mu = mu') (h2 : s = s') (h3 : g = g') (h4 : b = b') :
    Spec.bnrelu a mu s g b = Spec.bnrelu a' mu' s' g' b' := by
  subst h0 h1 h2 h3 h4; rfl

/-- A [1, 128] row broadcast down 5000 rows reads the row's column. -/
theorem row_bcast (v : Vec Ideal S1x128 .f32) (h2 : S1x128.Broadcasts S5000x128) (p : Fin 5000) (q : Fin 128) :
    broadcastTo S5000x128 v h2 (ix2 p q) = v (ix2 0 q) := by
  refine broadcastTo_apply v h2 (ix2 p q) (ix2 0 q) (fun a => ?_)
  match a with
  | ⟨0, _⟩ => rfl
  | ⟨1, _⟩ => rfl

/-- The body's payload at a point of the block. -/
theorem pay_apply (x0 : Vec Ideal S5000x128 .f32) (x1 x2 x3 x4 : Vec Ideal S1x128 .f32) (y : S5000x128.Idx) :
    k4_pay1 x0 x1 x2 x3 x4 y
      = Spec.bnrelu (x0 y) (x1 (ix2 0 ⟨(y 1).val, idx2_lt1 y⟩)) (x2 (ix2 0 ⟨(y 1).val, idx2_lt1 y⟩))
          (x3 (ix2 0 ⟨(y 1).val, idx2_lt1 y⟩)) (x4 (ix2 0 ⟨(y 1).val, idx2_lt1 y⟩)) := by
  obtain ⟨p, q, rfl⟩ : ∃ (p : Fin 5000) (q : Fin 128), y = ix2 p q := ⟨y 0, y 1, eq_ix2 y⟩
  unfold k4_pay1
  simp only [maximumf_apply, addf_apply, mulf_apply, subf_apply, broadcast_apply, shapeCast_self]
  rw [row_bcast x1 _ p q, row_bcast x2 _ p q, row_bcast x3 _ p q, row_bcast x4 _ p q]
  rfl

/-- The block index maps over the grid: the two [5000, 128] windows sit at block (t, 0), the four rows at (0, 0). -/
theorem idx_facts : ∀ t : Fin cfg4.N,
    win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- What point t writes back is block t of the array function. -/
theorem flushed_eq (c : Dev nD) (t : Fin cfg4.N) :
    (dat4 V c).flushed 5 t = ((cfg4.win 5).blk t).view.read (Elt Ideal) (bn V c) := by
  show (cfg4.win 5).cut (grid4.coords t) ((dat4 V c).after 5 t) = _
  rw [after4_5]
  unfold out4_5
  rw [View.canon_unit_zero hz]
  simp only [View.ld_unit_zero (S := S5000x128) hz, View.ld_unit_zero (S := S1x128) hz]
  obtain ⟨e00, e01, e50, e51, e10, e11, e20, e21, e30, e31, e40, e41⟩ := idx_facts t
  funext y
  show k4_pay1 _ _ _ _ _ _ = _
  refine (pay_apply _ _ _ _ _ _).trans ?_
  show Spec.bnrelu (V c main_v71 _) (V c main_v80 _) (V c main_v83 _) (V c main_v74 _) (V c main_v77 _)
     = Spec.bnrelu (V c main_v71 _) (V c main_v80 _) (V c main_v83 _) (V c main_v74 _) (V c main_v77 _)
  refine bn_congr (congrArg (V c main_v71) ?_) (congrArg (V c main_v80) ?_) (congrArg (V c main_v83) ?_)
    (congrArg (V c main_v74) ?_) (congrArg (V c main_v77) ?_)
  · funext a; apply Fin.ext
    match a with
    | ⟨0, _⟩ => show win4_0.index t (0 : Fin 2) * 5000 + 1 * (y 0).val = win4_5.index t (0 : Fin 2) * 5000 + 1 * (y 0).val; omega
    | ⟨1, _⟩ => show win4_0.index t (1 : Fin 2) * 128 + 1 * (y 1).val = win4_5.index t (1 : Fin 2) * 128 + 1 * (y 1).val; omega
  · funext a; apply Fin.ext
    match a with
    | ⟨0, _⟩ => show win4_1.index t (0 : Fin 2) * 1 + 1 * 0 = 0; omega
    | ⟨1, _⟩ => show win4_1.index t (1 : Fin 2) * 128 + 1 * (y 1).val = win4_5.index t (1 : Fin 2) * 128 + 1 * (y 1).val; omega
  · funext a; apply Fin.ext
    match a with
    | ⟨0, _⟩ => show win4_2.index t (0 : Fin 2) * 1 + 1 * 0 = 0; omega
    | ⟨1, _⟩ => show win4_2.index t (1 : Fin 2) * 128 + 1 * (y 1).val = win4_5.index t (1 : Fin 2) * 128 + 1 * (y 1).val; omega
  · funext a; apply Fin.ext
    match a with
    | ⟨0, _⟩ => show win4_3.index t (0 : Fin 2) * 1 + 1 * 0 = 0; omega
    | ⟨1, _⟩ => show win4_3.index t (1 : Fin 2) * 128 + 1 * (y 1).val = win4_5.index t (1 : Fin 2) * 128 + 1 * (y 1).val; omega
  · funext a; apply Fin.ext
    match a with
    | ⟨0, _⟩ => show win4_4.index t (0 : Fin 2) * 1 + 1 * 0 = 0; omega
    | ⟨1, _⟩ => show win4_4.index t (1 : Fin 2) * 128 + 1 * (y 1).val = win4_5.index t (1 : Fin 2) * 128 + 1 * (y 1).val; omega

/-- An index of the array is in point t's block iff each coordinate is in the block's range on its axis. -/
theorem mem_blk (t : Fin cfg4.N) (i : S25000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v84).slice (win4_5.rect t)).set ↔ _
  rw [View.set_slice_whole, Rect.mem_set_unit]
  exact Iff.rfl

/-- Row r of the array lies in the block of point r / 5000, and every point writes its block back. -/
theorem cover (i : S25000x128.Idx) :
    ∃ t : Fin cfg4.N, (cfg4.win 5).flush t = true ∧ i ∈ ((cfg4.win 5).blk t).view.set := by
  have hi0 : (i 0).val < 25000 := (i 0).isLt
  have hi1 : (i 1).val < 128 := (i 1).isLt
  have ht : (i 0).val / 5000 < 5 := by omega
  refine ⟨⟨(i 0).val / 5000, ht⟩, flush4_5 _, ?_⟩
  rw [mem_blk]
  obtain ⟨-, -, e50, e51, -⟩ := idx_facts ⟨(i 0).val / 5000, ht⟩
  have e50' : win4_5.index ⟨(i 0).val / 5000, ht⟩ (0 : Fin 2) = (i 0).val / 5000 := e50
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    omega
  | ⟨1, _⟩ =>
    show win4_5.index ⟨(i 0).val / 5000, ht⟩ (1 : Fin 2) * 128 ≤ (i 1).val ∧ (i 1).val < win4_5.index ⟨(i 0).val / 5000, ht⟩ (1 : Fin 2) * 128 + 128
    omega

/-- The output array after the region. -/
theorem arr_eq (c : Dev nD) : (dat4 V c).arrAt 5 cfg4.N = bn V c :=
  (dat4 V c).arrAt_eq_of_cover 5 (bn V c) (fun t _ => flushed_eq V c t) cover

theorem out (c : Dev nD) (r : Fin 25000) (q : Fin 128) :
    (dat4 V c).arrAt 5 cfg4.N (ix2 r q)
      = Spec.bnrelu (V c main_v71 (ix2 r q)) (V c main_v80 (ix2 0 q)) (V c main_v83 (ix2 0 q)) (V c main_v74 (ix2 0 q)) (V c main_v77 (ix2 0 q)) := by
  exact congrFun (arr_eq V c) (ix2 r q)

end Cert.KernelIdeal.R4

end
-- ==== Proof.KC3.lean ====
/- The node result of the idealized kernel program at the last boundary (W13), as a function of the launched arguments:
   from region 1's exit the messages are accumulated at their source rows, added to the source linear image, and the
   node statistics, normalisation and reshape back follow. -/
import proofs.«418626_j55241869361500_3_alg».proof.Proof.Gen.KernelIdeal.Frame
import proofs.«418626_j55241869361500_3_alg».proof.Proof.Spec
import proofs.«418626_j55241869361500_3_alg».proof.Proof.KArgs
import proofs.«418626_j55241869361500_3_alg».proof.Proof.KC1
import proofs.«418626_j55241869361500_3_alg».proof.Proof.KR3
import proofs.«418626_j55241869361500_3_alg».proof.Proof.KR4
import proofs.«418626_j55241869361500_3_alg».proof.Proof.KH
import proofs.«418626_j55241869361500_3_alg».proof.Proof.KHS
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A buffer that a host stretch does not write holds after the stretch what it held before it. -/
macro "skip_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Buffers no segment between region 1's exit and a later boundary writes -/

theorem w8_v1 (c : Dev nD) : W8 m ρ c (Proc.devRef .tc main_v1) = W6 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by skip_host hostOps2

theorem w8_v17_1 (c : Dev nD) : W8 m ρ c (Proc.devRef .tc main_v17_1) = W6 m ρ c (Proc.devRef .tc main_v17_1) :=
  calc W8 m ρ c (Proc.devRef .tc main_v17_1)
    _ = W7 m ρ c (Proc.devRef .tc main_v17_1) := W8_of_ne m ρ c main_v17_1 (by decide)
    _ = W6 m ρ c (Proc.devRef .tc main_v17_1) := by skip_host hostOps2

theorem w9_v11 (c : Dev nD) : W9 m ρ c (Proc.devRef .tc main_v11) = W6 m ρ c (Proc.devRef .tc main_v11) :=
  calc W9 m ρ c (Proc.devRef .tc main_v11)
    _ = W8 m ρ c (Proc.devRef .tc main_v11) := by skip_host hostOps3
    _ = W7 m ρ c (Proc.devRef .tc main_v11) := W8_of_ne m ρ c main_v11 (by decide)
    _ = W6 m ρ c (Proc.devRef .tc main_v11) := by skip_host hostOps2

theorem w10_v7 (c : Dev nD) : W10 m ρ c (Proc.devRef .tc main_v7) = W6 m ρ c (Proc.devRef .tc main_v7) :=
  calc W10 m ρ c (Proc.devRef .tc main_v7)
    _ = W9 m ρ c (Proc.devRef .tc main_v7) := W10_of_ne m ρ c main_v7 (by decide)
    _ = W8 m ρ c (Proc.devRef .tc main_v7) := by skip_host hostOps3
    _ = W7 m ρ c (Proc.devRef .tc main_v7) := W8_of_ne m ρ c main_v7 (by decide)
    _ = W6 m ρ c (Proc.devRef .tc main_v7) := by skip_host hostOps2

theorem w10_v8 (c : Dev nD) : W10 m ρ c (Proc.devRef .tc main_v8) = W6 m ρ c (Proc.devRef .tc main_v8) :=
  calc W10 m ρ c (Proc.devRef .tc main_v8)
    _ = W9 m ρ c (Proc.devRef .tc main_v8) := W10_of_ne m ρ c main_v8 (by decide)
    _ = W8 m ρ c (Proc.devRef .tc main_v8) := by skip_host hostOps3
    _ = W7 m ρ c (Proc.devRef .tc main_v8) := W8_of_ne m ρ c main_v8 (by decide)
    _ = W6 m ρ c (Proc.devRef .tc main_v8) := by skip_host hostOps2

/-! ## The accumulated messages and the node values at region 3's entry -/

/-- The scatter's index column at region 2's exit is the column of raw source words. -/
theorem w8_srcCol (c : Dev nD) :
    (fun u : Spec.SE1.Idx => W8 m ρ c (Proc.devRef .tc main_v1) (ix1 ⟨(u 0).val, idx2_lt0 u⟩)) = Spec.srcCol (aei m c) := by
  funext u
  exact (congrFun (w8_v1 m ρ c) _).trans (w6_v1 m ρ c ⟨(u 0).val, idx2_lt0 u⟩)

/-- The scatter's update array at region 2's exit is the array of messages. -/
theorem w8_arrE (c : Dev nD) (hin : InRange m c) :
    W8 m ρ c (Proc.devRef .tc main_v17_1) = Spec.arrE (Tm m c) := by
  funext u
  obtain ⟨e, k, rfl⟩ : ∃ (e : Fin 1600000) (k : Fin 64), u = ix2 e k := ⟨u 0, u 1, eq_ix2 u⟩
  exact (congrFun (w8_v17_1 m ρ c) _).trans (w6_T m ρ c hin e k)

theorem v9_v52 (c : Dev nD) (hin : InRange m c) (i : Fin 50000) (j : Fin 64) :
    V9 m ρ c main_v52 (ix2 i j)
      = Spec.agg (aei m c) scatter_S50000x64_S1600000x1_S1600000x64_1_0_0_1 (Tm m c) i j := by
  unfold Spec.agg
  rw [← w8_srcCol m ρ c, ← w8_arrE m ρ c hin]
  exact congrFun (H.h3_v52 (W8 m ρ c)) (ix2 i j)

theorem v9_v11 (c : Dev nD) (i : Fin 50000) (j : Fin 64) :
    V9 m ρ c main_v11 (ix2 i j) = Spec.lin (ax m c) (aws m c) (abs m c) i j :=
  (congrFun (w9_v11 m ρ c) _).trans (w6_v11 m ρ c i j)

/-- The node values region 3 computes from its entry contents are the node values of the launched arguments. -/
theorem hk_eq (c : Dev nD) (hin : InRange m c) : R3.Hk (V9 m ρ) c = Hm m c := by
  funext i j
  have h1 : R3.srcA (V9 m ρ) c i j = Spec.lin (ax m c) (aws m c) (abs m c) i j := v9_v11 m ρ c i j
  have h2 : R3.aggA (V9 m ρ) c i j
      = Spec.agg (aei m c) scatter_S50000x64_S1600000x1_S1600000x64_1_0_0_1 (Tm m c) i j := v9_v52 m ρ c hin i j
  show R3.srcA (V9 m ρ) c i j + R3.aggA (V9 m ρ) c i j = _
  rw [h1, h2]
  rfl

/-! ## Region 3's outputs at its exit -/

theorem w10_H (c : Dev nD) (hin : InRange m c) (i : Fin 50000) (j : Fin 64) :
    W10 m ρ c (Proc.devRef .tc main_v53_0) (ix2 i j) = Hm m c i j :=
  (congrFun (W10_arr m ρ c 2) _).trans
    ((R3.outH (V9 m ρ) c i j).trans (congrFun (congrFun (hk_eq m ρ c hin) i) j))

theorem w10_SP (c : Dev nD) (hin : InRange m c) (b : Fin 10) (r : Fin 8) (j : Fin 64) :
    W10 m ρ c (Proc.devRef .tc main_v53_1) (ix3 b r j) = Spec.psum Spec.hN (Hm m c) b j :=
  (congrFun (W10_arr m ρ c 3) _).trans
    ((R3.outSP (V9 m ρ) c b r j).trans (congrArg (fun A => Spec.psum Spec.hN A b j) (hk_eq m ρ c hin)))

theorem w10_SQ (c : Dev nD) (hin : InRange m c) (b : Fin 10) (r : Fin 8) (j : Fin 64) :
    W10 m ρ c (Proc.devRef .tc main_v53_2) (ix3 b r j) = Spec.psumsq Spec.hN (Hm m c) b j :=
  (congrFun (W10_arr m ρ c 4) _).trans
    ((R3.outSQ (V9 m ρ) c b r j).trans (congrArg (fun A => Spec.psumsq Spec.hN A b j) (hk_eq m ρ c hin)))

/-! ## The column statistics of the node values -/

theorem mu_node_eq (c : Dev nD) (hin : InRange m c) (j : Fin 64) :
    HS.mu_hostOps4 (W10 m ρ c) j = Spec.muK Spec.hN (Hm m c) Spec.cN j := by
  unfold Spec.muK
  exact congrArg (fun s => Ideal.div (Ideal.div (Spec.z + s) Spec.c8) Spec.cN)
    (Finset.sum_congr rfl fun b _ => Finset.sum_congr rfl fun r _ => w10_SP m ρ c hin b r j)

theorem msq_node_eq (c : Dev nD) (hin : InRange m c) (j : Fin 64) :
    HS.msq_hostOps4 (W10 m ρ c) j = Spec.msqK Spec.hN (Hm m c) Spec.cN j := by
  unfold Spec.msqK
  exact congrArg (fun s => Ideal.div (Ideal.div (Spec.z + s) Spec.c8) Spec.cN)
    (Finset.sum_congr rfl fun b _ => Finset.sum_congr rfl fun r _ => w10_SQ m ρ c hin b r j)

/-! ## Region 4's entry contents -/

theorem v11_big (c : Dev nD) (hin : InRange m c) (r : Fin 25000) (q : Fin 128) :
    V11 m ρ c main_v71 (ix2 r q)
      = Hm m c ⟨2 * r.val + q.val / 64, by have := r.isLt; have := q.isLt; omega⟩ ⟨q.val % 64, by omega⟩ :=
  (HS.hostOps4_big (W10 m ρ c) r q).trans (w10_H m ρ c hin _ _)

theorem v11_mu (c : Dev nD) (hin : InRange m c) (q : Fin 128) :
    V11 m ρ c main_v80 (ix2 0 q) = Spec.muK Spec.hN (Hm m c) Spec.cN ⟨q.val % 64, by omega⟩ :=
  (HS.hostOps4_mu (W10 m ρ c) q).trans (mu_node_eq m ρ c hin _)

theorem v11_istd (c : Dev nD) (hin : InRange m c) (q : Fin 128) :
    V11 m ρ c main_v83 (ix2 0 q) = Spec.istdK Spec.hN (Hm m c) Spec.cN ⟨q.val % 64, by omega⟩ := by
  refine (HS.hostOps4_istd (W10 m ρ c) q).trans ?_
  unfold Spec.istdK Spec.varK
  rw [mu_node_eq m ρ c hin, msq_node_eq m ρ c hin]

theorem v11_gamma (c : Dev nD) (q : Fin 128) :
    V11 m ρ c main_v74 (ix2 0 q) = agn m c ⟨q.val % 64, by omega⟩ :=
  (HS.hostOps4_gamma (W10 m ρ c) q).trans ((congrFun (w10_v7 m ρ c) _).trans (w6_v7 m ρ c _))

theorem v11_beta (c : Dev nD) (q : Fin 128) :
    V11 m ρ c main_v77 (ix2 0 q) = abn m c ⟨q.val % 64, by omega⟩ :=
  (HS.hostOps4_beta (W10 m ρ c) q).trans ((congrFun (w10_v8 m ρ c) _).trans (w6_v8 m ρ c _))

/-! ## The node result -/

theorem node_out (c : Dev nD) (hin : InRange m c) (i : Fin 50000) (j : Fin 64) :
    W13 m ρ c (Proc.devRef .tc main_v85) (ix2 i j)
      = Spec.bnrelu (Hm m c i j) (Spec.muK Spec.hN (Hm m c) Spec.cN j) (Spec.istdK Spec.hN (Hm m c) Spec.cN j) (agn m c j) (abn m c j) := by
  have hi := i.isLt
  have hj := j.isLt
  refine (H.h5_v85 (W12 m ρ c) i j).trans ?_
  refine (congrFun (W12_arr m ρ c 5) _).trans ?_
  refine (R4.out (V11 m ρ) c _ _).trans ?_
  rw [v11_big m ρ c hin, v11_mu m ρ c hin, v11_istd m ρ c hin, v11_gamma m ρ c, v11_beta m ρ c]
  -- row 2 (i / 2) + q / 64 and column q % 64 of lane q = (i % 2) 64 + j are row i and column j
  have key : ∀ (A : Fin 50000) (B : Fin 64), A = i → B = j →
      Spec.bnrelu (Hm m c A B) (Spec.muK Spec.hN (Hm m c) Spec.cN B) (Spec.istdK Spec.hN (Hm m c) Spec.cN B) (agn m c B) (abn m c B)
        = Spec.bnrelu (Hm m c i j) (Spec.muK Spec.hN (Hm m c) Spec.cN j) (Spec.istdK Spec.hN (Hm m c) Spec.cN j) (agn m c j) (abn m c j) := by
    rintro _ _ rfl rfl; rfl
  exact key _ _ (Fin.ext (by dsimp only; omega)) (Fin.ext (by dsimp only; omega))

end Cert.KernelIdeal.Chain

end
-- ==== Proof.Ref.lean ====
/- The reference program's two results as functions of its launched arguments, index by index: its generated run's
   composed terms read one operation at a time (the generated read-at-an-index lemmas; the three row gathers read by the
   row-gather lemma, the accumulating scatter kept as one array-level term). -/
import proofs.«418626_j55241869361500_3_alg».proof.Proof.Gen.ReferenceIdeal.Run
import proofs.«418626_j55241869361500_3_alg».proof.Proof.Gen.ReferenceIdeal.Read
import proofs.«418626_j55241869361500_3_alg».proof.Proof.Spec
import proofs.«418626_j55241869361500_3_alg».proof.Proof.GatherRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.ShloMosaic.ValueIdx Idealize.SL.Sem

/-! ## The stages over variable arrays -/

namespace Stage

abbrev T0 : Type := (⟨S50000x64, .f32⟩ : BufTy).Contents (Elt Ideal)
abbrev T1 : Type := (⟨S2x1600000, .i32⟩ : BufTy).Contents (Elt Ideal)
abbrev T2 : Type := (⟨S1600000x64, .f32⟩ : BufTy).Contents (Elt Ideal)
abbrev T3 : Type := (⟨S192x64, .f32⟩ : BufTy).Contents (Elt Ideal)
abbrev TV : Type := (⟨S64, .f32⟩ : BufTy).Contents (Elt Ideal)
abbrev TW : Type := (⟨S64x64, .f32⟩ : BufTy).Contents (Elt Ideal)

/-- The arrays curried over their coordinates. -/
abbrev c0 (x0 : T0) : Fin 50000 → Fin 64 → EReal := fun i k => x0 (ix2 i k)
abbrev c1 (x1 : T1) : Fin 2 → Fin 1600000 → BitVec 32 := fun r e => x1 (ix2 r e)
abbrev c2 (x2 : T2) : Fin 1600000 → Fin 64 → EReal := fun e k => x2 (ix2 e k)
abbrev c3 (x3 : T3) : Fin 192 → Fin 64 → EReal := fun r j => x3 (ix2 r j)
abbrev cv (x : TV) : Fin 64 → EReal := fun j => x (ix1 j)
abbrev cw (x : TW) : Fin 64 → Fin 64 → EReal := fun k j => x (ix2 k j)

/-- The source index column at edge e: the normalised source word. -/
theorem v9_at (x1 : T1) (e : Fin 1600000) :
    Read.val_main_v9 (F := Ideal) x1 (ix2 e 0) = Spec.nrm (c1 x1 0 e) := by
  have hi : Read.idx_main_v0 (Read.idx_main_v1 (Read.idx_main_v9 (ix2 e (0 : Fin 1)))) = ix2 (0 : Fin 2) e :=
    funext fun a => Fin.ext (by
      match a with
      | ⟨0, _⟩ => rfl
      | ⟨1, _⟩ => exact Nat.mod_eq_of_lt e.isLt)
  rw [Read.val_main_v9_apply, Read.val_main_v8_apply, Read.val_main_v5_apply, Read.val_main_v7_apply,
    Read.val_main_v1_apply, Read.val_main_v0_apply, Read.val_main_v4_apply, Read.val_main_v6_apply,
    Read.val_main_c_apply, Read.val_main_c_0_apply, hi]
  rfl

/-- The destination index column at edge e (its first copy). -/
theorem v18_at (x1 : T1) (e : Fin 1600000) :
    Read.val_main_v18 (F := Ideal) x1 (ix2 e 0) = Spec.nrm (c1 x1 1 e) := by
  have hi : Read.idx_main_v2 (Read.idx_main_v3 (Read.idx_main_v18 (ix2 e (0 : Fin 1)))) = ix2 (1 : Fin 2) e :=
    funext fun a => Fin.ext (by
      match a with
      | ⟨0, _⟩ => rfl
      | ⟨1, _⟩ => exact Nat.mod_eq_of_lt e.isLt)
  rw [Read.val_main_v18_apply, Read.val_main_v17_apply, Read.val_main_v14_apply, Read.val_main_v16_apply,
    Read.val_main_v3_apply, Read.val_main_v2_apply, Read.val_main_v13_apply, Read.val_main_v15_apply,
    Read.val_main_c_1_apply, Read.val_main_c_2_apply, hi]
  rfl

/-- The destination index column at edge e (its second copy). -/
theorem v51_at (x1 : T1) (e : Fin 1600000) :
    Read.val_main_v51 (F := Ideal) x1 (ix2 e 0) = Spec.nrm (c1 x1 1 e) := by
  have hi : Read.idx_main_v2 (Read.idx_main_v3 (Read.idx_main_v51 (ix2 e (0 : Fin 1)))) = ix2 (1 : Fin 2) e :=
    funext fun a => Fin.ext (by
      match a with
      | ⟨0, _⟩ => rfl
      | ⟨1, _⟩ => exact Nat.mod_eq_of_lt e.isLt)
  rw [Read.val_main_v51_apply, Read.val_main_v50_apply, Read.val_main_v47_apply, Read.val_main_v49_apply,
    Read.val_main_v3_apply, Read.val_main_v2_apply, Read.val_main_v46_apply, Read.val_main_v48_apply,
    Read.val_main_c_5_apply, Read.val_main_c_6_apply, hi]
  rfl

/-- A row gather whose start word at e is the normalised word w reads row (row w). -/
theorem gather_at (x : T0) (idx : IVec S1600000x1 32) (w : BitVec 32) (e : Fin 1600000) (k : Fin 64)
    (h : idx (ix2 e 0) = Spec.nrm w) :
    Host.gather gather_S50000x64_S1600000x1_S1600000x64_1_0_n_n_0_1_164 x idx (ix2 e k) = x (ix2 (Spec.row w) k) := by
  refine (Spec.gather_rows x idx e k).trans (congrArg x (congrArg (fun r => ix2 r k) (Fin.ext ?_)))
  show min (idx (ix2 e 0)).toInt.toNat 49999 = min (Spec.nrm w).toInt.toNat 49999
  rw [h]

/-- The node features gathered at the source rows. -/
theorem v10_at (x0 : T0) (x1 : T1) (e : Fin 1600000) (k : Fin 64) :
    Read.val_main_v10 (F := Ideal) x0 x1 (ix2 e k) = Spec.gs (c0 x0) (c1 x1) e k :=
  gather_at x0 _ _ e k (v9_at x1 e)

/-- The node features gathered at the destination rows. -/
theorem v19_at (x0 : T0) (x1 : T1) (e : Fin 1600000) (k : Fin 64) :
    Read.val_main_v19 (F := Ideal) x0 x1 (ix2 e k) = Spec.gd (c0 x0) (c1 x1) e k :=
  gather_at x0 _ _ e k (v18_at x1 e)

/-- A 64-row block of the gate weight read through its slice. -/
theorem v11_at (x3 : T3) (k j : Fin 64) : Read.val_main_v11 (F := Ideal) x3 (ix2 k j) = Spec.wg1 (c3 x3) k j := by
  rw [Read.val_main_v11_apply]
  exact congrArg x3 (funext fun a => Fin.ext (by match a with | ⟨0, _⟩ => rfl | ⟨1, _⟩ => rfl))

theorem v20_at (x3 : T3) (k j : Fin 64) : Read.val_main_v20 (F := Ideal) x3 (ix2 k j) = Spec.wg2 (c3 x3) k j := by
  rw [Read.val_main_v20_apply]
  exact congrArg x3 (funext fun a => Fin.ext (by match a with | ⟨0, _⟩ => rfl | ⟨1, _⟩ => rfl))

theorem v23_at (x3 : T3) (k j : Fin 64) : Read.val_main_v23 (F := Ideal) x3 (ix2 k j) = Spec.wg3 (c3 x3) k j := by
  rw [Read.val_main_v23_apply]
  exact congrArg x3 (funext fun a => Fin.ext (by match a with | ⟨0, _⟩ => rfl | ⟨1, _⟩ => rfl))

/-- The gate's pre-activation at (e, j). -/
theorem v28_at (x0 : T0) (x1 : T1) (x2 : T2) (x3 : T3) (x4 : TV) (e : Fin 1600000) (j : Fin 64) :
    Read.val_main_v28 (F := Ideal) x0 x1 x2 x3 x4 (ix2 e j) = Spec.gateM (c0 x0) (c1 x1) (c2 x2) (c3 x3) (cv x4) e j := by
  have hl12 : ∀ k : Fin 64, Read.lidx_main_v12 (ix2 e j) k = ix2 e k := fun k =>
    funext fun a => Fin.ext (by match a with | ⟨0, _⟩ => rfl | ⟨1, _⟩ => rfl)
  have hr12 : ∀ k : Fin 64, Read.ridx_main_v12 (ix2 e j) k = ix2 k j := fun k =>
    funext fun a => Fin.ext (by match a with | ⟨0, _⟩ => rfl | ⟨1, _⟩ => rfl)
  have hl21 : ∀ k : Fin 64, Read.lidx_main_v21 (ix2 e j) k = ix2 e k := fun k =>
    funext fun a => Fin.ext (by match a with | ⟨0, _⟩ => rfl | ⟨1, _⟩ => rfl)
  have hr21 : ∀ k : Fin 64, Read.ridx_main_v21 (ix2 e j) k = ix2 k j := fun k =>
    funext fun a => Fin.ext (by match a with | ⟨0, _⟩ => rfl | ⟨1, _⟩ => rfl)
  have hl24 : ∀ k : Fin 64, Read.lidx_main_v24 (ix2 e j) k = ix2 e k := fun k =>
    funext fun a => Fin.ext (by match a with | ⟨0, _⟩ => rfl | ⟨1, _⟩ => rfl)
  have hr24 : ∀ k : Fin 64, Read.ridx_main_v24 (ix2 e j) k = ix2 k j := fun k =>
    funext fun a => Fin.ext (by match a with | ⟨0, _⟩ => rfl | ⟨1, _⟩ => rfl)
  have hb : Read.idx_main_v26 (Read.idx_main_v27 (ix2 e j)) = ix1 j :=
    funext fun a => Fin.ext (by match a with | ⟨0, _⟩ => rfl)
  rw [Read.val_main_v28_apply, Read.val_main_v25_apply, Read.val_main_v22_apply, Read.val_main_v12_apply,
    Read.val_main_v21_apply, Read.val_main_v24_apply, Read.val_main_v27_apply, Read.val_main_v26_apply, hb]
  unfold Spec.gateM Spec.gateMg
  refine congrArg₂ (· + ·) (congrArg₂ (· + ·) (congrArg₂ (· + ·) ?_ ?_) ?_) rfl
  · refine Finset.sum_congr rfl fun k _ => ?_
    rw [hl12 k, hr12 k, v10_at, v11_at]
  · refine Finset.sum_congr rfl fun k _ => ?_
    rw [hl21 k, hr21 k, v19_at, v20_at]
  · refine Finset.sum_congr rfl fun k _ => ?_
    rw [hl24 k, hr24 k, v23_at]

/-! ## The edge result -/

/-- The gate pre-activation's column mean. -/
theorem v86_at (x0 : T0) (x1 : T1) (x2 : T2) (x3 : T3) (x4 : TV) (j : Fin 64) :
    Read.val_main_v86 (F := Ideal) x0 x1 x2 x3 x4 (ix1 j)
      = Spec.muR (Spec.gateM (c0 x0) (c1 x1) (c2 x2) (c3 x3) (cv x4)) Spec.cE j := by
  have hi : ∀ k : Fin 1600000, Read.idx_main_v84 (ix1 j) k = ix2 k j := fun k =>
    funext fun a => Fin.ext (by match a with | ⟨0, _⟩ => rfl | ⟨1, _⟩ => rfl)
  rw [Read.val_main_v86_apply, Read.val_main_v84_apply, Read.val_main_v85_apply, Read.val_main_cst_13_apply,
    Read.val_main_cst_14_apply]
  unfold Spec.muR
  refine congrArg₂ Ideal.div (congrArg₂ (· + ·) rfl (Finset.sum_congr rfl fun k _ => ?_)) rfl
  rw [hi k, v28_at]

/-- The gate pre-activation's column inverse standard deviation. -/
theorem v99_at (x0 : T0) (x1 : T1) (x2 : T2) (x3 : T3) (x4 : TV) (j : Fin 64) :
    Read.val_main_v99 (F := Ideal) x0 x1 x2 x3 x4 (ix1 j)
      = Spec.istdR (Spec.gateM (c0 x0) (c1 x1) (c2 x2) (c3 x3) (cv x4)) Spec.cE j := by
  have hi : ∀ k : Fin 1600000, Read.idx_main_v91 (ix1 j) k = ix2 k j := fun k =>
    funext fun a => Fin.ext (by match a with | ⟨0, _⟩ => rfl | ⟨1, _⟩ => rfl)
  have hm : ∀ k : Fin 1600000, Read.idx_main_v87 (Read.idx_main_v88 (ix2 k j)) = ix1 j := fun k =>
    funext fun a => Fin.ext (by match a with | ⟨0, _⟩ => rfl)
  rw [Read.val_main_v99_apply, Read.val_main_v98_apply, Read.val_main_v93_apply, Read.val_main_v91_apply,
    Read.val_main_v92_apply, Read.val_main_v97_apply, Read.val_main_cst_15_apply, Read.val_main_cst_16_apply,
    Read.val_main_cst_17_apply]
  unfold Spec.istdR Spec.varR
  refine congrArg Ideal.rsqrt (congrArg₂ (· + ·)
    (congrArg₂ Ideal.div (congrArg₂ (· + ·) rfl (Finset.sum_congr rfl fun k _ => ?_)) rfl) rfl)
  rw [hi k, Read.val_main_v90_apply, Read.val_main_v89_apply, Read.val_main_v88_apply, Read.val_main_v87_apply, hm k,
    v86_at, v28_at]
  rfl

/-- The first result at (e, j). -/
theorem v109_at (x0 : T0) (x1 : T1) (x2 : T2) (x3 : T3) (x4 x11 x12 : TV) (e : Fin 1600000) (j : Fin 64) :
    Read.val_main_v109 (F := Ideal) x0 x1 x2 x3 x4 x11 x12 (ix2 e j)
      = Spec.bnrelu (Spec.gateM (c0 x0) (c1 x1) (c2 x2) (c3 x3) (cv x4) e j)
          (Spec.muR (Spec.gateM (c0 x0) (c1 x1) (c2 x2) (c3 x3) (cv x4)) Spec.cE j)
          (Spec.istdR (Spec.gateM (c0 x0) (c1 x1) (c2 x2) (c3 x3) (cv x4)) Spec.cE j) (cv x11 j) (cv x12 j) := by
  have hm : Read.idx_main_v94 (Read.idx_main_v95 (ix2 e j)) = ix1 j :=
    funext fun a => Fin.ext (by match a with | ⟨0, _⟩ => rfl)
  have hs : Read.idx_main_v100 (Read.idx_main_v101 (ix2 e j)) = ix1 j :=
    funext fun a => Fin.ext (by match a with | ⟨0, _⟩ => rfl)
  have hg : Read.idx_main_v103 (Read.idx_main_v104 (ix2 e j)) = ix1 j :=
    funext fun a => Fin.ext (by match a with | ⟨0, _⟩ => rfl)
  have hb : Read.idx_main_v106 (Read.idx_main_v107 (ix2 e j)) = ix1 j :=
    funext fun a => Fin.ext (by match a with | ⟨0, _⟩ => rfl)
  rw [Read.val_main_v109_apply, Read.val_main_v108_apply, Read.val_main_v105_apply, Read.val_main_v102_apply,
    Read.val_main_v96_apply, Read.val_main_v95_apply, Read.val_main_v94_apply, hm, Read.val_main_v101_apply,
    Read.val_main_v100_apply, hs, Read.val_main_v104_apply, Read.val_main_v103_apply, hg, Read.val_main_v107_apply,
    Read.val_main_v106_apply, hb, Read.val_main_call1_v0_apply, Read.val_main_call1_cst_apply, v28_at, v86_at, v99_at]
  rfl

/-! ## The messages -/

/-- A row-wise affine image of the node features at (r, j): x W + b. -/
theorem v45_at (x0 : T0) (x7 : TW) (x8 : TV) (r : Fin 50000) (j : Fin 64) :
    Read.val_main_v45 (F := Ideal) x0 x7 x8 (ix2 r j) = Spec.lin (c0 x0) (cw x7) (cv x8) r j := by
  have hl : ∀ k : Fin 64, Read.lidx_main_v42 (ix2 r j) k = ix2 r k := fun k =>
    funext fun a => Fin.ext (by match a with | ⟨0, _⟩ => rfl | ⟨1, _⟩ => rfl)
  have hr : ∀ k : Fin 64, Read.ridx_main_v42 (ix2 r j) k = ix2 k j := fun k =>
    funext fun a => Fin.ext (by match a with | ⟨0, _⟩ => rfl | ⟨1, _⟩ => rfl)
  have hb : Read.idx_main_v43 (Read.idx_main_v44 (ix2 r j)) = ix1 j :=
    funext fun a => Fin.ext (by match a with | ⟨0, _⟩ => rfl)
  rw [Read.val_main_v45_apply, Read.val_main_v42_apply, Read.val_main_v44_apply, Read.val_main_v43_apply, hb]
  unfold Spec.lin
  refine congrArg₂ (· + ·) (Finset.sum_congr rfl fun k _ => ?_) rfl
  rw [hl k, hr k]

theorem v41_at (x0 : T0) (x5 : TW) (x6 : TV) (r : Fin 50000) (j : Fin 64) :
    Read.val_main_v41 (F := Ideal) x0 x5 x6 (ix2 r j) = Spec.lin (c0 x0) (cw x5) (cv x6) r j := by
  have hl : ∀ k : Fin 64, Read.lidx_main_v38 (ix2 r j) k = ix2 r k := fun k =>
    funext fun a => Fin.ext (by match a with | ⟨0, _⟩ => rfl | ⟨1, _⟩ => rfl)
  have hr : ∀ k : Fin 64, Read.ridx_main_v38 (ix2 r j) k = ix2 k j := fun k =>
    funext fun a => Fin.ext (by match a with | ⟨0, _⟩ => rfl | ⟨1, _⟩ => rfl)
  have hb : Read.idx_main_v39 (Read.idx_main_v40 (ix2 r j)) = ix1 j :=
    funext fun a => Fin.ext (by match a with | ⟨0, _⟩ => rfl)
  rw [Read.val_main_v41_apply, Read.val_main_v38_apply, Read.val_main_v40_apply, Read.val_main_v39_apply, hb]
  unfold Spec.lin
  refine congrArg₂ (· + ·) (Finset.sum_congr rfl fun k _ => ?_) rfl
  rw [hl k, hr k]

/-- The destination rows' affine image, gathered. -/
theorem v52_at (x0 : T0) (x1 : T1) (x7 : TW) (x8 : TV) (e : Fin 1600000) (j : Fin 64) :
    Read.val_main_v52 (F := Ideal) x0 x1 x7 x8 (ix2 e j) = Spec.lin (Spec.gd (c0 x0) (c1 x1)) (cw x7) (cv x8) e j := by
  refine (gather_at (Read.val_main_v45 (F := Ideal) x0 x7 x8) _ _ e j (v51_at x1 e)).trans ?_
  rw [v45_at]
  rfl

/-- The gate at (e, j): the logistic function of the pre-activation over sqrt 64, as the reference spells it. -/
theorem v37_at (x0 : T0) (x1 : T1) (x2 : T2) (x3 : T3) (x4 : TV) (e : Fin 1600000) (j : Fin 64) :
    Read.val_main_v37 (F := Ideal) x0 x1 x2 x3 x4 (ix2 e j)
      = Spec.sigR (Spec.gateM (c0 x0) (c1 x1) (c2 x2) (c3 x3) (cv x4) e j) := by
  rw [Read.val_main_v37_apply, Read.val_main_v36_apply, Read.val_main_cst_4_apply, Read.val_main_v35_apply,
    Read.val_main_v34_apply, Read.val_main_cst_3_apply, Read.val_main_v33_apply, Read.val_main_v32_apply,
    Read.val_main_v31_apply, Read.val_main_v30_apply, Read.val_main_v29_apply, Read.val_main_cst_apply, v28_at]
  rfl

/-- The message of edge e at column j. -/
theorem v53_at (x0 : T0) (x1 : T1) (x2 : T2) (x3 : T3) (x4 : TV) (x7 : TW) (x8 : TV) (e : Fin 1600000) (j : Fin 64) :
    Read.val_main_v53 (F := Ideal) x0 x1 x2 x3 x4 x7 x8 (ix2 e j)
      = Spec.term (c0 x0) (c1 x1) (c2 x2) (c3 x3) (cv x4) (cw x7) (cv x8) Spec.sigR e j := by
  rw [Read.val_main_v53_apply, v37_at, v52_at]
  rfl

/-! ## The node values -/

/-- The accumulating scatter, as one array: zeros, the raw source words, the messages. -/
theorem v56_eq (x0 : T0) (x1 : T1) (x2 : T2) (x3 : T3) (x4 : TV) (x7 : TW) (x8 : TV) :
    Read.val_main_v56 (F := Ideal) x0 x1 x2 x3 x4 x7 x8
      = Ideal.hostScatterAdd scatter_S50000x64_S1600000x1_S1600000x64_1_0_0_1 (fun _ => Spec.z) (Spec.srcCol (c1 x1))
          (Spec.arrE (Spec.term (c0 x0) (c1 x1) (c2 x2) (c3 x3) (cv x4) (cw x7) (cv x8) Spec.sigR)) := by
  have h54 : Read.val_main_v54 (F := Ideal) = fun _ => Spec.z := funext fun i => by
    rw [Read.val_main_v54_apply, Read.val_main_cst_7_apply]; rfl
  have h55 : Read.val_main_v55 (F := Ideal) x1 = Spec.srcCol (c1 x1) := funext fun i => by
    rw [Read.val_main_v55_apply, Read.val_main_v1_apply, Read.val_main_v0_apply]
    exact congrArg x1 (funext fun a => Fin.ext (by
      match a with
      | ⟨0, _⟩ => rfl
      | ⟨1, _⟩ => exact Nat.mod_eq_of_lt (idx2_lt0 i)))
  have h53 : Read.val_main_v53 (F := Ideal) x0 x1 x2 x3 x4 x7 x8
      = Spec.arrE (Spec.term (c0 x0) (c1 x1) (c2 x2) (c3 x3) (cv x4) (cw x7) (cv x8) Spec.sigR) := funext fun u => by
    obtain ⟨p, q, rfl⟩ : ∃ (p : Fin 1600000) (q : Fin 64), u = ix2 p q := ⟨u 0, u 1, eq_ix2 u⟩
    exact (v53_at x0 x1 x2 x3 x4 x7 x8 p q).trans rfl
  unfold Read.val_main_v56
  rw [h54, h55, h53]
  rfl

/-- The node values before normalisation at (i, j). -/
theorem v57_at (x0 : T0) (x1 : T1) (x2 : T2) (x3 : T3) (x4 : TV) (x5 : TW) (x6 : TV) (x7 : TW) (x8 : TV)
    (i : Fin 50000) (j : Fin 64) :
    Read.val_main_v57 (F := Ideal) x0 x1 x2 x3 x4 x5 x6 x7 x8 (ix2 i j)
      = Spec.hmat (c0 x0) (c1 x1) (c2 x2) (c3 x3) (cv x4) (cw x5) (cv x6) (cw x7) (cv x8)
          scatter_S50000x64_S1600000x1_S1600000x64_1_0_0_1 Spec.sigR i j := by
  rw [Read.val_main_v57_apply, v41_at, v56_eq]
  rfl

/-! ## The node result -/

/-- The node values' column mean. -/
theorem v60_at (x0 : T0) (x1 : T1) (x2 : T2) (x3 : T3) (x4 : TV) (x5 : TW) (x6 : TV) (x7 : TW) (x8 : TV) (j : Fin 64) :
    Read.val_main_v60 (F := Ideal) x0 x1 x2 x3 x4 x5 x6 x7 x8 (ix1 j)
      = Spec.muR (Spec.hmat (c0 x0) (c1 x1) (c2 x2) (c3 x3) (cv x4) (cw x5) (cv x6) (cw x7) (cv x8)
          scatter_S50000x64_S1600000x1_S1600000x64_1_0_0_1 Spec.sigR) Spec.cN j := by
  have hi : ∀ k : Fin 50000, Read.idx_main_v58 (ix1 j) k = ix2 k j := fun k =>
    funext fun a => Fin.ext (by match a with | ⟨0, _⟩ => rfl | ⟨1, _⟩ => rfl)
  rw [Read.val_main_v60_apply, Read.val_main_v58_apply, Read.val_main_v59_apply, Read.val_main_cst_8_apply,
    Read.val_main_cst_9_apply]
  unfold Spec.muR
  refine congrArg₂ Ideal.div (congrArg₂ (· + ·) rfl (Finset.sum_congr rfl fun k _ => ?_)) rfl
  rw [hi k, v57_at]

/-- The node values' column inverse standard deviation. -/
theorem v73_at (x0 : T0) (x1 : T1) (x2 : T2) (x3 : T3) (x4 : TV) (x5 : TW) (x6 : TV) (x7 : TW) (x8 : TV) (j : Fin 64) :
    Read.val_main_v73 (F := Ideal) x0 x1 x2 x3 x4 x5 x6 x7 x8 (ix1 j)
      = Spec.istdR (Spec.hmat (c0 x0) (c1 x1) (c2 x2) (c3 x3) (cv x4) (cw x5) (cv x6) (cw x7) (cv x8)
          scatter_S50000x64_S1600000x1_S1600000x64_1_0_0_1 Spec.sigR) Spec.cN j := by
  have hi : ∀ k : Fin 50000, Read.idx_main_v65 (ix1 j) k = ix2 k j := fun k =>
    funext fun a => Fin.ext (by match a with | ⟨0, _⟩ => rfl | ⟨1, _⟩ => rfl)
  have hm : ∀ k : Fin 50000, Read.idx_main_v61 (Read.idx_main_v62 (ix2 k j)) = ix1 j := fun k =>
    funext fun a => Fin.ext (by match a with | ⟨0, _⟩ => rfl)
  rw [Read.val_main_v73_apply, Read.val_main_v72_apply, Read.val_main_v67_apply, Read.val_main_v65_apply,
    Read.val_main_v66_apply, Read.val_main_v71_apply, Read.val_main_cst_10_apply, Read.val_main_cst_11_apply,
    Read.val_main_cst_12_apply]
  unfold Spec.istdR Spec.varR
  refine congrArg Ideal.rsqrt (congrArg₂ (· + ·)
    (congrArg₂ Ideal.div (congrArg₂ (· + ·) rfl (Finset.sum_congr rfl fun k _ => ?_)) rfl) rfl)
  rw [hi k, Read.val_main_v64_apply, Read.val_main_v63_apply, Read.val_main_v62_apply, Read.val_main_v61_apply, hm k,
    v60_at, v57_at]
  rfl

/-- The second result at (i, j). -/
theorem v83_at (x0 : T0) (x1 : T1) (x2 : T2) (x3 : T3) (x4 : TV) (x5 : TW) (x6 : TV) (x7 : TW) (x8 x9 x10 : TV)
    (i : Fin 50000) (j : Fin 64) :
    Read.val_main_v83 (F := Ideal) x0 x1 x2 x3 x4 x5 x6 x7 x8 x9 x10 (ix2 i j)
      = Spec.bnrelu
          (Spec.hmat (c0 x0) (c1 x1) (c2 x2) (c3 x3) (cv x4) (cw x5) (cv x6) (cw x7) (cv x8)
            scatter_S50000x64_S1600000x1_S1600000x64_1_0_0_1 Spec.sigR i j)
          (Spec.muR (Spec.hmat (c0 x0) (c1 x1) (c2 x2) (c3 x3) (cv x4) (cw x5) (cv x6) (cw x7) (cv x8)
            scatter_S50000x64_S1600000x1_S1600000x64_1_0_0_1 Spec.sigR) Spec.cN j)
          (Spec.istdR (Spec.hmat (c0 x0) (c1 x1) (c2 x2) (c3 x3) (cv x4) (cw x5) (cv x6) (cw x7) (cv x8)
            scatter_S50000x64_S1600000x1_S1600000x64_1_0_0_1 Spec.sigR) Spec.cN j) (cv x9 j) (cv x10 j) := by
  have hm : Read.idx_main_v68 (Read.idx_main_v69 (ix2 i j)) = ix1 j :=
    funext fun a => Fin.ext (by match a with | ⟨0, _⟩ => rfl)
  have hs : Read.idx_main_v74 (Read.idx_main_v75 (ix2 i j)) = ix1 j :=
    funext fun a => Fin.ext (by match a with | ⟨0, _⟩ => rfl)
  have hg : Read.idx_main_v77 (Read.idx_main_v78 (ix2 i j)) = ix1 j :=
    funext fun a => Fin.ext (by match a with | ⟨0, _⟩ => rfl)
  have hb : Read.idx_main_v80 (Read.idx_main_v81 (ix2 i j)) = ix1 j :=
    funext fun a => Fin.ext (by match a with | ⟨0, _⟩ => rfl)
  rw [Read.val_main_v83_apply, Read.val_main_v82_apply, Read.val_main_v79_apply, Read.val_main_v76_apply,
    Read.val_main_v70_apply, Read.val_main_v69_apply, Read.val_main_v68_apply, hm, Read.val_main_v75_apply,
    Read.val_main_v74_apply, hs, Read.val_main_v78_apply, Read.val_main_v77_apply, hg, Read.val_main_v81_apply,
    Read.val_main_v80_apply, hb, Read.val_main_call0_v0_apply, Read.val_main_call0_cst_apply, v57_at, v60_at, v73_at]
  rfl

end Stage

/-! ## The two results of the launched arguments -/

variable (m : (ℓ : Loc nD τ sig) → Buf (Elt Ideal) ℓ)

/-- The argument arrays as launched, curried over their coordinates. -/
abbrev ax (c : Dev nD) : Fin 50000 → Fin 64 → EReal := fun i k => m ((c.tc : Thread nD τ).loc main_arg0) (ix2 i k)
abbrev aei (c : Dev nD) : Fin 2 → Fin 1600000 → BitVec 32 := fun r e => m ((c.tc : Thread nD τ).loc main_arg1) (ix2 r e)
abbrev aea (c : Dev nD) : Fin 1600000 → Fin 64 → EReal := fun e k => m ((c.tc : Thread nD τ).loc main_arg2) (ix2 e k)
abbrev awg (c : Dev nD) : Fin 192 → Fin 64 → EReal := fun r j => m ((c.tc : Thread nD τ).loc main_arg3) (ix2 r j)
abbrev abg (c : Dev nD) : Fin 64 → EReal := fun j => m ((c.tc : Thread nD τ).loc main_arg4) (ix1 j)
abbrev aws (c : Dev nD) : Fin 64 → Fin 64 → EReal := fun k j => m ((c.tc : Thread nD τ).loc main_arg5) (ix2 k j)
abbrev abs (c : Dev nD) : Fin 64 → EReal := fun j => m ((c.tc : Thread nD τ).loc main_arg6) (ix1 j)
abbrev awd (c : Dev nD) : Fin 64 → Fin 64 → EReal := fun k j => m ((c.tc : Thread nD τ).loc main_arg7) (ix2 k j)
abbrev abd (c : Dev nD) : Fin 64 → EReal := fun j => m ((c.tc : Thread nD τ).loc main_arg8) (ix1 j)
abbrev agn (c : Dev nD) : Fin 64 → EReal := fun j => m ((c.tc : Thread nD τ).loc main_arg9) (ix1 j)
abbrev abn (c : Dev nD) : Fin 64 → EReal := fun j => m ((c.tc : Thread nD τ).loc main_arg10) (ix1 j)
abbrev age (c : Dev nD) : Fin 64 → EReal := fun j => m ((c.tc : Thread nD τ).loc main_arg11) (ix1 j)
abbrev abe (c : Dev nD) : Fin 64 → EReal := fun j => m ((c.tc : Thread nD τ).loc main_arg12) (ix1 j)

/-- The gate's pre-activation of the launched arguments. -/
abbrev Mm (c : Dev nD) : Fin 1600000 → Fin 64 → EReal := Spec.gateM (ax m c) (aei m c) (aea m c) (awg m c) (abg m c)

/-- The node values of the launched arguments, the logistic function in the reference's spelling. -/
abbrev Hm (c : Dev nD) : Fin 50000 → Fin 64 → EReal :=
  Spec.hmat (ax m c) (aei m c) (aea m c) (awg m c) (abg m c) (aws m c) (abs m c) (awd m c) (abd m c)
    scatter_S50000x64_S1600000x1_S1600000x64_1_0_0_1 Spec.sigR

theorem edge (c : Dev nD) (e : Fin 1600000) (j : Fin 64) :
    Cert.ReferenceIdeal.Value.res_main_v109 (F := Ideal) m c (ix2 e j)
      = Spec.bnrelu (Mm m c e j) (Spec.muR (Mm m c) Spec.cE j) (Spec.istdR (Mm m c) Spec.cE j) (age m c j) (abe m c j) := by
  rw [Read.val_main_v109_eq]
  exact Stage.v109_at _ _ _ _ _ _ _ e j

theorem node (c : Dev nD) (i : Fin 50000) (j : Fin 64) :
    Cert.ReferenceIdeal.Value.res_main_v83 (F := Ideal) m c (ix2 i j)
      = Spec.bnrelu (Hm m c i j) (Spec.muR (Hm m c) Spec.cN j) (Spec.istdR (Hm m c) Spec.cN j) (agn m c j) (abn m c j) := by
  rw [Read.val_main_v83_eq]
  exact Stage.v83_at _ _ _ _ _ _ _ _ _ _ _ i j

end Cert.ReferenceIdeal.RefValue

end
-- ==== Proof.PreFacts.lean ====
/- What the precondition says of the idealized kernel program's launched arguments: every float entry is a real
   number, and every word of the edge index is a row number (0 ≤ w < 50000). The printed predicate is a conjunction of
   fourteen whole-array tests (|a| < +inf on the twelve float arrays; 0 ≤ w and w < 50000 on the index array), each
   decoded at an index. -/
import proofs.«418626_j55241869361500_3_alg».proof.Defs
import proofs.«418626_j55241869361500_3_alg».proof.Proof.Gen.Pre_finite_inputs
import proofs.«418626_j55241869361500_3_alg».proof.Proof.KArgs
import Idealize.ShloMosaic.Lib.ReduceAll
import Idealize.ShloMosaic.Lib.StableHlo.Predicate

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Cert.Spec (IsReal)

/-! ## One test read at an element -/

/-- A reduction by `and` over all axes (its result has one index) that comes out 1 had a 1 at every index. -/
private theorem all_of_reduce {S : Shape} {axes : List (Fin S.rank)} (hr : S.ReducesTo axes (⟨0, ![]⟩ : Shape))
    (hu : 0 < (⟨0, ![]⟩ : Shape).numel) (p : IVec S 1) (init : IVec (⟨0, ![]⟩ : Shape) 1)
    (e : Host.reduce IntOp.andi p init hr hu ix0 = 1#1) (i : S.Idx) : p i = 1#1 := by
  haveI : Subsingleton (⟨0, ![]⟩ : Shape).Idx := ⟨fun a b => funext fun d => d.elim0⟩
  exact Host.reduce_andi_all p init hr hu ix0 e i

/-- The f32 pattern `0x7F800000` is +∞. -/
private theorem ofBits_inf_f32 : Ideal.ofBits .f32 0x7F800000#32 = ⊤ := by
  simp [Ideal.ofBits, Ideal.ieee]

/-- An extended real whose absolute value `max x (-x)` is below +∞ is neither ⊥ nor ⊤: it is a real number. -/
private theorem isReal_of_abs_lt_top (x : EReal) (hx : max x (-x) < ⊤) : IsReal x := by
  induction x using EReal.rec with
  | bot => simp at hx
  | top => simp at hx
  | coe r => exact ⟨r, rfl⟩

/-- The element test `|x| < +inf` that comes out 1 says `x` is a real number. -/
private theorem isReal_of_cmp (x : Ideal .f32)
    (e : FloatOps.cmpf .olt (FloatOps.hostAbsf x) (FloatOps.ofBits (F := Ideal) .f32 0x7F800000#32) = 1#1) : IsReal x := by
  rw [Ideal.hostAbsf_def, Ideal.absf_def, Ideal.cmpf_def, Ideal.ofBits_def, ofBits_inf_f32] at e
  have hlt : max x (-x) < (⊤ : EReal) := by
    by_contra hn
    have e0 : Ideal.cmp .olt (max x (-x)) (⊤ : EReal) = 0#1 := by
      unfold Ideal.cmp
      rw [decide_eq_false hn]
      rfl
    rw [e0] at e
    exact absurd e (by decide)
  exact isReal_of_abs_lt_top x hlt

/-- The whole-array finiteness test (`|a| < +inf` at every entry, reduced by `and` over all axes): if it comes out 1,
    every entry is a real number. -/
private theorem isReal_of_test {S : Shape} {axes : List (Fin S.rank)} (hb : (⟨0, ![]⟩ : Shape).BroadcastsInDim S ![])
    (hr : S.ReducesTo axes (⟨0, ![]⟩ : Shape)) (hu : 0 < (⟨0, ![]⟩ : Shape).numel) (a : FVec Ideal S .f32)
    (e : Host.reduce IntOp.andi
        (cmpf .olt (Host.absf a) (broadcastInDim S ![] hb (constant (F := Ideal) (⟨0, ![]⟩ : Shape) .f32 0x7F800000#32)))
        (constantI (⟨0, ![]⟩ : Shape) 1 1#1) hr hu ix0 = 1#1) (i : S.Idx) : IsReal (a i) :=
  isReal_of_cmp (a i) (all_of_reduce hr hu _ _ e i)

/-- The whole-array test `0 ≤ w` (signed) that comes out 1: every word is nonnegative. -/
private theorem nonneg_of_test {S : Shape} {axes : List (Fin S.rank)} (hb : (⟨0, ![]⟩ : Shape).BroadcastsInDim S ![])
    (hr : S.ReducesTo axes (⟨0, ![]⟩ : Shape)) (hu : 0 < (⟨0, ![]⟩ : Shape).numel) (a : IVec S 32)
    (e : Host.reduce IntOp.andi
        (cmpi .sge a (broadcastInDim S ![] hb (constantI (⟨0, ![]⟩ : Shape) 32 0#32)))
        (constantI (⟨0, ![]⟩ : Shape) 1 1#1) hr hu ix0 = 1#1) (i : S.Idx) : 0 ≤ (a i).toInt := by
  have h1 : IntOp.cmpi .sge (a i) 0#32 = 1#1 := all_of_reduce hr hu _ _ e i
  have h2 := IntOp.cmpi_sge.1 h1
  have h3 : (0#32 : BitVec 32).toInt = 0 := by decide
  omega

/-- The whole-array test `w < 50000` (signed) that comes out 1: every word is below 50000. -/
private theorem lt_of_test {S : Shape} {axes : List (Fin S.rank)} (hb : (⟨0, ![]⟩ : Shape).BroadcastsInDim S ![])
    (hr : S.ReducesTo axes (⟨0, ![]⟩ : Shape)) (hu : 0 < (⟨0, ![]⟩ : Shape).numel) (a : IVec S 32)
    (e : Host.reduce IntOp.andi
        (cmpi .slt a (broadcastInDim S ![] hb (constantI (⟨0, ![]⟩ : Shape) 32 50000#32)))
        (constantI (⟨0, ![]⟩ : Shape) 1 1#1) hr hu ix0 = 1#1) (i : S.Idx) : (a i).toInt < 50000 := by
  have h1 : IntOp.cmpi .slt (a i) 50000#32 = 1#1 := all_of_reduce hr hu _ _ e i
  have h2 := IntOp.cmpi_slt.1 h1
  have h3 : (50000#32 : BitVec 32).toInt = 50000 := by decide
  omega

variable (m : (ℓ : Loc nD τ sig) → Buf (Elt Ideal) ℓ)

/-- The float arguments are real-valued. -/
structure RealArgs (c : Dev nD) : Prop where
  x : ∀ i k, IsReal (ax m c i k)
  ea : ∀ e k, IsReal (aea m c e k)
  wg : ∀ r j, IsReal (awg m c r j)
  bg : ∀ j, IsReal (abg m c j)
  ws : ∀ k j, IsReal (aws m c k j)
  bs : ∀ j, IsReal (abs m c j)
  wd : ∀ k j, IsReal (awd m c k j)
  bd : ∀ j, IsReal (abd m c j)
  gn : ∀ j, IsReal (agn m c j)
  bn : ∀ j, IsReal (abn m c j)
  ge : ∀ j, IsReal (age m c j)
  be : ∀ j, IsReal (abe m c j)

/-! ## The fourteen tests of the precondition, split and read at an index -/

/-- The precondition is the conjunction of the fourteen tests; each conjunct, read at an index, is one field. -/
private theorem facts_of_pre (h : Cert.Pre_KernelIdeal (hPre_finite_inputs := Cert.Pre_finite_inputs.Gen.facts) m) (c : Dev nD) :
    RealArgs m c ∧ InRange m c := by
  have h0 := congrFun (h c) ValueIdx.ix0
  simp only [Cert.Pre_finite_inputs.fn, Cert.Pre_finite_inputs.fn_part1, Cert.Pre_finite_inputs.fn_part2,
    Cert.Pre_finite_inputs.fn_part3] at h0
  obtain ⟨h0, elt⟩ := IntOp.andi_eq_one.1 h0
  obtain ⟨h0, ege⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  refine ⟨⟨fun i k => isReal_of_test _ _ _ _ e0 (ix2 i k), fun e k => isReal_of_test _ _ _ _ e2 (ix2 e k),
    fun r j => isReal_of_test _ _ _ _ e3 (ix2 r j), fun j => isReal_of_test _ _ _ _ e4 (ix1 j),
    fun k j => isReal_of_test _ _ _ _ e5 (ix2 k j), fun j => isReal_of_test _ _ _ _ e6 (ix1 j),
    fun k j => isReal_of_test _ _ _ _ e7 (ix2 k j), fun j => isReal_of_test _ _ _ _ e8 (ix1 j),
    fun j => isReal_of_test _ _ _ _ e9 (ix1 j), fun j => isReal_of_test _ _ _ _ e10 (ix1 j),
    fun j => isReal_of_test _ _ _ _ e11 (ix1 j), fun j => isReal_of_test _ _ _ _ e12 (ix1 j)⟩, ?_⟩
  intro r e
  exact ⟨nonneg_of_test _ _ _ _ ege (ix2 r e), lt_of_test _ _ _ _ elt (ix2 r e)⟩

theorem realArgs_of_pre (h : Cert.Pre_KernelIdeal (hPre_finite_inputs := Cert.Pre_finite_inputs.Gen.facts) m) (c : Dev nD) :
    RealArgs m c :=
  (facts_of_pre m h c).1

theorem inRange_of_pre (h : Cert.Pre_KernelIdeal (hPre_finite_inputs := Cert.Pre_finite_inputs.Gen.facts) m) (c : Dev nD) :
    InRange m c :=
  (facts_of_pre m h c).2

end Cert.KernelIdeal.Chain

end
-- ==== Proof.lean ====
/-
  The claim: the kernel program (five pipelined regions among host stretches) and its jnp reference compute the same two
  arrays over the extended reals, for real-valued float inputs and an edge index whose words are row numbers.

  Both programs compute, for a graph layer with 50000 nodes and 1600000 edges of width 64: the gate pre-activation M of
  the gathered source and destination rows and the edge features; the messages sigma(M / 8) * (destination rows Wd + bd),
  accumulated at their source rows and added to x Ws + bs; and each of the two arrays normalised per column by its mean
  and biased variance, scaled, shifted and clamped below at zero.  They differ in three spellings, each joined by a law:
  the logistic function (logistic (t * 0.125) against 1 / (1 + exp (-(t / sqrt 64)))); the column mean (block sums laid
  out eight times, summed, over 8, over the row count, against the plain sum over the row count); and the variance (mean
  of squares minus squared mean against the mean of squared deviations).  The last two hold for real entries only, which
  is where the precondition's finiteness is used; the range of the index words is used where the kernel's row gather
  tests its indices and the reference's does not.
-/
import proofs.«418626_j55241869361500_3_alg».proof.Defs
import proofs.«418626_j55241869361500_3_alg».proof.Proof.Gen.Kernel
import proofs.«418626_j55241869361500_3_alg».proof.Proof.Gen.Kernel.Skeleton
import proofs.«418626_j55241869361500_3_alg».proof.Proof.Gen.Kernel.Launch
import proofs.«418626_j55241869361500_3_alg».proof.Proof.Gen.Kernel.Points
import proofs.«418626_j55241869361500_3_alg».proof.Proof.Gen.Kernel.Frame
import proofs.«418626_j55241869361500_3_alg».proof.Proof.Gen.KernelIdeal
import proofs.«418626_j55241869361500_3_alg».proof.Proof.Gen.KernelIdeal.Skeleton
import proofs.«418626_j55241869361500_3_alg».proof.Proof.Gen.KernelIdeal.Launch
import proofs.«418626_j55241869361500_3_alg».proof.Proof.Gen.KernelIdeal.Points
import proofs.«418626_j55241869361500_3_alg».proof.Proof.Gen.KernelIdeal.Frame
import proofs.«418626_j55241869361500_3_alg».proof.Proof.Gen.ReferenceIdeal
import proofs.«418626_j55241869361500_3_alg».proof.Proof.Gen.Pre_finite_inputs
import proofs.«418626_j55241869361500_3_alg».proof.Proof.Gen.ReferenceIdeal.Run
import proofs.«418626_j55241869361500_3_alg».proof.Proof.Gen.ReferenceIdeal.Read
import proofs.«418626_j55241869361500_3_alg».proof.Proof.Spec
import proofs.«418626_j55241869361500_3_alg».proof.Proof.SpecMath
import proofs.«418626_j55241869361500_3_alg».proof.Proof.KRun
import proofs.«418626_j55241869361500_3_alg».proof.Proof.KArgs
import proofs.«418626_j55241869361500_3_alg».proof.Proof.KC2
import proofs.«418626_j55241869361500_3_alg».proof.Proof.KC3
import proofs.«418626_j55241869361500_3_alg».proof.Proof.Ref
import proofs.«418626_j55241869361500_3_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.KernelIdeal.Chain (RealArgs InRange realArgs_of_pre inRange_of_pre)

/-! ## The frames and the idealization -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)
/-- The ideal pass rewrote nothing. -/
theorem preserves : Cert.preserves_Kernel_KernelIdeal := trivial

/-! ## The two results are the same functions of arguments that agree -/

section Agree

open Cert.Spec (IsReal)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two scatters' dimension numbers are one record. -/
theorem scatter_eq : Cert.ReferenceIdeal.scatter_S50000x64_S1600000x1_S1600000x64_1_0_0_1
    = Cert.KernelIdeal.scatter_S50000x64_S1600000x1_S1600000x64_1_0_0_1 := rfl

/-- The two programs' argument arrays agree. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

variable {m m' c}

/-- Agreeing arguments give the same gate pre-activation. -/
theorem Mm_eq (h : Agree m m' c) : Cert.ReferenceIdeal.RefValue.Mm m' c = Cert.KernelIdeal.Chain.Mm m c := by
  obtain ⟨h0, h1, h2, h3, h4, -⟩ := h
  show Spec.gateM _ _ _ _ _ = Spec.gateM _ _ _ _ _
  congr 1
  · funext i k; exact congrFun h0 (ix2 i k)
  · funext r e; exact congrFun h1 (ix2 r e)
  · funext e k; exact congrFun h2 (ix2 e k)
  · funext r j; exact congrFun h3 (ix2 r j)
  · funext j; exact congrFun h4 (ix1 j)

/-- Agreeing arguments give the same node values: the two spellings of the logistic function are one function, and the
    two scatters' dimension numbers one record. -/
theorem Hm_eq (h : Agree m m' c) : Cert.ReferenceIdeal.RefValue.Hm m' c = Cert.KernelIdeal.Chain.Hm m c := by
  obtain ⟨h0, h1, h2, h3, h4, h5, h6, h7, h8, -⟩ := h
  have hs : Spec.sigR = Spec.sigK := funext fun t => (Spec.sigK_eq_sigR t).symm
  show Spec.hmat _ _ _ _ _ _ _ _ _ _ _ = Spec.hmat _ _ _ _ _ _ _ _ _ _ _
  rw [hs, scatter_eq]
  congr 1
  · funext i k; exact congrFun h0 (ix2 i k)
  · funext r e; exact congrFun h1 (ix2 r e)
  · funext e k; exact congrFun h2 (ix2 e k)
  · funext r j; exact congrFun h3 (ix2 r j)
  · funext j; exact congrFun h4 (ix1 j)
  · funext k j; exact congrFun h5 (ix2 k j)
  · funext j; exact congrFun h6 (ix1 j)
  · funext k j; exact congrFun h7 (ix2 k j)
  · funext j; exact congrFun h8 (ix1 j)

/-- THE EDGE RESULT: the reference's array is the array the kernel program's last boundary holds. The kernel's mean and
    variance are the reference's because the gate pre-activation of real-valued inputs is real-valued. -/
theorem edge_eq (hpre : Cert.Pre_KernelIdeal m) (h : Agree m m' c) (i : Spec.SE64.Idx) :
    Cert.ReferenceIdeal.Value.res_main_v109 (F := Ideal) m' c i
      = Cert.KernelIdeal.Gen.W13 m ρ c (Proc.devRef .tc Cert.KernelIdeal.main_v49) i := by
  obtain ⟨e, j, rfl⟩ : ∃ (e : Fin 1600000) (j : Fin 64), i = ix2 e j := ⟨i 0, i 1, eq_ix2 i⟩
  have hR := realArgs_of_pre m hpre c
  have hM : ∀ e j, IsReal (Cert.KernelIdeal.Chain.Mm m c e j) := Spec.isReal_gateM _ _ _ _ _ hR.x hR.ea hR.wg hR.bg
  rw [Cert.ReferenceIdeal.RefValue.edge, Cert.KernelIdeal.Chain.edge_out m ρ c (inRange_of_pre m hpre c), Mm_eq h,
    Spec.muK_eq_muR Spec.hE (by norm_num) _ hM Spec.cE (by rw [Spec.cE_eq]; norm_num) j,
    Spec.istdK_eq_istdR Spec.hE (by norm_num) _ hM Spec.cE (by rw [Spec.cE_eq]; norm_num) j]
  obtain ⟨-, -, -, -, -, -, -, -, -, -, -, h11, h12⟩ := h
  have hg : Cert.ReferenceIdeal.RefValue.age m' c j = Cert.KernelIdeal.Chain.age m c j := congrFun h11 (ix1 j)
  have hb : Cert.ReferenceIdeal.RefValue.abe m' c j = Cert.KernelIdeal.Chain.abe m c j := congrFun h12 (ix1 j)
  rw [hg, hb]

/-- THE NODE RESULT, likewise: the node values of real-valued inputs are real-valued. -/
theorem node_eq (hpre : Cert.Pre_KernelIdeal m) (h : Agree m m' c) (i : Spec.SN64.Idx) :
    Cert.ReferenceIdeal.Value.res_main_v83 (F := Ideal) m' c i
      = Cert.KernelIdeal.Gen.W13 m ρ c (Proc.devRef .tc Cert.KernelIdeal.main_v85) i := by
  obtain ⟨a, j, rfl⟩ : ∃ (a : Fin 50000) (j : Fin 64), i = ix2 a j := ⟨i 0, i 1, eq_ix2 i⟩
  have hR := realArgs_of_pre m hpre c
  have hH : ∀ a j, IsReal (Cert.KernelIdeal.Chain.Hm m c a j) :=
    Spec.isReal_hmat _ _ _ _ _ _ _ _ _ _ hR.x hR.ea hR.wg hR.bg hR.ws hR.bs hR.wd hR.bd
  rw [Cert.ReferenceIdeal.RefValue.node, Cert.KernelIdeal.Chain.node_out m ρ c (inRange_of_pre m hpre c), Hm_eq h,
    Spec.muK_eq_muR Spec.hN (by norm_num) _ hH Spec.cN (by rw [Spec.cN_eq]; norm_num) j,
    Spec.istdK_eq_istdR Spec.hN (by norm_num) _ hH Spec.cN (by rw [Spec.cN_eq]; norm_num) j]
  obtain ⟨-, -, -, -, -, -, -, -, -, h9, h10, -⟩ := h
  have hg : Cert.ReferenceIdeal.RefValue.agn m' c j = Cert.KernelIdeal.Chain.agn m c j := congrFun h9 (ix1 j)
  have hb : Cert.ReferenceIdeal.RefValue.abn m' c j = Cert.KernelIdeal.Chain.abn m c j := congrFun h10 (ix1 j)
  rw [hg, hb]

end Agree

/-- Run from memories that agree on the arguments, both idealized programs end, with equal results: the kernel program's
    at the contents its last segment boundary holds for them, the reference's at its composed terms. -/
theorem algebraic : Cert.algebraic_KernelIdeal_ReferenceIdeal := by
  intro m ρ m' ρ' hpre hagree
  refine ⟨fun c => Cert.KernelIdeal.Gen.W13 m ρ c (Proc.devRef .tc Cert.KernelIdeal.main_v85),
    fun c => Cert.KernelIdeal.Gen.W13 m ρ c (Proc.devRef .tc Cert.KernelIdeal.main_v49),
    Cert.KernelIdeal.Vals.run_vals m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · exact funext fun i => node_eq ρ hpre (hagree c) i
  · exact funext fun i => edge_eq ρ hpre (hagree c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
